-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x24 : Shape := ⟨2, ![100000, 24]⟩
abbrev S20000x18 : Shape := ⟨2, ![20000, 18]⟩
abbrev S2000000 : Shape := ⟨1, ![2000000]⟩
abbrev S1000000 : Shape := ⟨1, ![1000000]⟩
abbrev S24x128 : Shape := ⟨2, ![24, 128]⟩
abbrev S128 : Shape := ⟨1, ![128]⟩
abbrev S18x128 : Shape := ⟨2, ![18, 128]⟩
abbrev S128x128 : Shape := ⟨2, ![128, 128]⟩
abbrev S256x64 : Shape := ⟨2, ![256, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x24 : S_.BroadcastsInDim S100000x24 (![] : Fin 0 → Fin S100000x24.rank)
  reducesTo_S100000x24_S_d0_1 : S100000x24.ReducesTo [0, 1] S_
  h_S_ : 0 < S_.numel
  bcast_S_S20000x18 : S_.BroadcastsInDim S20000x18 (![] : Fin 0 → Fin S20000x18.rank)
  reducesTo_S20000x18_S_d0_1 : S20000x18.ReducesTo [0, 1] S_
  bcast_S_S24x128 : S_.BroadcastsInDim S24x128 (![] : Fin 0 → Fin S24x128.rank)
  reducesTo_S24x128_S_d0_1 : S24x128.ReducesTo [0, 1] S_
  bcast_S_S128 : S_.BroadcastsInDim S128 (![] : Fin 0 → Fin S128.rank)
  reducesTo_S128_S_d0 : S128.ReducesTo [0] S_
  bcast_S_S18x128 : S_.BroadcastsInDim S18x128 (![] : Fin 0 → Fin S18x128.rank)
  reducesTo_S18x128_S_d0_1 : S18x128.ReducesTo [0, 1] S_
  bcast_S_S128x128 : S_.BroadcastsInDim S128x128 (![] : Fin 0 → Fin S128x128.rank)
  reducesTo_S128x128_S_d0_1 : S128x128.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S2000000 : S_.BroadcastsInDim S2000000 (![] : Fin 0 → Fin S2000000.rank)
  reducesTo_S2000000_S_d0 : S2000000.ReducesTo [0] S_
  bcast_S_S1000000 : S_.BroadcastsInDim S1000000 (![] : Fin 0 → Fin S1000000.rank)
  reducesTo_S1000000_S_d0 : S1000000.ReducesTo [0] S_

variable [Facts]

def fn_part7 {F : FTy → Type} [FloatOps F] (main_arg4 : IVec S1000000 32) (main_arg5 : IVec S1000000 32) (main_v114 : IVec S_ 1) (main_v117 : IVec S_ 1) : IVec S_ 1 :=
  let main_v118 : IVec S_ 1 := andi main_v114 main_v117
  let main_c_48 : IVec S_ 32 := constantI S_ 32 99999#32
  let main_v119 : IVec S1000000 32 := broadcastInDim S1000000 ![] bcast_S_S1000000 main_c_48
  let main_v120 : IVec S1000000 1 := cmpi .sle main_arg4 main_v119
  let main_c_49 : IVec S_ 1 := constantI S_ 1 1#1
  let main_v121 : IVec S_ 1 := (fun x v => Host.reduce IntOp.andi x v reducesTo_S1000000_S_d0 h_S_) main_v120 main_c_49
  let main_v122 : IVec S_ 1 := andi main_v118 main_v121
  let main_c_50 : IVec S_ 32 := constantI S_ 32 0#32
  let main_v123 : IVec S1000000 32 := broadcastInDim S1000000 ![] bcast_S_S1000000 main_c_50
  let main_v124 : IVec S1000000 1 := cmpi .sge main_arg5 main_v123
  let main_c_51 : IVec S_ 1 := constantI S_ 1 1#1
  let main_v125 : IVec S_ 1 := (fun x v => Host.reduce IntOp.andi x v reducesTo_S1000000_S_d0 h_S_) main_v124 main_c_51
  let main_v126 : IVec S_ 1 := andi main_v122 main_v125
  let main_c_52 : IVec S_ 32 := constantI S_ 32 19999#32
  let main_v127 : IVec S1000000 32 := broadcastInDim S1000000 ![] bcast_S_S1000000 main_c_52
  let main_v128 : IVec S1000000 1 := cmpi .sle main_arg5 main_v127
  let main_c_53 : IVec S_ 1 := constantI S_ 1 1#1
  let main_v129 : IVec S_ 1 := (fun x v => Host.reduce IntOp.andi x v reducesTo_S1000000_S_d0 h_S_) main_v128 main_c_53
  let main_v130 : IVec S_ 1 := andi main_v126 main_v129
  main_v130

def fn_part6 {F : FTy → Type} [FloatOps F] (main_arg2 : IVec S2000000 32) (main_arg3 : IVec S2000000 32) (main_arg4 : IVec S1000000 32) (main_arg5 : IVec S1000000 32) (main_v98 : IVec S_ 1) (main_v101 : IVec S_ 1) : IVec S_ 1 :=
  let main_v102 : IVec S_ 1 := andi main_v98 main_v101
  let main_c_40 : IVec S_ 32 := constantI S_ 32 99999#32
  let main_v103 : IVec S2000000 32 := broadcastInDim S2000000 ![] bcast_S_S2000000 main_c_40
  let main_v104 : IVec S2000000 1 := cmpi .sle main_arg2 main_v103
  let main_c_41 : IVec S_ 1 := constantI S_ 1 1#1
  let main_v105 : IVec S_ 1 := (fun x v => Host.reduce IntOp.andi x v reducesTo_S2000000_S_d0 h_S_) main_v104 main_c_41
  let main_v106 : IVec S_ 1 := andi main_v102 main_v105
  let main_c_42 : IVec S_ 32 := constantI S_ 32 0#32
  let main_v107 : IVec S2000000 32 := broadcastInDim S2000000 ![] bcast_S_S2000000 main_c_42
  let main_v108 : IVec S2000000 1 := cmpi .sge main_arg3 main_v107
  let main_c_43 : IVec S_ 1 := constantI S_ 1 1#1
  let main_v109 : IVec S_ 1 := (fun x v => Host.reduce IntOp.andi x v reducesTo_S2000000_S_d0 h_S_) main_v108 main_c_43
  let main_v110 : IVec S_ 1 := andi main_v106 main_v109
  let main_c_44 : IVec S_ 32 := constantI S_ 32 19999#32
  let main_v111 : IVec S2000000 32 := broadcastInDim S2000000 ![] bcast_S_S2000000 main_c_44
  let main_v112 : IVec S2000000 1 := cmpi .sle main_arg3 main_v111
  let main_c_45 : IVec S_ 1 := constantI S_ 1 1#1
  let main_v113 : IVec S_ 1 := (fun x v => Host.reduce IntOp.andi x v reducesTo_S2000000_S_d0 h_S_) main_v112 main_c_45
  let main_v114 : IVec S_ 1 := andi main_v110 main_v113
  let main_c_46 : IVec S_ 32 := constantI S_ 32 0#32
  let main_v115 : IVec S1000000 32 := broadcastInDim S1000000 ![] bcast_S_S1000000 main_c_46
  let main_v116 : IVec S1000000 1 := cmpi .sge main_arg4 main_v115
  let main_c_47 : IVec S_ 1 := constantI S_ 1 1#1
  let main_v117 : IVec S_ 1 := (fun x v => Host.reduce IntOp.andi x v reducesTo_S1000000_S_d0 h_S_) main_v116 main_c_47
  fn_part7 (F := F) main_arg4 main_arg5 main_v114 main_v117

def fn_part5 {F : FTy → Type} [FloatOps F] (main_arg2 : IVec S2000000 32) (main_arg3 : IVec S2000000 32) (main_arg4 : IVec S1000000 32) (main_arg5 : IVec S1000000 32) (main_arg22 : FVec F S16x1 .f32) (main_arg23 : FVec F S1 .f32) (main_v83 : IVec S_ 1) (main_v84 : FVec F S16 .f32) (main_cst_32 : FVec F S_ .f32) : IVec S_ 1 :=
  let main_v85 : FVec F S16 .f32 := broadcastInDim S16 ![] bcast_S_S16 main_cst_32
  let main_v86 : IVec S16 1 := cmpf .olt main_v84 main_v85
  let main_c_33 : IVec S_ 1 := constantI S_ 1 1#1
  let main_v87 : IVec S_ 1 := (fun x v => Host.reduce IntOp.andi x v reducesTo_S16_S_d0 h_S_) main_v86 main_c_33
  let main_v88 : IVec S_ 1 := andi main_v83 main_v87
  let main_v89 : FVec F S16x1 .f32 := Host.absf main_arg22
  let main_cst_34 : FVec F S_ .f32 := constant S_ .f32 0x7F800000#32
  let main_v90 : FVec F S16x1 .f32 := broadcastInDim S16x1 ![] bcast_S_S16x1 main_cst_34
  let main_v91 : IVec S16x1 1 := cmpf .olt main_v89 main_v90
  let main_c_35 : IVec S_ 1 := constantI S_ 1 1#1
  let main_v92 : IVec S_ 1 := (fun x v => Host.reduce IntOp.andi x v reducesTo_S16x1_S_d0_1 h_S_) main_v91 main_c_35
  let main_v93 : IVec S_ 1 := andi main_v88 main_v92
  let main_v94 : FVec F S1 .f32 := Host.absf main_arg23
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_c_38 : IVec S_ 32 := constantI S_ 32 0#32
  let main_v99 : IVec S2000000 32 := broadcastInDim S2000000 ![] bcast_S_S2000000 main_c_38
  let main_v100 : IVec S2000000 1 := cmpi .sge main_arg2 main_v99
  let main_c_39 : IVec S_ 1 := constantI S_ 1 1#1
  let main_v101 : IVec S_ 1 := (fun x v => Host.reduce IntOp.andi x v reducesTo_S2000000_S_d0 h_S_) main_v100 main_c_39
  fn_part6 (F := F) main_arg2 main_arg3 main_arg4 main_arg5 main_v98 main_v101

def fn_part4 {F : FTy → Type} [FloatOps F] (main_arg2 : IVec S2000000 32) (main_arg3 : IVec S2000000 32) (main_arg4 : IVec S1000000 32) (main_arg5 : IVec S1000000 32) (main_arg18 : FVec F S256x64 .f32) (main_arg19 : FVec F S64 .f32) (main_arg20 : FVec F S64x16 .f32) (main_arg21 : FVec F S16 .f32) (main_arg22 : FVec F S16x1 .f32) (main_arg23 : FVec F S1 .f32) (main_v63 : IVec S_ 1) (main_v67 : IVec S_ 1) : IVec S_ 1 :=
  let main_v68 : IVec S_ 1 := andi main_v63 main_v67
  let main_v69 : FVec F S256x64 .f32 := Host.absf main_arg18
  let main_cst_26 : FVec F S_ .f32 := constant S_ .f32 0x7F800000#32
  let main_v70 : FVec F S256x64 .f32 := broadcastInDim S256x64 ![] bcast_S_S256x64 main_cst_26
  let main_v71 : IVec S256x64 1 := cmpf .olt main_v69 main_v70
  let main_c_27 : IVec S_ 1 := constantI S_ 1 1#1
  let main_v72 : IVec S_ 1 := (fun x v => Host.reduce IntOp.andi x v reducesTo_S256x64_S_d0_1 h_S_) main_v71 main_c_27
  let main_v73 : IVec S_ 1 := andi main_v68 main_v72
  let main_v74 : FVec F S64 .f32 := Host.absf main_arg19
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x16 .f32 := Host.absf main_arg20
  let main_cst_30 : FVec F S_ .f32 := constant S_ .f32 0x7F800000#32
  let main_v80 : FVec F S64x16 .f32 := broadcastInDim S64x16 ![] bcast_S_S64x16 main_cst_30
  let main_v81 : IVec S64x16 1 := cmpf .olt main_v79 main_v80
  let main_c_31 : IVec S_ 1 := constantI S_ 1 1#1
  let main_v82 : IVec S_ 1 := (fun x v => Host.reduce IntOp.andi x v reducesTo_S64x16_S_d0_1 h_S_) main_v81 main_c_31
  let main_v83 : IVec S_ 1 := andi main_v78 main_v82
  let main_v84 : FVec F S16 .f32 := Host.absf main_arg21
  let main_cst_32 : FVec F S_ .f32 := constant S_ .f32 0x7F800000#32
  fn_part5 (F := F) main_arg2 main_arg3 main_arg4 main_arg5 main_arg22 main_arg23 main_v83 main_v84 main_cst_32

def fn_part3 {F : FTy → Type} [FloatOps F] (main_arg2 : IVec S2000000 32) (main_arg3 : IVec S2000000 32) (main_arg4 : IVec S1000000 32) (main_arg5 : IVec S1000000 32) (main_arg15 : FVec F S128x128 .f32) (main_arg16 : FVec F S128 .f32) (main_arg17 : FVec F S128x128 .f32) (main_arg18 : FVec F S256x64 .f32) (main_arg19 : FVec F S64 .f32) (main_arg20 : FVec F S64x16 .f32) (main_arg21 : FVec F S16 .f32) (main_arg22 : FVec F S16x1 .f32) (main_arg23 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg15
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg17
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg2 main_arg3 main_arg4 main_arg5 main_arg18 main_arg19 main_arg20 main_arg21 main_arg22 main_arg23 main_v63 main_v67

def fn_part2 {F : FTy → Type} [FloatOps F] (main_arg2 : IVec S2000000 32) (main_arg3 : IVec S2000000 32) (main_arg4 : IVec S1000000 32) (main_arg5 : IVec S1000000 32) (main_arg11 : FVec F S24x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S256x64 .f32) (main_arg19 : FVec F S64 .f32) (main_arg20 : FVec F S64x16 .f32) (main_arg21 : FVec F S16 .f32) (main_arg22 : FVec F S16x1 .f32) (main_arg23 : FVec F S1 .f32) (main_v33 : IVec S_ 1) : IVec S_ 1 :=
  let main_v34 : FVec F S24x128 .f32 := Host.absf main_arg11
  let main_cst_12 : FVec F S_ .f32 := constant S_ .f32 0x7F800000#32
  let main_v35 : FVec F S24x128 .f32 := broadcastInDim S24x128 ![] bcast_S_S24x128 main_cst_12
  let main_v36 : IVec S24x128 1 := cmpf .olt main_v34 main_v35
  let main_c_13 : IVec S_ 1 := constantI S_ 1 1#1
  let main_v37 : IVec S_ 1 := (fun x v => Host.reduce IntOp.andi x v reducesTo_S24x128_S_d0_1 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg14
  let main_cst_18 : FVec F S_ .f32 := constant S_ .f32 0x7F800000#32
  let main_v50 : FVec F S128x128 .f32 := broadcastInDim S128x128 ![] bcast_S_S128x128 main_cst_18
  fn_part3 (F := F) main_arg2 main_arg3 main_arg4 main_arg5 main_arg15 main_arg16 main_arg17 main_arg18 main_arg19 main_arg20 main_arg21 main_arg22 main_arg23 main_v48 main_v49 main_v50

def fn_part1 {F : FTy → Type} [FloatOps F] (main_arg2 : IVec S2000000 32) (main_arg3 : IVec S2000000 32) (main_arg4 : IVec S1000000 32) (main_arg5 : IVec S1000000 32) (main_arg8 : FVec F S18x128 .f32) (main_arg9 : FVec F S18x128 .f32) (main_arg10 : FVec F S128 .f32) (main_arg11 : FVec F S24x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S256x64 .f32) (main_arg19 : FVec F S64 .f32) (main_arg20 : FVec F S64x16 .f32) (main_arg21 : FVec F S16 .f32) (main_arg22 : FVec F S16x1 .f32) (main_arg23 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S18x128 .f32 := Host.absf main_arg8
  let main_cst_6 : FVec F S_ .f32 := constant S_ .f32 0x7F800000#32
  let main_v20 : FVec F S18x128 .f32 := broadcastInDim S18x128 ![] bcast_S_S18x128 main_cst_6
  let main_v21 : IVec S18x128 1 := cmpf .olt main_v19 main_v20
  let main_c_7 : IVec S_ 1 := constantI S_ 1 1#1
  let main_v22 : IVec S_ 1 := (fun x v => Host.reduce IntOp.andi x v reducesTo_S18x128_S_d0_1 h_S_) main_v21 main_c_7
  let main_v23 : IVec S_ 1 := andi main_v18 main_v22
  let main_v24 : FVec F S18x128 .f32 := Host.absf main_arg9
  let main_cst_8 : FVec F S_ .f32 := constant S_ .f32 0x7F800000#32
  let main_v25 : FVec F S18x128 .f32 := broadcastInDim S18x128 ![] bcast_S_S18x128 main_cst_8
  let main_v26 : IVec S18x128 1 := cmpf .olt main_v24 main_v25
  let main_c_9 : IVec S_ 1 := constantI S_ 1 1#1
  let main_v27 : IVec S_ 1 := (fun x v => Host.reduce IntOp.andi x v reducesTo_S18x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg3 main_arg4 main_arg5 main_arg11 main_arg12 main_arg13 main_arg14 main_arg15 main_arg16 main_arg17 main_arg18 main_arg19 main_arg20 main_arg21 main_arg22 main_arg23 main_v33

def fn {F : FTy → Type} [FloatOps F] (main_arg0 : FVec F S100000x24 .f32) (main_arg1 : FVec F S20000x18 .f32) (main_arg2 : IVec S2000000 32) (main_arg3 : IVec S2000000 32) (main_arg4 : IVec S1000000 32) (main_arg5 : IVec S1000000 32) (main_arg6 : FVec F S24x128 .f32) (main_arg7 : FVec F S128 .f32) (main_arg8 : FVec F S18x128 .f32) (main_arg9 : FVec F S18x128 .f32) (main_arg10 : FVec F S128 .f32) (main_arg11 : FVec F S24x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S256x64 .f32) (main_arg19 : FVec F S64 .f32) (main_arg20 : FVec F S64x16 .f32) (main_arg21 : FVec F S16 .f32) (main_arg22 : FVec F S16x1 .f32) (main_arg23 : FVec F S1 .f32) : IVec S_ 1 :=
  let main_v0 : FVec F S100000x24 .f32 := Host.absf main_arg0
  let main_cst : FVec F S_ .f32 := constant S_ .f32 0x7F800000#32
  let main_v1 : FVec F S100000x24 .f32 := broadcastInDim S100000x24 ![] bcast_S_S100000x24 main_cst
  let main_v2 : IVec S100000x24 1 := cmpf .olt main_v0 main_v1
  let main_c : IVec S_ 1 := constantI S_ 1 1#1
  let main_v3 : IVec S_ 1 := (fun x v => Host.reduce IntOp.andi x v reducesTo_S100000x24_S_d0_1 h_S_) main_v2 main_c
  let main_v4 : FVec F S20000x18 .f32 := Host.absf main_arg1
  let main_cst_0 : FVec F S_ .f32 := constant S_ .f32 0x7F800000#32
  let main_v5 : FVec F S20000x18 .f32 := broadcastInDim S20000x18 ![] bcast_S_S20000x18 main_cst_0
  let main_v6 : IVec S20000x18 1 := cmpf .olt main_v4 main_v5
  let main_c_1 : IVec S_ 1 := constantI S_ 1 1#1
  let main_v7 : IVec S_ 1 := (fun x v => Host.reduce IntOp.andi x v reducesTo_S20000x18_S_d0_1 h_S_) main_v6 main_c_1
  let main_v8 : IVec S_ 1 := andi main_v3 main_v7
  let main_v9 : FVec F S24x128 .f32 := Host.absf main_arg6
  let main_cst_2 : FVec F S_ .f32 := constant S_ .f32 0x7F800000#32
  let main_v10 : FVec F S24x128 .f32 := broadcastInDim S24x128 ![] bcast_S_S24x128 main_cst_2
  let main_v11 : IVec S24x128 1 := cmpf .olt main_v9 main_v10
  let main_c_3 : IVec S_ 1 := constantI S_ 1 1#1
  let main_v12 : IVec S_ 1 := (fun x v => Host.reduce IntOp.andi x v reducesTo_S24x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg4 main_arg5 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S100000x24 : Shape := ⟨2, ![100000, 24]⟩
abbrev S20000x18 : Shape := ⟨2, ![20000, 18]⟩
abbrev S2000000 : Shape := ⟨1, ![2000000]⟩
abbrev S1000000 : Shape := ⟨1, ![1000000]⟩
abbrev S24x128 : Shape := ⟨2, ![24, 128]⟩
abbrev S128 : Shape := ⟨1, ![128]⟩
abbrev S18x128 : Shape := ⟨2, ![18, 128]⟩
abbrev S128x128 : Shape := ⟨2, ![128, 128]⟩
abbrev S256x64 : Shape := ⟨2, ![256, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S_ : Shape := ⟨0, ![]⟩
abbrev S2000000x1 : Shape := ⟨2, ![2000000, 1]⟩
abbrev S1x1 : Shape := ⟨2, ![1, 1]⟩
abbrev S2000000x24 : Shape := ⟨2, ![2000000, 24]⟩
abbrev S20000x24 : Shape := ⟨2, ![20000, 24]⟩
abbrev S20000 : Shape := ⟨1, ![20000]⟩
abbrev S20000x1 : Shape := ⟨2, ![20000, 1]⟩
abbrev S2000000x18 : Shape := ⟨2, ![2000000, 18]⟩
abbrev S100000x18 : Shape := ⟨2, ![100000, 18]⟩
abbrev S100000 : Shape := ⟨1, ![100000]⟩
abbrev S100000x1 : Shape := ⟨2, ![100000, 1]⟩
abbrev S1x128 : Shape := ⟨2, ![1, 128]⟩
abbrev S20000x128 : Shape := ⟨2, ![20000, 128]⟩
abbrev S4000x24 : Shape := ⟨2, ![4000, 24]⟩
abbrev S4000x18 : Shape := ⟨2, ![4000, 18]⟩
abbrev S4000x128 : Shape := ⟨2, ![4000, 128]⟩
abbrev S100000x128 : Shape := ⟨2, ![100000, 128]⟩
abbrev S2000000x128 : Shape := ⟨2, ![2000000, 128]⟩
abbrev S1000000x1 : Shape := ⟨2, ![1000000, 1]⟩
abbrev S1000000x128 : Shape := ⟨2, ![1000000, 128]⟩
abbrev S1000000x256 : Shape := ⟨2, ![1000000, 256]⟩
abbrev S1x64 : Shape := ⟨2, ![1, 64]⟩
abbrev S1x16 : Shape := ⟨2, ![1, 16]⟩
abbrev S8000x256 : Shape := ⟨2, ![8000, 256]⟩
abbrev S8000x1 : Shape := ⟨2, ![8000, 1]⟩
abbrev S8000x64 : Shape := ⟨2, ![8000, 64]⟩
abbrev S8000x16 : Shape := ⟨2, ![8000, 16]⟩

abbrev nBuf : Space → Nat
  | .hbm => 240
  | .vmem => 46
  | .smem => 0
  | _ => 0

abbrev hbmTy0_0 (i : Nat) : BufTy := match i % 128 with
  | 0 => ⟨S100000x24, .f32⟩
  | 1 => ⟨S20000x18, .f32⟩
  | 2 => ⟨S2000000, .i32⟩
  | 3 => ⟨S2000000, .i32⟩
  | 4 => ⟨S1000000, .i32⟩
  | 5 => ⟨S1000000, .i32⟩
  | 6 => ⟨S24x128, .f32⟩
  | 7 => ⟨S128, .f32⟩
  | 8 => ⟨S18x128, .f32⟩
  | 9 => ⟨S18x128, .f32⟩
  | 10 => ⟨S128, .f32⟩
  | 11 => ⟨S24x128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x128, .f32⟩
  | 18 => ⟨S256x64, .f32⟩
  | 19 => ⟨S64, .f32⟩
  | 20 => ⟨S64x16, .f32⟩
  | 21 => ⟨S16, .f32⟩
  | 22 => ⟨S16x1, .f32⟩
  | 23 => ⟨S1, .f32⟩
  | 24 => ⟨S_, .i32⟩
  | 25 => ⟨S2000000, .i32⟩
  | 26 => ⟨S2000000, .i1⟩
  | 27 => ⟨S_, .i32⟩
  | 28 => ⟨S2000000, .i32⟩
  | 29 => ⟨S2000000, .i32⟩
  | 30 => ⟨S2000000, .i32⟩
  | 31 => ⟨S2000000x1, .i32⟩
  | 32 => ⟨S1, .i32⟩
  | 33 => ⟨S_, .i32⟩
  | 34 => ⟨S2000000x1, .i32⟩
  | 35 => ⟨S2000000x1, .i1⟩
  | 36 => ⟨S1x1, .i32⟩
  | 37 => ⟨S2000000x1, .i32⟩
  | 38 => ⟨S2000000x1, .i1⟩
  | 39 => ⟨S2000000x1, .i1⟩
  | 40 => ⟨S_, .i1⟩
  | 41 => ⟨S2000000, .i1⟩
  | 42 => ⟨S2000000x24, .f32⟩
  | 43 => ⟨S2000000x24, .i1⟩
  | 44 => ⟨S_, .f32⟩
  | 45 => ⟨S2000000x24, .f32⟩
  | 46 => ⟨S2000000x24, .f32⟩
  | 47 => ⟨S_, .f32⟩
  | 48 => ⟨S20000x24, .f32⟩
  | 49 => ⟨S2000000x1, .i32⟩
  | 50 => ⟨S20000x24, .f32⟩
  | 51 => ⟨S_, .f32⟩
  | 52 => ⟨S2000000, .f32⟩
  | 53 => ⟨S_, .f32⟩
  | 54 => ⟨S20000, .f32⟩
  | 55 => ⟨S2000000x1, .i32⟩
  | 56 => ⟨S20000, .f32⟩
  | 57 => ⟨S_, .f32⟩
  | 58 => ⟨S20000, .f32⟩
  | 59 => ⟨S20000, .f32⟩
  | 60 => ⟨S20000x1, .f32⟩
  | 61 => ⟨S20000x24, .f32⟩
  | 62 => ⟨S20000x24, .f32⟩
  | 63 => ⟨S_, .i32⟩
  | 64 => ⟨S2000000, .i32⟩
  | 65 => ⟨S2000000, .i1⟩
  | 66 => ⟨S_, .i32⟩
  | 67 => ⟨S2000000, .i32⟩
  | 68 => ⟨S2000000, .i32⟩
  | 69 => ⟨S2000000, .i32⟩
  | 70 => ⟨S2000000x1, .i32⟩
  | 71 => ⟨S1, .i32⟩
  | 72 => ⟨S_, .i32⟩
  | 73 => ⟨S2000000x1, .i32⟩
  | 74 => ⟨S2000000x1, .i1⟩
  | 75 => ⟨S1x1, .i32⟩
  | 76 => ⟨S2000000x1, .i32⟩
  | 77 => ⟨S2000000x1, .i1⟩
  | 78 => ⟨S2000000x1, .i1⟩
  | 79 => ⟨S_, .i1⟩
  | 80 => ⟨S2000000, .i1⟩
  | 81 => ⟨S2000000x18, .f32⟩
  | 82 => ⟨S2000000x18, .i1⟩
  | 83 => ⟨S_, .f32⟩
  | 84 => ⟨S2000000x18, .f32⟩
  | 85 => ⟨S2000000x18, .f32⟩
  | 86 => ⟨S_, .f32⟩
  | 87 => ⟨S100000x18, .f32⟩
  | 88 => ⟨S2000000x1, .i32⟩
  | 89 => ⟨S100000x18, .f32⟩
  | 90 => ⟨S_, .f32⟩
  | 91 => ⟨S2000000, .f32⟩
  | 92 => ⟨S_, .f32⟩
  | 93 => ⟨S100000, .f32⟩
  | 94 => ⟨S2000000x1, .i32⟩
  | 95 => ⟨S100000, .f32⟩
  | 96 => ⟨S_, .f32⟩
  | 97 => ⟨S100000, .f32⟩
  | 98 => ⟨S100000, .f32⟩
  | 99 => ⟨S100000x1, .f32⟩
  | 100 => ⟨S100000x18, .f32⟩
  | 101 => ⟨S100000x18, .f32⟩
  | 102 => ⟨S1x128, .f32⟩
  | 103 => ⟨S20000x128, .f32⟩
  | 104 => ⟨S1x128, .f32⟩
  | 105 => ⟨S100000x128, .f32⟩
  | 106 => ⟨S_, .i32⟩
  | 107 => ⟨S2000000, .i32⟩
  | 108 => ⟨S2000000, .i1⟩
  | 109 => ⟨S_, .i32⟩
  | 110 => ⟨S2000000, .i32⟩
  | 111 => ⟨S2000000, .i32⟩
  | 112 => ⟨S2000000, .i32⟩
  | 113 => ⟨S2000000x1, .i32⟩
  | 114 => ⟨S1, .i32⟩
  | 115 => ⟨S_, .i32⟩
  | 116 => ⟨S2000000x1, .i32⟩
  | 117 => ⟨S2000000x1, .i1⟩
  | 118 => ⟨S1x1, .i32⟩
  | 119 => ⟨S2000000x1, .i32⟩
  | 120 => ⟨S2000000x1, .i1⟩
  | 121 => ⟨S2000000x1, .i1⟩
  | 122 => ⟨S_, .i1⟩
  | 123 => ⟨S2000000, .i1⟩
  | 124 => ⟨S2000000x128, .f32⟩
  | 125 => ⟨S2000000x128, .i1⟩
  | 126 => ⟨S_, .f32⟩
  | 127 => ⟨S2000000x128, .f32⟩
  | _ => ⟨S100000x24, .f32⟩

abbrev hbmTy0_1 (i : Nat) : BufTy := match i % 128 with
  | 0 => ⟨S2000000x128, .f32⟩
  | 1 => ⟨S_, .f32⟩
  | 2 => ⟨S20000x128, .f32⟩
  | 3 => ⟨S2000000x1, .i32⟩
  | 4 => ⟨S20000x128, .f32⟩
  | 5 => ⟨S_, .f32⟩
  | 6 => ⟨S2000000, .f32⟩
  | 7 => ⟨S_, .f32⟩
  | 8 => ⟨S20000, .f32⟩
  | 9 => ⟨S2000000x1, .i32⟩
  | 10 => ⟨S20000, .f32⟩
  | 11 => ⟨S_, .f32⟩
  | 12 => ⟨S20000, .f32⟩
  | 13 => ⟨S20000, .f32⟩
  | 14 => ⟨S20000x1, .f32⟩
  | 15 => ⟨S20000x128, .f32⟩
  | 16 => ⟨S20000x128, .f32⟩
  | 17 => ⟨S_, .i32⟩
  | 18 => ⟨S2000000, .i32⟩
  | 19 => ⟨S2000000, .i1⟩
  | 20 => ⟨S_, .i32⟩
  | 21 => ⟨S2000000, .i32⟩
  | 22 => ⟨S2000000, .i32⟩
  | 23 => ⟨S2000000, .i32⟩
  | 24 => ⟨S2000000x1, .i32⟩
  | 25 => ⟨S1, .i32⟩
  | 26 => ⟨S_, .i32⟩
  | 27 => ⟨S2000000x1, .i32⟩
  | 28 => ⟨S2000000x1, .i1⟩
  | 29 => ⟨S1x1, .i32⟩
  | 30 => ⟨S2000000x1, .i32⟩
  | 31 => ⟨S2000000x1, .i1⟩
  | 32 => ⟨S2000000x1, .i1⟩
  | 33 => ⟨S_, .i1⟩
  | 34 => ⟨S2000000, .i1⟩
  | 35 => ⟨S2000000x128, .f32⟩
  | 36 => ⟨S2000000x128, .i1⟩
  | 37 => ⟨S_, .f32⟩
  | 38 => ⟨S2000000x128, .f32⟩
  | 39 => ⟨S2000000x128, .f32⟩
  | 40 => ⟨S_, .f32⟩
  | 41 => ⟨S100000x128, .f32⟩
  | 42 => ⟨S2000000x1, .i32⟩
  | 43 => ⟨S100000x128, .f32⟩
  | 44 => ⟨S_, .f32⟩
  | 45 => ⟨S2000000, .f32⟩
  | 46 => ⟨S_, .f32⟩
  | 47 => ⟨S100000, .f32⟩
  | 48 => ⟨S2000000x1, .i32⟩
  | 49 => ⟨S100000, .f32⟩
  | 50 => ⟨S_, .f32⟩
  | 51 => ⟨S100000, .f32⟩
  | 52 => ⟨S100000, .f32⟩
  | 53 => ⟨S100000x1, .f32⟩
  | 54 => ⟨S100000x128, .f32⟩
  | 55 => ⟨S100000x128, .f32⟩
  | 56 => ⟨S1x128, .f32⟩
  | 57 => ⟨S20000x128, .f32⟩
  | 58 => ⟨S1x128, .f32⟩
  | 59 => ⟨S100000x128, .f32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1, .i32⟩
  | 69 => ⟨S_, .i32⟩
  | 70 => ⟨S1000000x1, .i32⟩
  | 71 => ⟨S1000000x1, .i1⟩
  | 72 => ⟨S1x1, .i32⟩
  | 73 => ⟨S1000000x1, .i32⟩
  | 74 => ⟨S1000000x1, .i1⟩
  | 75 => ⟨S1000000x1, .i1⟩
  | 76 => ⟨S_, .i1⟩
  | 77 => ⟨S1000000, .i1⟩
  | 78 => ⟨S1000000x128, .f32⟩
  | 79 => ⟨S1000000x128, .i1⟩
  | 80 => ⟨S_, .f32⟩
  | 81 => ⟨S1000000x128, .f32⟩
  | 82 => ⟨S1000000x128, .f32⟩
  | 83 => ⟨S_, .i32⟩
  | 84 => ⟨S1000000, .i32⟩
  | 85 => ⟨S1000000, .i1⟩
  | 86 => ⟨S_, .i32⟩
  | 87 => ⟨S1000000, .i32⟩
  | 88 => ⟨S1000000, .i32⟩
  | 89 => ⟨S1000000, .i32⟩
  | 90 => ⟨S1000000x1, .i32⟩
  | 91 => ⟨S1, .i32⟩
  | 92 => ⟨S_, .i32⟩
  | 93 => ⟨S1000000x1, .i32⟩
  | 94 => ⟨S1000000x1, .i1⟩
  | 95 => ⟨S1x1, .i32⟩
  | 96 => ⟨S1000000x1, .i32⟩
  | 97 => ⟨S1000000x1, .i1⟩
  | 98 => ⟨S1000000x1, .i1⟩
  | 99 => ⟨S_, .i1⟩
  | 100 => ⟨S1000000, .i1⟩
  | 101 => ⟨S1000000x128, .f32⟩
  | 102 => ⟨S1000000x128, .i1⟩
  | 103 => ⟨S_, .f32⟩
  | 104 => ⟨S1000000x128, .f32⟩
  | 105 => ⟨S1000000x128, .f32⟩
  | 106 => ⟨S1000000x256, .f32⟩
  | 107 => ⟨S1x64, .f32⟩
  | 108 => ⟨S1x16, .f32⟩
  | 109 => ⟨S1x1, .f32⟩
  | 110 => ⟨S1000000x1, .f32⟩
  | 111 => ⟨S1000000, .f32⟩
  | _ => ⟨S100000x24, .f32⟩

abbrev hbmTy (i : Nat) : BufTy := match i / 128 with
  | 0 => hbmTy0_0 i
  | 1 => hbmTy0_1 i
  | _ => ⟨S100000x24, .f32⟩

abbrev bufTy : (tb : Table) → Fin (tcTables nBuf tb) → BufTy
  | .hbm, ⟨i, _⟩ => hbmTy i
  | .local _ .vmem, ⟨0, _⟩ => ⟨S4000x24, .f32⟩
  | .local _ .vmem, ⟨1, _⟩ => ⟨S4000x24, .f32⟩
  | .local _ .vmem, ⟨2, _⟩ => ⟨S4000x18, .f32⟩
  | .local _ .vmem, ⟨3, _⟩ => ⟨S4000x18, .f32⟩
  | .local _ .vmem, ⟨4, _⟩ => ⟨S24x128, .f32⟩
  | .local _ .vmem, ⟨5, _⟩ => ⟨S1x128, .f32⟩
  | .local _ .vmem, ⟨6, _⟩ => ⟨S18x128, .f32⟩
  | .local _ .vmem, ⟨7, _⟩ => ⟨S4000x128, .f32⟩
  | .local _ .vmem, ⟨8, _⟩ => ⟨S4000x128, .f32⟩
  | .local _ .vmem, ⟨9, _⟩ => ⟨S4000x18, .f32⟩
  | .local _ .vmem, ⟨10, _⟩ => ⟨S4000x18, .f32⟩
  | .local _ .vmem, ⟨11, _⟩ => ⟨S4000x24, .f32⟩
  | .local _ .vmem, ⟨12, _⟩ => ⟨S4000x24, .f32⟩
  | .local _ .vmem, ⟨13, _⟩ => ⟨S18x128, .f32⟩
  | .local _ .vmem, ⟨14, _⟩ => ⟨S1x128, .f32⟩
  | .local _ .vmem, ⟨15, _⟩ => ⟨S24x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S4000x128, .f32⟩
  | .local _ .vmem, ⟨35, _⟩ => ⟨S4000x128, .f32⟩
  | .local _ .vmem, ⟨36, _⟩ => ⟨S8000x256, .f32⟩
  | .local _ .vmem, ⟨37, _⟩ => ⟨S8000x256, .f32⟩
  | .local _ .vmem, ⟨38, _⟩ => ⟨S256x64, .f32⟩
  | .local _ .vmem, ⟨39, _⟩ => ⟨S1x64, .f32⟩
  | .local _ .vmem, ⟨40, _⟩ => ⟨S64x16, .f32⟩
  | .local _ .vmem, ⟨41, _⟩ => ⟨S1x16, .f32⟩
  | .local _ .vmem, ⟨42, _⟩ => ⟨S16x1, .f32⟩
  | .local _ .vmem, ⟨43, _⟩ => ⟨S1x1, .f32⟩
  | .local _ .vmem, ⟨44, _⟩ => ⟨S8000x1, .f32⟩
  | .local _ .vmem, ⟨45, _⟩ => ⟨S8000x1, .f32⟩
  | _, _ => ⟨S100000x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v0 : Ref sig .tc := ⟨.hbm, 46, rfl⟩
abbrev main_cst : Ref sig .tc := ⟨.hbm, 47, rfl⟩
abbrev main_v1 : Ref sig .tc := ⟨.hbm, 48, rfl⟩
abbrev main_v2 : Ref sig .tc := ⟨.hbm, 49, rfl⟩
abbrev main_v3 : Ref sig .tc := ⟨.hbm, 50, rfl⟩
abbrev main_cst_0 : Ref sig .tc := ⟨.hbm, 51, rfl⟩
abbrev main_v4 : Ref sig .tc := ⟨.hbm, 52, rfl⟩
abbrev main_cst_1 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_cst_2 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v13 : Ref sig .tc := ⟨.hbm, 85, rfl⟩
abbrev main_cst_3 : Ref sig .tc := ⟨.hbm, 86, rfl⟩
abbrev main_v14 : Ref sig .tc := ⟨.hbm, 87, rfl⟩
abbrev main_v15 : Ref sig .tc := ⟨.hbm, 88, rfl⟩
abbrev main_v16 : Ref sig .tc := ⟨.hbm, 89, rfl⟩
abbrev main_cst_4 : Ref sig .tc := ⟨.hbm, 90, rfl⟩
abbrev main_v17 : Ref sig .tc := ⟨.hbm, 91, rfl⟩
abbrev main_cst_5 : Ref sig .tc := ⟨.hbm, 92, rfl⟩
abbrev main_v18 : Ref sig .tc := ⟨.hbm, 93, rfl⟩
abbrev main_v19 : Ref sig .tc := ⟨.hbm, 94, rfl⟩
abbrev main_v20 : Ref sig .tc := ⟨.hbm, 95, rfl⟩
abbrev main_cst_6 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_call2_c : Ref sig .tc := ⟨.hbm, 106, rfl⟩
abbrev main_call2_v0 : Ref sig .tc := ⟨.hbm, 107, rfl⟩
abbrev main_call2_v1 : Ref sig .tc := ⟨.hbm, 108, rfl⟩
abbrev main_call2_c_0 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_v5 : Ref sig .tc := ⟨.hbm, 113, rfl⟩
abbrev main_call2_c_1 : Ref sig .tc := ⟨.hbm, 114, rfl⟩
abbrev main_call2_c_2 : Ref sig .tc := ⟨.hbm, 115, rfl⟩
abbrev main_call2_v6 : Ref sig .tc := ⟨.hbm, 116, rfl⟩
abbrev main_call2_v7 : Ref sig .tc := ⟨.hbm, 117, rfl⟩
abbrev main_call2_v8 : Ref sig .tc := ⟨.hbm, 118, rfl⟩
abbrev main_call2_v9 : Ref sig .tc := ⟨.hbm, 119, rfl⟩
abbrev main_call2_v10 : Ref sig .tc := ⟨.hbm, 120, rfl⟩
abbrev main_call2_v11 : Ref sig .tc := ⟨.hbm, 121, rfl⟩
abbrev main_call2_c_3 : Ref sig .tc := ⟨.hbm, 122, rfl⟩
abbrev main_call2_v12 : Ref sig .tc := ⟨.hbm, 123, rfl⟩
abbrev main_call2_v13 : Ref sig .tc := ⟨.hbm, 124, rfl⟩
abbrev main_call2_v14 : Ref sig .tc := ⟨.hbm, 125, rfl⟩
abbrev main_call2_cst : Ref sig .tc := ⟨.hbm, 126, rfl⟩
abbrev main_call2_v15 : Ref sig .tc := ⟨.hbm, 127, rfl⟩
abbrev main_v30 : Ref sig .tc := ⟨.hbm, 128, rfl⟩
abbrev main_cst_7 : Ref sig .tc := ⟨.hbm, 129, rfl⟩
abbrev main_v31 : Ref sig .tc := ⟨.hbm, 130, rfl⟩
abbrev main_v32 : Ref sig .tc := ⟨.hbm, 131, rfl⟩
abbrev main_v33 : Ref sig .tc := ⟨.hbm, 132, rfl⟩
abbrev main_cst_8 : Ref sig .tc := ⟨.hbm, 133, rfl⟩
abbrev main_v34 : Ref sig .tc := ⟨.hbm, 134, rfl⟩
abbrev main_cst_9 : Ref sig .tc := ⟨.hbm, 135, rfl⟩
abbrev main_v35 : Ref sig .tc := ⟨.hbm, 136, rfl⟩
abbrev main_v36 : Ref sig .tc := ⟨.hbm, 137, rfl⟩
abbrev main_v37 : Ref sig .tc := ⟨.hbm, 138, rfl⟩
abbrev main_cst_10 : Ref sig .tc := ⟨.hbm, 139, rfl⟩
abbrev main_v38 : Ref sig .tc := ⟨.hbm, 140, rfl⟩
abbrev main_v39 : Ref sig .tc := ⟨.hbm, 141, rfl⟩
abbrev main_v40 : Ref sig .tc := ⟨.hbm, 142, rfl⟩
abbrev main_v41 : Ref sig .tc := ⟨.hbm, 143, rfl⟩
abbrev main_v42 : Ref sig .tc := ⟨.hbm, 144, rfl⟩
abbrev main_call3_c : Ref sig .tc := ⟨.hbm, 145, rfl⟩
abbrev main_call3_v0 : Ref sig .tc := ⟨.hbm, 146, rfl⟩
abbrev main_call3_v1 : Ref sig .tc := ⟨.hbm, 147, rfl⟩
abbrev main_call3_c_0 : Ref sig .tc := ⟨.hbm, 148, rfl⟩
abbrev main_call3_v2 : Ref sig .tc := ⟨.hbm, 149, rfl⟩
abbrev main_call3_v3 : Ref sig .tc := ⟨.hbm, 150, rfl⟩
abbrev main_call3_v4 : Ref sig .tc := ⟨.hbm, 151, rfl⟩
abbrev main_call3_v5 : Ref sig .tc := ⟨.hbm, 152, rfl⟩
abbrev main_call3_c_1 : Ref sig .tc := ⟨.hbm, 153, rfl⟩
abbrev main_call3_c_2 : Ref sig .tc := ⟨.hbm, 154, rfl⟩
abbrev main_call3_v6 : Ref sig .tc := ⟨.hbm, 155, rfl⟩
abbrev main_call3_v7 : Ref sig .tc := ⟨.hbm, 156, rfl⟩
abbrev main_call3_v8 : Ref sig .tc := ⟨.hbm, 157, rfl⟩
abbrev main_call3_v9 : Ref sig .tc := ⟨.hbm, 158, rfl⟩
abbrev main_call3_v10 : Ref sig .tc := ⟨.hbm, 159, rfl⟩
abbrev main_call3_v11 : Ref sig .tc := ⟨.hbm, 160, rfl⟩
abbrev main_call3_c_3 : Ref sig .tc := ⟨.hbm, 161, rfl⟩
abbrev main_call3_v12 : Ref sig .tc := ⟨.hbm, 162, rfl⟩
abbrev main_call3_v13 : Ref sig .tc := ⟨.hbm, 163, rfl⟩
abbrev main_call3_v14 : Ref sig .tc := ⟨.hbm, 164, rfl⟩
abbrev main_call3_cst : Ref sig .tc := ⟨.hbm, 165, rfl⟩
abbrev main_call3_v15 : Ref sig .tc := ⟨.hbm, 166, rfl⟩
abbrev main_v43 : Ref sig .tc := ⟨.hbm, 167, rfl⟩
abbrev main_cst_11 : Ref sig .tc := ⟨.hbm, 168, rfl⟩
abbrev main_v44 : Ref sig .tc := ⟨.hbm, 169, rfl⟩
abbrev main_v45 : Ref sig .tc := ⟨.hbm, 170, rfl⟩
abbrev main_v46 : Ref sig .tc := ⟨.hbm, 171, rfl⟩
abbrev main_cst_12 : Ref sig .tc := ⟨.hbm, 172, rfl⟩
abbrev main_v47 : Ref sig .tc := ⟨.hbm, 173, rfl⟩
abbrev main_cst_13 : Ref sig .tc := ⟨.hbm, 174, rfl⟩
abbrev main_v48 : Ref sig .tc := ⟨.hbm, 175, rfl⟩
abbrev main_v49 : Ref sig .tc := ⟨.hbm, 176, rfl⟩
abbrev main_v50 : Ref sig .tc := ⟨.hbm, 177, rfl⟩
abbrev main_cst_14 : Ref sig .tc := ⟨.hbm, 178, rfl⟩
abbrev main_v51 : Ref sig .tc := ⟨.hbm, 179, rfl⟩
abbrev main_v52 : Ref sig .tc := ⟨.hbm, 180, rfl⟩
abbrev main_v53 : Ref sig .tc := ⟨.hbm, 181, rfl⟩
abbrev main_v54 : Ref sig .tc := ⟨.hbm, 182, rfl⟩
abbrev main_v55 : Ref sig .tc := ⟨.hbm, 183, rfl⟩
abbrev main_v56 : Ref sig .tc := ⟨.hbm, 184, rfl⟩
abbrev main_v57 : Ref sig .tc := ⟨.hbm, 185, rfl⟩
abbrev main_v58 : Ref sig .tc := ⟨.hbm, 186, rfl⟩
abbrev main_v59 : Ref sig .tc := ⟨.hbm, 187, rfl⟩
abbrev main_call4_c : Ref sig .tc := ⟨.hbm, 188, rfl⟩
abbrev main_call4_v0 : Ref sig .tc := ⟨.hbm, 189, rfl⟩
abbrev main_call4_v1 : Ref sig .tc := ⟨.hbm, 190, rfl⟩
abbrev main_call4_c_0 : Ref sig .tc := ⟨.hbm, 191, rfl⟩
abbrev main_call4_v2 : Ref sig .tc := ⟨.hbm, 192, rfl⟩
abbrev main_call4_v3 : Ref sig .tc := ⟨.hbm, 193, rfl⟩
abbrev main_call4_v4 : Ref sig .tc := ⟨.hbm, 194, rfl⟩
abbrev main_call4_v5 : Ref sig .tc := ⟨.hbm, 195, rfl⟩
abbrev main_call4_c_1 : Ref sig .tc := ⟨.hbm, 196, rfl⟩
abbrev main_call4_c_2 : Ref sig .tc := ⟨.hbm, 197, rfl⟩
abbrev main_call4_v6 : Ref sig .tc := ⟨.hbm, 198, rfl⟩
abbrev main_call4_v7 : Ref sig .tc := ⟨.hbm, 199, rfl⟩
abbrev main_call4_v8 : Ref sig .tc := ⟨.hbm, 200, rfl⟩
abbrev main_call4_v9 : Ref sig .tc := ⟨.hbm, 201, rfl⟩
abbrev main_call4_v10 : Ref sig .tc := ⟨.hbm, 202, rfl⟩
abbrev main_call4_v11 : Ref sig .tc := ⟨.hbm, 203, rfl⟩
abbrev main_call4_c_3 : Ref sig .tc := ⟨.hbm, 204, rfl⟩
abbrev main_call4_v12 : Ref sig .tc := ⟨.hbm, 205, rfl⟩
abbrev main_call4_v13 : Ref sig .tc := ⟨.hbm, 206, rfl⟩
abbrev main_call4_v14 : Ref sig .tc := ⟨.hbm, 207, rfl⟩
abbrev main_call4_cst : Ref sig .tc := ⟨.hbm, 208, rfl⟩
abbrev main_call4_v15 : Ref sig .tc := ⟨.hbm, 209, rfl⟩
abbrev main_v60 : Ref sig .tc := ⟨.hbm, 210, rfl⟩
abbrev main_call5_c : Ref sig .tc := ⟨.hbm, 211, rfl⟩
abbrev main_call5_v0 : Ref sig .tc := ⟨.hbm, 212, rfl⟩
abbrev main_call5_v1 : Ref sig .tc := ⟨.hbm, 213, rfl⟩
abbrev main_call5_c_0 : Ref sig .tc := ⟨.hbm, 214, rfl⟩
abbrev main_call5_v2 : Ref sig .tc := ⟨.hbm, 215, rfl⟩
abbrev main_call5_v3 : Ref sig .tc := ⟨.hbm, 216, rfl⟩
abbrev main_call5_v4 : Ref sig .tc := ⟨.hbm, 217, rfl⟩
abbrev main_call5_v5 : Ref sig .tc := ⟨.hbm, 218, rfl⟩
abbrev main_call5_c_1 : Ref sig .tc := ⟨.hbm, 219, rfl⟩
abbrev main_call5_c_2 : Ref sig .tc := ⟨.hbm, 220, rfl⟩
abbrev main_call5_v6 : Ref sig .tc := ⟨.hbm, 221, rfl⟩
abbrev main_call5_v7 : Ref sig .tc := ⟨.hbm, 222, rfl⟩
abbrev main_call5_v8 : Ref sig .tc := ⟨.hbm, 223, rfl⟩
abbrev main_call5_v9 : Ref sig .tc := ⟨.hbm, 224, rfl⟩
abbrev main_call5_v10 : Ref sig .tc := ⟨.hbm, 225, rfl⟩
abbrev main_call5_v11 : Ref sig .tc := ⟨.hbm, 226, rfl⟩
abbrev main_call5_c_3 : Ref sig .tc := ⟨.hbm, 227, rfl⟩
abbrev main_call5_v12 : Ref sig .tc := ⟨.hbm, 228, rfl⟩
abbrev main_call5_v13 : Ref sig .tc := ⟨.hbm, 229, rfl⟩
abbrev main_call5_v14 : Ref sig .tc := ⟨.hbm, 230, rfl⟩
abbrev main_call5_cst : Ref sig .tc := ⟨.hbm, 231, rfl⟩
abbrev main_call5_v15 : Ref sig .tc := ⟨.hbm, 232, rfl⟩
abbrev main_v61 : Ref sig .tc := ⟨.hbm, 233, rfl⟩
abbrev main_v62 : Ref sig .tc := ⟨.hbm, 234, rfl⟩
abbrev main_v63 : Ref sig .tc := ⟨.hbm, 235, rfl⟩
abbrev main_v64 : Ref sig .tc := ⟨.hbm, 236, rfl⟩
abbrev main_v65 : Ref sig .tc := ⟨.hbm, 237, rfl⟩
abbrev main_v66 : Ref sig .tc := ⟨.hbm, 238, rfl⟩
abbrev main_v67 : Ref sig .tc := ⟨.hbm, 239, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg7_0 : Ref sig .tc := ⟨.vmem, 44, rfl⟩
abbrev cc4_stg7_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem7_0 : DmaSem sig := 44
abbrev cc4_sem7_1 : DmaSem sig := 45

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x18 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S24x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S18x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x18 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x24 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S18x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S24x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S16x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S8000x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x24_0 : S2000000.BroadcastsInDim S2000000x24 (![0] : Fin 1 → Fin S2000000x24.rank)
  bcast_S_S2000000x24 : S_.BroadcastsInDim S2000000x24 (![] : Fin 0 → Fin S2000000x24.rank)
  bcast_S_S20000x24 : S_.BroadcastsInDim S20000x24 (![] : Fin 0 → Fin S20000x24.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x24_0_1 : S20000x1.BroadcastsInDim S20000x24 (![0, 1] : Fin 2 → Fin S20000x24.rank)
  bcast_S2000000_S2000000x18_0 : S2000000.BroadcastsInDim S2000000x18 (![0] : Fin 1 → Fin S2000000x18.rank)
  bcast_S_S2000000x18 : S_.BroadcastsInDim S2000000x18 (![] : Fin 0 → Fin S2000000x18.rank)
  bcast_S_S100000x18 : S_.BroadcastsInDim S100000x18 (![] : Fin 0 → Fin S100000x18.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x18_0_1 : S100000x1.BroadcastsInDim S100000x18 (![0, 1] : Fin 2 → Fin S100000x18.rank)
  shapeCasts_S128_S1x128 : S128.ShapeCasts S1x128
  inb_S4000x24_S4000x24_0_0 : ∀ a, (![0, 0] : Fin 2 → Nat) a + S4000x24.size a ≤ S4000x24.size a
  h_S4000x24 : 0 < S4000x24.numel
  shapeCasts_S4000x24_S4000x24 : S4000x24.ShapeCasts S4000x24
  bitsLt_bf16_f32 : FTy.bits .bf16 < FTy.bits .f32
  inb_S4000x18_S4000x18_0_0 : ∀ a, (![0, 0] : Fin 2 → Nat) a + S4000x18.size a ≤ S4000x18.size a
  h_S4000x18 : 0 < S4000x18.numel
  inb_S24x128_S24x128_0_0 : ∀ a, (![0, 0] : Fin 2 → Nat) a + S24x128.size a ≤ S24x128.size a
  h_S24x128 : 0 < S24x128.numel
  inb_S18x128_S18x128_0_0 : ∀ a, (![0, 0] : Fin 2 → Nat) a + S18x128.size a ≤ S18x128.size a
  h_S18x128 : 0 < S18x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  shapeCasts_S4000x18_S4000x18 : S4000x18.ShapeCasts S4000x18
  bcast_S2000000_S2000000x128_0 : S2000000.BroadcastsInDim S2000000x128 (![0] : Fin 1 → Fin S2000000x128.rank)
  bcast_S_S2000000x128 : S_.BroadcastsInDim S2000000x128 (![] : Fin 0 → Fin S2000000x128.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1x1_S1000000x1_0_1 : S1x1.BroadcastsInDim S1000000x1 (![0, 1] : Fin 2 → Fin S1000000x1.rank)
  reducesTo_S1000000x1_S1000000_d1 : S1000000x1.ReducesTo [1] S1000000
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  concatenates_S1000000x128_S1000000x128_S1000000x256_d1 : Shape.Concatenates [S1000000x128, S1000000x128] S1000000x256 1
  shapeCasts_S64_S1x64 : S64.ShapeCasts S1x64
  shapeCasts_S16_S1x16 : S16.ShapeCasts S1x16
  shapeCasts_S1_S1x1 : S1.ShapeCasts S1x1
  inb_S8000x256_S8000x256_0_0 : ∀ a, (![0, 0] : Fin 2 → Nat) a + S8000x256.size a ≤ S8000x256.size a
  h_S8000x256 : 0 < S8000x256.numel
  shapeCasts_S8000x256_S8000x256 : S8000x256.ShapeCasts S8000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S1000000x1_S1000000 : S1000000x1.ShapeCasts S1000000
  gather_S100000x24_S2000000x1_S2000000x24_1_0_n_n_0_1_124_wf : GatherDims.WF S100000x24 S2000000x1 S2000000x24 [1] [0] [] [0] [] 1 ![1, 24]
  scatter_S20000x24_S2000000x1_S2000000x24_1_0_0_1_wf : ScatterDims.WF S20000x24 S2000000x1 S2000000x24 [1] [0] [0] 1
  scatter_S20000_S2000000x1_S2000000_n_0_0_1_wf : ScatterDims.WF S20000 S2000000x1 S2000000 [] [0] [0] 1
  gather_S20000x18_S2000000x1_S2000000x18_1_0_n_n_0_1_118_wf : GatherDims.WF S20000x18 S2000000x1 S2000000x18 [1] [0] [] [0] [] 1 ![1, 18]
  scatter_S100000x18_S2000000x1_S2000000x18_1_0_0_1_wf : ScatterDims.WF S100000x18 S2000000x1 S2000000x18 [1] [0] [0] 1
  scatter_S100000_S2000000x1_S2000000_n_0_0_1_wf : ScatterDims.WF S100000 S2000000x1 S2000000 [] [0] [0] 1
  dot_S4000x24_S24x128_S4000x128_1_0_0_1_n_n_wf : DotDims.WF S4000x24 S24x128 S4000x128 [1] [0] [0] [1] [] []
  dot_S4000x18_S18x128_S4000x128_1_0_0_1_n_n_wf : DotDims.WF S4000x18 S18x128 S4000x128 [1] [0] [0] [1] [] []
  gather_S100000x128_S2000000x1_S2000000x128_1_0_n_n_0_1_1128_wf : GatherDims.WF S100000x128 S2000000x1 S2000000x128 [1] [0] [] [0] [] 1 ![1, 128]
  scatter_S20000x128_S2000000x1_S2000000x128_1_0_0_1_wf : ScatterDims.WF S20000x128 S2000000x1 S2000000x128 [1] [0] [0] 1
  gather_S20000x128_S2000000x1_S2000000x128_1_0_n_n_0_1_1128_wf : GatherDims.WF S20000x128 S2000000x1 S2000000x128 [1] [0] [] [0] [] 1 ![1, 128]
  scatter_S100000x128_S2000000x1_S2000000x128_1_0_0_1_wf : ScatterDims.WF S100000x128 S2000000x1 S2000000x128 [1] [0] [0] 1
  dot_S4000x128_S128x128_S4000x128_1_0_0_1_n_n_wf : DotDims.WF S4000x128 S128x128 S4000x128 [1] [0] [0] [1] [] []
  gather_S100000x128_S1000000x1_S1000000x128_1_0_n_n_0_1_1128_wf : GatherDims.WF S100000x128 S1000000x1 S1000000x128 [1] [0] [] [0] [] 1 ![1, 128]
  gather_S20000x128_S1000000x1_S1000000x128_1_0_n_n_0_1_1128_wf : GatherDims.WF S20000x128 S1000000x1 S1000000x128 [1] [0] [] [0] [] 1 ![1, 128]
  dot_S8000x256_S256x64_S8000x64_1_0_0_1_n_n_wf : DotDims.WF S8000x256 S256x64 S8000x64 [1] [0] [0] [1] [] []
  dot_S8000x64_S64x16_S8000x16_1_0_0_1_n_n_wf : DotDims.WF S8000x64 S64x16 S8000x16 [1] [0] [0] [1] [] []
  dot_S8000x16_S16x1_S8000x1_1_0_0_1_n_n_wf : DotDims.WF S8000x16 S16x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x24.size a ≤ S20000x24.size a
  hwx0_0 : ∀ i : grid0.Coords, EltTy.bits .f32 = 32 ∨ (Rect.block (s := S20000x24) S4000x24.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x18.size a ≤ S20000x18.size a
  hwx0_1 : ∀ i : grid0.Coords, EltTy.bits .f32 = 32 ∨ (Rect.block (s := S20000x18) S4000x18.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S24x128.size a ≤ S24x128.size a
  hwx0_2 : ∀ i : grid0.Coords, EltTy.bits .f32 = 32 ∨ (Rect.block (s := S24x128) S24x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S18x128.size a ≤ S18x128.size a
  hwx0_4 : ∀ i : grid0.Coords, EltTy.bits .f32 = 32 ∨ (Rect.block (s := S18x128) S18x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S20000x128.size a
  hwx0_5 : ∀ i : grid0.Coords, EltTy.bits .f32 = 32 ∨ (Rect.block (s := S20000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x18.size a ≤ S100000x18.size a
  hwx1_0 : ∀ i : grid1.Coords, EltTy.bits .f32 = 32 ∨ (Rect.block (s := S100000x18) S4000x18.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x24.size a ≤ S100000x24.size a
  hwx1_1 : ∀ i : grid1.Coords, EltTy.bits .f32 = 32 ∨ (Rect.block (s := S100000x24) S4000x24.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S18x128.size a ≤ S18x128.size a
  hwx1_2 : ∀ i : grid1.Coords, EltTy.bits .f32 = 32 ∨ (Rect.block (s := S18x128) S18x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S24x128.size a ≤ S24x128.size a
  hwx1_4 : ∀ i : grid1.Coords, EltTy.bits .f32 = 32 ∨ (Rect.block (s := S24x128) S24x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S20000x128.size a
  hwx2_0 : ∀ i : grid2.Coords, EltTy.bits .f32 = 32 ∨ (Rect.block (s := S20000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S20000x128.size a
  hwx2_1 : ∀ i : grid2.Coords, EltTy.bits .f32 = 32 ∨ (Rect.block (s := S20000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S20000x128.size a
  hwx2_5 : ∀ i : grid2.Coords, EltTy.bits .f32 = 32 ∨ (Rect.block (s := S20000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S100000x128.size a
  hwx3_5 : ∀ i : grid3.Coords, EltTy.bits .f32 = 32 ∨ (Rect.block (s := S100000x128) S4000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x256.size a ≤ S1000000x256.size a
  hwx4_0 : ∀ i : grid4.Coords, EltTy.bits .f32 = 32 ∨ (Rect.block (s := S1000000x256) S8000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x64.size a ≤ S256x64.size a
  hwx4_1 : ∀ i : grid4.Coords, EltTy.bits .f32 = 32 ∨ (Rect.block (s := S256x64) S256x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x16.size a ≤ S64x16.size a
  hwx4_3 : ∀ i : grid4.Coords, EltTy.bits .f32 = 32 ∨ (Rect.block (s := S64x16) S64x16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x16.size a ≤ S1x16.size a
  hwx4_4 : ∀ i : grid4.Coords, EltTy.bits .f32 = 32 ∨ (Rect.block (s := S1x16) S1x16.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S16x1.size a ≤ S16x1.size a
  hwx4_5 : ∀ i : grid4.Coords, EltTy.bits .f32 = 32 ∨ (Rect.block (s := S16x1) S16x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S8000x1.size a ≤ S1000000x1.size a
  hwx4_7 : ∀ i : grid4.Coords, EltTy.bits .f32 = 32 ∨ (Rect.block (s := S1000000x1) S8000x1.size (cc4_transform_7 i) (hinb4_7 i)).WholeWords (EltTy.packing .f32)

variable [Facts₀]

def gather_S100000x24_S2000000x1_S2000000x24_1_0_n_n_0_1_124 : GatherDims S100000x24 S2000000x1 S2000000x24 where
  offsetDims := [1]
  collapsedSliceDims := [0]
  operandBatchingDims := []
  startIndicesBatchingDims := []
  startIndexMap := [0]
  indexVectorDim := 1
  sliceSizes := ![1, 24]
  wf := gather_S100000x24_S2000000x1_S2000000x24_1_0_n_n_0_1_124_wf
def scatter_S20000x24_S2000000x1_S2000000x24_1_0_0_1 : ScatterDims S20000x24 S2000000x1 S2000000x24 where
  updateWindowDims := [1]
  insertedWindowDims := [0]
  scatterDimsToOperandDims := [0]
  indexVectorDim := 1
  wf := scatter_S20000x24_S2000000x1_S2000000x24_1_0_0_1_wf
def scatter_S20000_S2000000x1_S2000000_n_0_0_1 : ScatterDims S20000 S2000000x1 S2000000 where
  updateWindowDims := []
  insertedWindowDims := [0]
  scatterDimsToOperandDims := [0]
  indexVectorDim := 1
  wf := scatter_S20000_S2000000x1_S2000000_n_0_0_1_wf
def gather_S20000x18_S2000000x1_S2000000x18_1_0_n_n_0_1_118 : GatherDims S20000x18 S2000000x1 S2000000x18 where
  offsetDims := [1]
  collapsedSliceDims := [0]
  operandBatchingDims := []
  startIndicesBatchingDims := []
  startIndexMap := [0]
  indexVectorDim := 1
  sliceSizes := ![1, 18]
  wf := gather_S20000x18_S2000000x1_S2000000x18_1_0_n_n_0_1_118_wf
def scatter_S100000x18_S2000000x1_S2000000x18_1_0_0_1 : ScatterDims S100000x18 S2000000x1 S2000000x18 where
  updateWindowDims := [1]
  insertedWindowDims := [0]
  scatterDimsToOperandDims := [0]
  indexVectorDim := 1
  wf := scatter_S100000x18_S2000000x1_S2000000x18_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S4000x24_S24x128_S4000x128_1_0_0_1_n_n : DotDims S4000x24 S24x128 S4000x128 where
  lhsContracting := [1]
  rhsContracting := [0]
  lhsNonContracting := [0]
  rhsNonContracting := [1]
  lhsBatch := []
  rhsBatch := []
  wf := dot_S4000x24_S24x128_S4000x128_1_0_0_1_n_n_wf
def dot_S4000x18_S18x128_S4000x128_1_0_0_1_n_n : DotDims S4000x18 S18x128 S4000x128 where
  lhsContracting := [1]
  rhsContracting := [0]
  lhsNonContracting := [0]
  rhsNonContracting := [1]
  lhsBatch := []
  rhsBatch := []
  wf := dot_S4000x18_S18x128_S4000x128_1_0_0_1_n_n_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S20000x128_S2000000x1_S2000000x128_1_0_0_1 : ScatterDims S20000x128 S2000000x1 S2000000x128 where
  updateWindowDims := [1]
  insertedWindowDims := [0]
  scatterDimsToOperandDims := [0]
  indexVectorDim := 1
  wf := scatter_S20000x128_S2000000x1_S2000000x128_1_0_0_1_wf
def gather_S20000x128_S2000000x1_S2000000x128_1_0_n_n_0_1_1128 : GatherDims S20000x128 S2000000x1 S2000000x128 where
  offsetDims := [1]
  collapsedSliceDims := [0]
  operandBatchingDims := []
  startIndicesBatchingDims := []
  startIndexMap := [0]
  indexVectorDim := 1
  sliceSizes := ![1, 128]
  wf := gather_S20000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def dot_S8000x256_S256x64_S8000x64_1_0_0_1_n_n : DotDims S8000x256 S256x64 S8000x64 where
  lhsContracting := [1]
  rhsContracting := [0]
  lhsNonContracting := [0]
  rhsNonContracting := [1]
  lhsBatch := []
  rhsBatch := []
  wf := dot_S8000x256_S256x64_S8000x64_1_0_0_1_n_n_wf
def dot_S8000x64_S64x16_S8000x16_1_0_0_1_n_n : DotDims S8000x64 S64x16 S8000x16 where
  lhsContracting := [1]
  rhsContracting := [0]
  lhsNonContracting := [0]
  rhsNonContracting := [1]
  lhsBatch := []
  rhsBatch := []
  wf := dot_S8000x64_S64x16_S8000x16_1_0_0_1_n_n_wf
def dot_S8000x16_S16x1_S8000x1_1_0_0_1_n_n : DotDims S8000x16 S16x1 S8000x1 where
  lhsContracting := [1]
  rhsContracting := [0]
  lhsNonContracting := [0]
  rhsNonContracting := [1]
  lhsBatch := []
  rhsBatch := []
  wf := dot_S8000x16_S16x1_S8000x1_1_0_0_1_n_n_wf

abbrev win0_0 : Pipeline.Window sig grid0 :=
  Pipeline.Window.ofSpec (Memref.whole main_v12) S4000x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x18.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S24x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S18x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S4000x18.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4000x24.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S18x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S24x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v55) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg15) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v62) S8000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg18) S256x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg20) S64x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64) S1x16.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg22) S16x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v65) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v66) S8000x1.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x24 : Shape := ⟨2, ![100000, 24]⟩
abbrev S20000x18 : Shape := ⟨2, ![20000, 18]⟩
abbrev S2000000 : Shape := ⟨1, ![2000000]⟩
abbrev S1000000 : Shape := ⟨1, ![1000000]⟩
abbrev S24x128 : Shape := ⟨2, ![24, 128]⟩
abbrev S128 : Shape := ⟨1, ![128]⟩
abbrev S18x128 : Shape := ⟨2, ![18, 128]⟩
abbrev S128x128 : Shape := ⟨2, ![128, 128]⟩
abbrev S256x64 : Shape := ⟨2, ![256, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S_ : Shape := ⟨0, ![]⟩
abbrev S2000000x1 : Shape := ⟨2, ![2000000, 1]⟩
abbrev S2000000x24 : Shape := ⟨2, ![2000000, 24]⟩
abbrev S20000x24 : Shape := ⟨2, ![20000, 24]⟩
abbrev S20000 : Shape := ⟨1, ![20000]⟩
abbrev S20000x1 : Shape := ⟨2, ![20000, 1]⟩
abbrev S20000x128 : Shape := ⟨2, ![20000, 128]⟩
abbrev S1x128 : Shape := ⟨2, ![1, 128]⟩
abbrev S2000000x18 : Shape := ⟨2, ![2000000, 18]⟩
abbrev S100000x18 : Shape := ⟨2, ![100000, 18]⟩
abbrev S100000 : Shape := ⟨1, ![100000]⟩
abbrev S100000x1 : Shape := ⟨2, ![100000, 1]⟩
abbrev S100000x128 : Shape := ⟨2, ![100000, 128]⟩
abbrev S2000000x128 : Shape := ⟨2, ![2000000, 128]⟩
abbrev S1000000x1 : Shape := ⟨2, ![1000000, 1]⟩
abbrev S1000000x128 : Shape := ⟨2, ![1000000, 128]⟩
abbrev S1000000x256 : Shape := ⟨2, ![1000000, 256]⟩
abbrev S1000000x64 : Shape := ⟨2, ![1000000, 64]⟩
abbrev S1x64 : Shape := ⟨2, ![1, 64]⟩
abbrev S1000000x16 : Shape := ⟨2, ![1000000, 16]⟩
abbrev S1x16 : Shape := ⟨2, ![1, 16]⟩
abbrev S1x1 : Shape := ⟨2, ![1, 1]⟩

abbrev nBuf : Space → Nat
  | .hbm => 197
  | .vmem => 0
  | .smem => 0
  | _ => 0

abbrev hbmTy0_0 (i : Nat) : BufTy := match i % 128 with
  | 0 => ⟨S100000x24, .f32⟩
  | 1 => ⟨S20000x18, .f32⟩
  | 2 => ⟨S2000000, .i32⟩
  | 3 => ⟨S2000000, .i32⟩
  | 4 => ⟨S1000000, .i32⟩
  | 5 => ⟨S1000000, .i32⟩
  | 6 => ⟨S24x128, .f32⟩
  | 7 => ⟨S128, .f32⟩
  | 8 => ⟨S18x128, .f32⟩
  | 9 => ⟨S18x128, .f32⟩
  | 10 => ⟨S128, .f32⟩
  | 11 => ⟨S24x128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x128, .f32⟩
  | 18 => ⟨S256x64, .f32⟩
  | 19 => ⟨S64, .f32⟩
  | 20 => ⟨S64x16, .f32⟩
  | 21 => ⟨S16, .f32⟩
  | 22 => ⟨S16x1, .f32⟩
  | 23 => ⟨S1, .f32⟩
  | 24 => ⟨S_, .i32⟩
  | 25 => ⟨S2000000, .i32⟩
  | 26 => ⟨S2000000, .i1⟩
  | 27 => ⟨S_, .i32⟩
  | 28 => ⟨S2000000, .i32⟩
  | 29 => ⟨S2000000, .i32⟩
  | 30 => ⟨S2000000, .i32⟩
  | 31 => ⟨S2000000x1, .i32⟩
  | 32 => ⟨S2000000x24, .f32⟩
  | 33 => ⟨S_, .f32⟩
  | 34 => ⟨S20000x24, .f32⟩
  | 35 => ⟨S2000000x1, .i32⟩
  | 36 => ⟨S20000x24, .f32⟩
  | 37 => ⟨S_, .f32⟩
  | 38 => ⟨S2000000, .f32⟩
  | 39 => ⟨S_, .f32⟩
  | 40 => ⟨S20000, .f32⟩
  | 41 => ⟨S2000000x1, .i32⟩
  | 42 => ⟨S20000, .f32⟩
  | 43 => ⟨S_, .f32⟩
  | 44 => ⟨S20000, .f32⟩
  | 45 => ⟨S20000, .f32⟩
  | 46 => ⟨S20000x1, .f32⟩
  | 47 => ⟨S20000x24, .f32⟩
  | 48 => ⟨S20000x24, .f32⟩
  | 49 => ⟨S20000x128, .f32⟩
  | 50 => ⟨S1x128, .f32⟩
  | 51 => ⟨S20000x128, .f32⟩
  | 52 => ⟨S20000x128, .f32⟩
  | 53 => ⟨S20000x128, .f32⟩
  | 54 => ⟨S20000x128, .f32⟩
  | 55 => ⟨S_, .i32⟩
  | 56 => ⟨S2000000, .i32⟩
  | 57 => ⟨S2000000, .i1⟩
  | 58 => ⟨S_, .i32⟩
  | 59 => ⟨S2000000, .i32⟩
  | 60 => ⟨S2000000, .i32⟩
  | 61 => ⟨S2000000, .i32⟩
  | 62 => ⟨S2000000x1, .i32⟩
  | 63 => ⟨S2000000x18, .f32⟩
  | 64 => ⟨S_, .f32⟩
  | 65 => ⟨S100000x18, .f32⟩
  | 66 => ⟨S2000000x1, .i32⟩
  | 67 => ⟨S100000x18, .f32⟩
  | 68 => ⟨S_, .f32⟩
  | 69 => ⟨S2000000, .f32⟩
  | 70 => ⟨S_, .f32⟩
  | 71 => ⟨S100000, .f32⟩
  | 72 => ⟨S2000000x1, .i32⟩
  | 73 => ⟨S100000, .f32⟩
  | 74 => ⟨S_, .f32⟩
  | 75 => ⟨S100000, .f32⟩
  | 76 => ⟨S100000, .f32⟩
  | 77 => ⟨S100000x1, .f32⟩
  | 78 => ⟨S100000x18, .f32⟩
  | 79 => ⟨S100000x18, .f32⟩
  | 80 => ⟨S100000x128, .f32⟩
  | 81 => ⟨S1x128, .f32⟩
  | 82 => ⟨S100000x128, .f32⟩
  | 83 => ⟨S100000x128, .f32⟩
  | 84 => ⟨S100000x128, .f32⟩
  | 85 => ⟨S100000x128, .f32⟩
  | 86 => ⟨S_, .i32⟩
  | 87 => ⟨S2000000, .i32⟩
  | 88 => ⟨S2000000, .i1⟩
  | 89 => ⟨S_, .i32⟩
  | 90 => ⟨S2000000, .i32⟩
  | 91 => ⟨S2000000, .i32⟩
  | 92 => ⟨S2000000, .i32⟩
  | 93 => ⟨S2000000x1, .i32⟩
  | 94 => ⟨S2000000x128, .f32⟩
  | 95 => ⟨S_, .f32⟩
  | 96 => ⟨S20000x128, .f32⟩
  | 97 => ⟨S2000000x1, .i32⟩
  | 98 => ⟨S20000x128, .f32⟩
  | 99 => ⟨S_, .f32⟩
  | 100 => ⟨S2000000, .f32⟩
  | 101 => ⟨S_, .f32⟩
  | 102 => ⟨S20000, .f32⟩
  | 103 => ⟨S2000000x1, .i32⟩
  | 104 => ⟨S20000, .f32⟩
  | 105 => ⟨S_, .f32⟩
  | 106 => ⟨S20000, .f32⟩
  | 107 => ⟨S20000, .f32⟩
  | 108 => ⟨S20000x1, .f32⟩
  | 109 => ⟨S20000x128, .f32⟩
  | 110 => ⟨S20000x128, .f32⟩
  | 111 => ⟨S20000x128, .f32⟩
  | 112 => ⟨S1x128, .f32⟩
  | 113 => ⟨S20000x128, .f32⟩
  | 114 => ⟨S20000x128, .f32⟩
  | 115 => ⟨S20000x128, .f32⟩
  | 116 => ⟨S20000x128, .f32⟩
  | 117 => ⟨S_, .i32⟩
  | 118 => ⟨S2000000, .i32⟩
  | 119 => ⟨S2000000, .i1⟩
  | 120 => ⟨S_, .i32⟩
  | 121 => ⟨S2000000, .i32⟩
  | 122 => ⟨S2000000, .i32⟩
  | 123 => ⟨S2000000, .i32⟩
  | 124 => ⟨S2000000x1, .i32⟩
  | 125 => ⟨S2000000x128, .f32⟩
  | 126 => ⟨S_, .f32⟩
  | 127 => ⟨S100000x128, .f32⟩
  | _ => ⟨S100000x24, .f32⟩

abbrev hbmTy0_1 (i : Nat) : BufTy := match i % 128 with
  | 0 => ⟨S2000000x1, .i32⟩
  | 1 => ⟨S100000x128, .f32⟩
  | 2 => ⟨S_, .f32⟩
  | 3 => ⟨S2000000, .f32⟩
  | 4 => ⟨S_, .f32⟩
  | 5 => ⟨S100000, .f32⟩
  | 6 => ⟨S2000000x1, .i32⟩
  | 7 => ⟨S100000, .f32⟩
  | 8 => ⟨S_, .f32⟩
  | 9 => ⟨S100000, .f32⟩
  | 10 => ⟨S100000, .f32⟩
  | 11 => ⟨S100000x1, .f32⟩
  | 12 => ⟨S100000x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S100000x128, .f32⟩
  | 19 => ⟨S100000x128, .f32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S1000000x128, .f32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000x128, .f32⟩
  | 38 => ⟨S1000000x256, .f32⟩
  | 39 => ⟨S1000000x64, .f32⟩
  | 40 => ⟨S1x64, .f32⟩
  | 41 => ⟨S1000000x64, .f32⟩
  | 42 => ⟨S1000000x64, .f32⟩
  | 43 => ⟨S_, .f32⟩
  | 44 => ⟨S1000000x64, .f32⟩
  | 45 => ⟨S1000000x64, .f32⟩
  | 46 => ⟨S1000000x16, .f32⟩
  | 47 => ⟨S1x16, .f32⟩
  | 48 => ⟨S1000000x16, .f32⟩
  | 49 => ⟨S1000000x16, .f32⟩
  | 50 => ⟨S_, .f32⟩
  | 51 => ⟨S1000000x16, .f32⟩
  | 52 => ⟨S1000000x16, .f32⟩
  | 53 => ⟨S1000000x1, .f32⟩
  | 54 => ⟨S1x1, .f32⟩
  | 55 => ⟨S1000000x1, .f32⟩
  | 56 => ⟨S1000000x1, .f32⟩
  | 57 => ⟨S1000000x1, .f32⟩
  | 58 => ⟨S1000000x1, .f32⟩
  | 59 => ⟨S_, .f32⟩
  | 60 => ⟨S1000000x1, .f32⟩
  | 61 => ⟨S1000000x1, .f32⟩
  | 62 => ⟨S_, .f32⟩
  | 63 => ⟨S1000000x1, .f32⟩
  | 64 => ⟨S1000000x1, .f32⟩
  | 65 => ⟨S_, .f32⟩
  | 66 => ⟨S1000000x1, .f32⟩
  | 67 => ⟨S1000000x1, .f32⟩
  | 68 => ⟨S1000000, .f32⟩
  | _ => ⟨S100000x24, .f32⟩

abbrev hbmTy (i : Nat) : BufTy := match i / 128 with
  | 0 => hbmTy0_0 i
  | 1 => hbmTy0_1 i
  | _ => ⟨S100000x24, .f32⟩

abbrev bufTy : (tb : Table) → Fin (tcTables nBuf tb) → BufTy
  | .hbm, ⟨i, _⟩ => hbmTy i
  | _, _ => ⟨S100000x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_1 : Ref sig .tc := ⟨.hbm, 37, rfl⟩
abbrev main_v10 : Ref sig .tc := ⟨.hbm, 38, rfl⟩
abbrev main_cst_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_3 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_4 : Ref sig .tc := ⟨.hbm, 55, rfl⟩
abbrev main_v25 : Ref sig .tc := ⟨.hbm, 56, rfl⟩
abbrev main_v26 : Ref sig .tc := ⟨.hbm, 57, rfl⟩
abbrev main_c_5 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_6 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_7 : Ref sig .tc := ⟨.hbm, 68, rfl⟩
abbrev main_v35 : Ref sig .tc := ⟨.hbm, 69, rfl⟩
abbrev main_cst_8 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_9 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_c_10 : Ref sig .tc := ⟨.hbm, 86, rfl⟩
abbrev main_v50 : Ref sig .tc := ⟨.hbm, 87, rfl⟩
abbrev main_v51 : Ref sig .tc := ⟨.hbm, 88, rfl⟩
abbrev main_c_11 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_12 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_13 : Ref sig .tc := ⟨.hbm, 99, rfl⟩
abbrev main_v60 : Ref sig .tc := ⟨.hbm, 100, rfl⟩
abbrev main_cst_14 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_15 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_c_16 : Ref sig .tc := ⟨.hbm, 117, rfl⟩
abbrev main_v75 : Ref sig .tc := ⟨.hbm, 118, rfl⟩
abbrev main_v76 : Ref sig .tc := ⟨.hbm, 119, rfl⟩
abbrev main_c_17 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_18 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_19 : Ref sig .tc := ⟨.hbm, 130, rfl⟩
abbrev main_v85 : Ref sig .tc := ⟨.hbm, 131, rfl⟩
abbrev main_cst_20 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_21 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_c_22 : Ref sig .tc := ⟨.hbm, 148, rfl⟩
abbrev main_v100 : Ref sig .tc := ⟨.hbm, 149, rfl⟩
abbrev main_v101 : Ref sig .tc := ⟨.hbm, 150, rfl⟩
abbrev main_c_23 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_c_24 : Ref sig .tc := ⟨.hbm, 157, rfl⟩
abbrev main_v107 : Ref sig .tc := ⟨.hbm, 158, rfl⟩
abbrev main_v108 : Ref sig .tc := ⟨.hbm, 159, rfl⟩
abbrev main_c_25 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_call0_cst : Ref sig .tc := ⟨.hbm, 171, rfl⟩
abbrev main_call0_v0 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_call1_cst : Ref sig .tc := ⟨.hbm, 178, rfl⟩
abbrev main_call1_v0 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_cst_26 : Ref sig .tc := ⟨.hbm, 187, rfl⟩
abbrev main_v131 : Ref sig .tc := ⟨.hbm, 188, rfl⟩
abbrev main_v132 : Ref sig .tc := ⟨.hbm, 189, rfl⟩
abbrev main_cst_27 : Ref sig .tc := ⟨.hbm, 190, rfl⟩
abbrev main_v133 : Ref sig .tc := ⟨.hbm, 191, rfl⟩
abbrev main_v134 : Ref sig .tc := ⟨.hbm, 192, rfl⟩
abbrev main_cst_28 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S20000x24 : S_.BroadcastsInDim S20000x24 (![] : Fin 0 → Fin S20000x24.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x24_0_1 : S20000x1.BroadcastsInDim S20000x24 (![0, 1] : Fin 2 → Fin S20000x24.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S100000x18 : S_.BroadcastsInDim S100000x18 (![] : Fin 0 → Fin S100000x18.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x18_0_1 : S100000x1.BroadcastsInDim S100000x18 (![0, 1] : Fin 2 → Fin S100000x18.rank)
  bcast_S1x128_S100000x128_0_1 : S1x128.BroadcastsInDim S100000x128 (![0, 1] : Fin 2 → Fin S100000x128.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x256_d1 : Shape.Concatenates [S1000000x128, S1000000x128] S1000000x256 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  bcast_S_S1000000x16 : S_.BroadcastsInDim S1000000x16 (![] : Fin 0 → Fin S1000000x16.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  shapeCasts_S1000000x1_S1000000 : S1000000x1.ShapeCasts S1000000
  gather_S100000x24_S2000000x1_S2000000x24_1_0_n_n_0_1_124_wf : GatherDims.WF S100000x24 S2000000x1 S2000000x24 [1] [0] [] [0] [] 1 ![1, 24]
  scatter_S20000x24_S2000000x1_S2000000x24_1_0_0_1_wf : ScatterDims.WF S20000x24 S2000000x1 S2000000x24 [1] [0] [0] 1
  scatter_S20000_S2000000x1_S2000000_n_0_0_1_wf : ScatterDims.WF S20000 S2000000x1 S2000000 [] [0] [0] 1
  dot_S20000x24_S24x128_S20000x128_1_0_0_1_n_n_wf : DotDims.WF S20000x24 S24x128 S20000x128 [1] [0] [0] [1] [] []
  dot_S20000x18_S18x128_S20000x128_1_0_0_1_n_n_wf : DotDims.WF S20000x18 S18x128 S20000x128 [1] [0] [0] [1] [] []
  gather_S20000x18_S2000000x1_S2000000x18_1_0_n_n_0_1_118_wf : GatherDims.WF S20000x18 S2000000x1 S2000000x18 [1] [0] [] [0] [] 1 ![1, 18]
  scatter_S100000x18_S2000000x1_S2000000x18_1_0_0_1_wf : ScatterDims.WF S100000x18 S2000000x1 S2000000x18 [1] [0] [0] 1
  scatter_S100000_S2000000x1_S2000000_n_0_0_1_wf : ScatterDims.WF S100000 S2000000x1 S2000000 [] [0] [0] 1
  dot_S100000x18_S18x128_S100000x128_1_0_0_1_n_n_wf : DotDims.WF S100000x18 S18x128 S100000x128 [1] [0] [0] [1] [] []
  dot_S100000x24_S24x128_S100000x128_1_0_0_1_n_n_wf : DotDims.WF S100000x24 S24x128 S100000x128 [1] [0] [0] [1] [] []
  gather_S100000x128_S2000000x1_S2000000x128_1_0_n_n_0_1_1128_wf : GatherDims.WF S100000x128 S2000000x1 S2000000x128 [1] [0] [] [0] [] 1 ![1, 128]
  scatter_S20000x128_S2000000x1_S2000000x128_1_0_0_1_wf : ScatterDims.WF S20000x128 S2000000x1 S2000000x128 [1] [0] [0] 1
  dot_S20000x128_S128x128_S20000x128_1_0_0_1_n_n_wf : DotDims.WF S20000x128 S128x128 S20000x128 [1] [0] [0] [1] [] []
  gather_S20000x128_S2000000x1_S2000000x128_1_0_n_n_0_1_1128_wf : GatherDims.WF S20000x128 S2000000x1 S2000000x128 [1] [0] [] [0] [] 1 ![1, 128]
  scatter_S100000x128_S2000000x1_S2000000x128_1_0_0_1_wf : ScatterDims.WF S100000x128 S2000000x1 S2000000x128 [1] [0] [0] 1
  dot_S100000x128_S128x128_S100000x128_1_0_0_1_n_n_wf : DotDims.WF S100000x128 S128x128 S100000x128 [1] [0] [0] [1] [] []
  gather_S100000x128_S1000000x1_S1000000x128_1_0_n_n_0_1_1128_wf : GatherDims.WF S100000x128 S1000000x1 S1000000x128 [1] [0] [] [0] [] 1 ![1, 128]
  gather_S20000x128_S1000000x1_S1000000x128_1_0_n_n_0_1_1128_wf : GatherDims.WF S20000x128 S1000000x1 S1000000x128 [1] [0] [] [0] [] 1 ![1, 128]
  dot_S1000000x256_S256x64_S1000000x64_1_0_0_1_n_n_wf : DotDims.WF S1000000x256 S256x64 S1000000x64 [1] [0] [0] [1] [] []
  dot_S1000000x64_S64x16_S1000000x16_1_0_0_1_n_n_wf : DotDims.WF S1000000x64 S64x16 S1000000x16 [1] [0] [0] [1] [] []
  dot_S1000000x16_S16x1_S1000000x1_1_0_0_1_n_n_wf : DotDims.WF S1000000x16 S16x1 S1000000x1 [1] [0] [0] [1] [] []

variable [Facts₀]

def gather_S100000x24_S2000000x1_S2000000x24_1_0_n_n_0_1_124 : GatherDims S100000x24 S2000000x1 S2000000x24 where
  offsetDims := [1]
  collapsedSliceDims := [0]
  operandBatchingDims := []
  startIndicesBatchingDims := []
  startIndexMap := [0]
  indexVectorDim := 1
  sliceSizes := ![1, 24]
  wf := gather_S100000x24_S2000000x1_S2000000x24_1_0_n_n_0_1_124_wf
def scatter_S20000x24_S2000000x1_S2000000x24_1_0_0_1 : ScatterDims S20000x24 S2000000x1 S2000000x24 where
  updateWindowDims := [1]
  insertedWindowDims := [0]
  scatterDimsToOperandDims := [0]
  indexVectorDim := 1
  wf := scatter_S20000x24_S2000000x1_S2000000x24_1_0_0_1_wf
def scatter_S20000_S2000000x1_S2000000_n_0_0_1 : ScatterDims S20000 S2000000x1 S2000000 where
  updateWindowDims := []
  insertedWindowDims := [0]
  scatterDimsToOperandDims := [0]
  indexVectorDim := 1
  wf := scatter_S20000_S2000000x1_S2000000_n_0_0_1_wf
def dot_S20000x24_S24x128_S20000x128_1_0_0_1_n_n : DotDims S20000x24 S24x128 S20000x128 where
  lhsContracting := [1]
  rhsContracting := [0]
  lhsNonContracting := [0]
  rhsNonContracting := [1]
  lhsBatch := []
  rhsBatch := []
  wf := dot_S20000x24_S24x128_S20000x128_1_0_0_1_n_n_wf
def dot_S20000x18_S18x128_S20000x128_1_0_0_1_n_n : DotDims S20000x18 S18x128 S20000x128 where
  lhsContracting := [1]
  rhsContracting := [0]
  lhsNonContracting := [0]
  rhsNonContracting := [1]
  lhsBatch := []
  rhsBatch := []
  wf := dot_S20000x18_S18x128_S20000x128_1_0_0_1_n_n_wf
def gather_S20000x18_S2000000x1_S2000000x18_1_0_n_n_0_1_118 : GatherDims S20000x18 S2000000x1 S2000000x18 where
  offsetDims := [1]
  collapsedSliceDims := [0]
  operandBatchingDims := []
  startIndicesBatchingDims := []
  startIndexMap := [0]
  indexVectorDim := 1
  sliceSizes := ![1, 18]
  wf := gather_S20000x18_S2000000x1_S2000000x18_1_0_n_n_0_1_118_wf
def scatter_S100000x18_S2000000x1_S2000000x18_1_0_0_1 : ScatterDims S100000x18 S2000000x1 S2000000x18 where
  updateWindowDims := [1]
  insertedWindowDims := [0]
  scatterDimsToOperandDims := [0]
  indexVectorDim := 1
  wf := scatter_S100000x18_S2000000x1_S2000000x18_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S100000x18_S18x128_S100000x128_1_0_0_1_n_n : DotDims S100000x18 S18x128 S100000x128 where
  lhsContracting := [1]
  rhsContracting := [0]
  lhsNonContracting := [0]
  rhsNonContracting := [1]
  lhsBatch := []
  rhsBatch := []
  wf := dot_S100000x18_S18x128_S100000x128_1_0_0_1_n_n_wf
def dot_S100000x24_S24x128_S100000x128_1_0_0_1_n_n : DotDims S100000x24 S24x128 S100000x128 where
  lhsContracting := [1]
  rhsContracting := [0]
  lhsNonContracting := [0]
  rhsNonContracting := [1]
  lhsBatch := []
  rhsBatch := []
  wf := dot_S100000x24_S24x128_S100000x128_1_0_0_1_n_n_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S20000x128_S2000000x1_S2000000x128_1_0_0_1 : ScatterDims S20000x128 S2000000x1 S2000000x128 where
  updateWindowDims := [1]
  insertedWindowDims := [0]
  scatterDimsToOperandDims := [0]
  indexVectorDim := 1
  wf := scatter_S20000x128_S2000000x1_S2000000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S2000000x1_S2000000x128_1_0_n_n_0_1_1128 : GatherDims S20000x128 S2000000x1 S2000000x128 where
  offsetDims := [1]
  collapsedSliceDims := [0]
  operandBatchingDims := []
  startIndicesBatchingDims := []
  startIndexMap := [0]
  indexVectorDim := 1
  sliceSizes := ![1, 128]
  wf := gather_S20000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def dot_S1000000x256_S256x64_S1000000x64_1_0_0_1_n_n : DotDims S1000000x256 S256x64 S1000000x64 where
  lhsContracting := [1]
  rhsContracting := [0]
  lhsNonContracting := [0]
  rhsNonContracting := [1]
  lhsBatch := []
  rhsBatch := []
  wf := dot_S1000000x256_S256x64_S1000000x64_1_0_0_1_n_n_wf
def dot_S1000000x64_S64x16_S1000000x16_1_0_0_1_n_n : DotDims S1000000x64 S64x16 S1000000x16 where
  lhsContracting := [1]
  rhsContracting := [0]
  lhsNonContracting := [0]
  rhsNonContracting := [1]
  lhsBatch := []
  rhsBatch := []
  wf := dot_S1000000x64_S64x16_S1000000x16_1_0_0_1_n_n_wf
def dot_S1000000x16_S16x1_S1000000x1_1_0_0_1_n_n : DotDims S1000000x16 S16x1 S1000000x1 where
  lhsContracting := [1]
  rhsContracting := [0]
  lhsNonContracting := [0]
  rhsNonContracting := [1]
  lhsBatch := []
  rhsBatch := []
  wf := dot_S1000000x16_S16x1_S1000000x1_1_0_0_1_n_n_wf

class Facts : Prop extends Facts₀ where

variable [Facts]
-- ==== Proof.HostTerms.lean ====
/-
  The host-side chains both programs share, written once for any float instance and any sizes:

  * `wrapIdx`: a position word below zero has the table's length added (numpy's negative indexing);
  * `takeFill`: rows of a table at wrapped positions, a row whose wrapped position falls outside the table replaced
    by a fill word; `gatherWrapped`: the same without the range test;
  * `meanAgg`: messages summed into their destination rows, divided by the number of messages each row received
    (at least one).

  The side conditions of the operations (which shapes broadcast or reduce to which) are arguments, so that each
  program's own stated facts can be passed and the program's printed term is this function by unfolding.
-/
import Idealize.ShloMosaic.PureOps
import Idealize.ShloMosaic.Lib.StableHlo

noncomputable section

namespace Cert.HostTerms

open Idealize.ShloMosaic

variable {F : FTy → Type} [FloatOps F]

abbrev S0 : Shape := ⟨0, ![]⟩

/-- A negative position word has the table length `len` added; others are kept. -/
def wrapIdx {n : Nat} (hb : S0.BroadcastsInDim ⟨1, ![n]⟩ (![] : Fin 0 → Fin 1)) (len : BitVec 32)
    (idx : IVec ⟨1, ![n]⟩ 32) : IVec ⟨1, ![n]⟩ 32 :=
  select (cmpi .slt idx (broadcastInDim ⟨1, ![n]⟩ ![] hb (constantI S0 32 0#32)))
    (addi idx (broadcastInDim ⟨1, ![n]⟩ ![] hb (constantI S0 32 len))) idx

/-- Every position word is at least zero and at most `last`, as signed words: the two compares read one everywhere. -/
def InRange {n : Nat} (hb : S0.BroadcastsInDim ⟨1, ![n]⟩ (![] : Fin 0 → Fin 1)) (last : BitVec 32)
    (idx : IVec ⟨1, ![n]⟩ 32) : Prop :=
  (∀ i, cmpi .sge idx (broadcastInDim ⟨1, ![n]⟩ ![] hb (constantI S0 32 0#32)) i = 1#1)
    ∧ (∀ i, cmpi .sle idx (broadcastInDim ⟨1, ![n]⟩ ![] hb (constantI S0 32 last)) i = 1#1)

/-- Rows of `x` at the wrapped positions, as a gather with an n × 1 column of start indices. -/
def gatherWrapped {N D n : Nat} (g : GatherDims ⟨2, ![N, D]⟩ ⟨2, ![n, 1]⟩ ⟨2, ![n, D]⟩)
    (hb : S0.BroadcastsInDim ⟨1, ![n]⟩ (![] : Fin 0 → Fin 1))
    (hcol : (⟨1, ![n]⟩ : Shape).BroadcastsInDim ⟨2, ![n, 1]⟩ ![0]) (len : BitVec 32)
    (x : FVec F ⟨2, ![N, D]⟩ .f32) (idx : IVec ⟨1, ![n]⟩ 32) : FVec F ⟨2, ![n, D]⟩ .f32 :=
  Host.gather g x (broadcastInDim ⟨2, ![n, 1]⟩ ![0] hcol (wrapIdx hb len idx))

/-- Rows of `x` at the wrapped positions; a row whose wrapped position is not in `0 … last` is the fill word. -/
def takeFill {N D n : Nat} (g : GatherDims ⟨2, ![N, D]⟩ ⟨2, ![n, 1]⟩ ⟨2, ![n, D]⟩)
    (hb : S0.BroadcastsInDim ⟨1, ![n]⟩ (![] : Fin 0 → Fin 1))
    (hcol : (⟨1, ![n]⟩ : Shape).BroadcastsInDim ⟨2, ![n, 1]⟩ ![0])
    (hb0 : S0.BroadcastsInDim ⟨2, ![n, 1]⟩ (![] : Fin 0 → Fin 2))
    (h11 : (⟨1, ![1]⟩ : Shape).BroadcastsInDim ⟨2, ![1, 1]⟩ ![1])
    (h1n : (⟨2, ![1, 1]⟩ : Shape).BroadcastsInDim ⟨2, ![n, 1]⟩ ![0, 1])
    (hred : (⟨2, ![n, 1]⟩ : Shape).ReducesTo [1] ⟨1, ![n]⟩) (h0 : 0 < S0.numel)
    (hrow : (⟨1, ![n]⟩ : Shape).BroadcastsInDim ⟨2, ![n, D]⟩ ![0])
    (hfill : S0.BroadcastsInDim ⟨2, ![n, D]⟩ (![] : Fin 0 → Fin 2))
    (len last : BitVec 32) (fill : BitVec 32)
    (x : FVec F ⟨2, ![N, D]⟩ .f32) (idx : IVec ⟨1, ![n]⟩ 32) : FVec F ⟨2, ![n, D]⟩ .f32 :=
  let i5 : IVec ⟨2, ![n, 1]⟩ 32 := broadcastInDim ⟨2, ![n, 1]⟩ ![0] hcol (wrapIdx hb len idx)
  let ok : IVec ⟨1, ![n]⟩ 1 :=
    Host.reduce IntOp.andi
      (andi (cmpi .sge i5 (broadcastInDim ⟨2, ![n, 1]⟩ ![] hb0 (constantI S0 32 0#32)))
        (cmpi .sle i5 (broadcastInDim ⟨2, ![n, 1]⟩ ![0, 1] h1n (broadcastInDim ⟨2, ![1, 1]⟩ ![1] h11 (constantI ⟨1, ![1]⟩ 32 last)))))
      (constantI S0 1 1#1) hred h0
  select (broadcastInDim ⟨2, ![n, D]⟩ ![0] hrow ok) (Host.gather g x i5)
    (broadcastInDim ⟨2, ![n, D]⟩ ![] hfill (constant S0 .f32 fill))

/-- Messages `msg` (one row per edge) summed into the rows their destination words name, each row divided by the
    number of messages it received, or by one if it received none. -/
def meanAgg {C D n : Nat} (sc : ScatterDims ⟨2, ![C, D]⟩ ⟨2, ![n, 1]⟩ ⟨2, ![n, D]⟩)
    (sv : ScatterDims ⟨1, ![C]⟩ ⟨2, ![n, 1]⟩ ⟨1, ![n]⟩)
    (hCD : S0.BroadcastsInDim ⟨2, ![C, D]⟩ (![] : Fin 0 → Fin 2))
    (hcol : (⟨1, ![n]⟩ : Shape).BroadcastsInDim ⟨2, ![n, 1]⟩ ![0])
    (hn : S0.BroadcastsInDim ⟨1, ![n]⟩ (![] : Fin 0 → Fin 1))
    (hC : S0.BroadcastsInDim ⟨1, ![C]⟩ (![] : Fin 0 → Fin 1))
    (hC1 : (⟨1, ![C]⟩ : Shape).BroadcastsInDim ⟨2, ![C, 1]⟩ ![0])
    (hC1D : (⟨2, ![C, 1]⟩ : Shape).BroadcastsInDim ⟨2, ![C, D]⟩ ![0, 1])
    (msg : FVec F ⟨2, ![n, D]⟩ .f32) (dst : IVec ⟨1, ![n]⟩ 32) : FVec F ⟨2, ![C, D]⟩ .f32 :=
  Host.divf
    (Host.scatterAdd sc (broadcastInDim ⟨2, ![C, D]⟩ ![] hCD (constant S0 .f32 0x00000000#32))
      (broadcastInDim ⟨2, ![n, 1]⟩ ![0] hcol dst) msg)
    (broadcastInDim ⟨2, ![C, D]⟩ ![0, 1] hC1D
      (broadcastInDim ⟨2, ![C, 1]⟩ ![0] hC1
        (maximumf
          (Host.scatterAdd sv (broadcastInDim ⟨1, ![C]⟩ ![] hC (constant S0 .f32 0x00000000#32))
            (broadcastInDim ⟨2, ![n, 1]⟩ ![0] hcol dst)
            (broadcastInDim ⟨1, ![n]⟩ ![] hn (constant S0 .f32 0x3F800000#32)))
          (broadcastInDim ⟨1, ![C]⟩ ![] hC (constant S0 .f32 0x3F800000#32)))))

end Cert.HostTerms

end
-- ==== Proof.PreIdx.lean ====
/-
  What the precondition says of the four index inputs: the user endpoints of the message edges and of the label edges
  lie in 0 … 99999, the movie endpoints in 0 … 19999. The precondition is a conjunction of all-true tests, one per
  conjunct; the last eight are these range tests.
-/
import proofs.«401341_j58531814310253_1_alg».proof.Pre_finite_inputs
import proofs.«401341_j58531814310253_1_alg».proof.Proof.HostTerms
import Idealize.ShloMosaic.Lib.ReduceAll
import Idealize.ShloMosaic.Lib.StableHlo.Predicate

noncomputable section

namespace Cert.Pre_finite_inputs.Idx

open Idealize.ShloMosaic Cert.Pre_finite_inputs Cert.HostTerms

variable [Cert.Pre_finite_inputs.Facts]
open Cert.Pre_finite_inputs.Facts

variable {F : FTy → Type} [FloatOps F]

theorem ranges_of_pre (a0 : FVec F S100000x24 .f32) (a1 : FVec F S20000x18 .f32) (a2 a3 : IVec S2000000 32) (a4 a5 : IVec S1000000 32)
    (a6 : FVec F S24x128 .f32) (a7 : FVec F S128 .f32) (a8 a9 : FVec F S18x128 .f32) (a10 : FVec F S128 .f32) (a11 : FVec F S24x128 .f32)
    (a12 : FVec F S128x128 .f32) (a13 : FVec F S128 .f32) (a14 a15 : FVec F S128x128 .f32) (a16 : FVec F S128 .f32) (a17 : FVec F S128x128 .f32)
    (a18 : FVec F S256x64 .f32) (a19 : FVec F S64 .f32) (a20 : FVec F S64x16 .f32) (a21 : FVec F S16 .f32) (a22 : FVec F S16x1 .f32) (a23 : FVec F S1 .f32)
    (h : fn (F := F) a0 a1 a2 a3 a4 a5 a6 a7 a8 a9 a10 a11 a12 a13 a14 a15 a16 a17 a18 a19 a20 a21 a22 a23 = fun _ => 1#1) :
    InRange bcast_S_S2000000 99999#32 a2 ∧ InRange bcast_S_S2000000 19999#32 a3
      ∧ InRange bcast_S_S1000000 99999#32 a4 ∧ InRange bcast_S_S1000000 19999#32 a5 := by
  -- the rank-zero result has one index
  haveI : Subsingleton S_.Idx := ⟨fun _ _ => funext fun d => d.elim0⟩
  let z : S_.Idx := fun a => a.elim0
  have e : fn (F := F) a0 a1 a2 a3 a4 a5 a6 a7 a8 a9 a10 a11 a12 a13 a14 a15 a16 a17 a18 a19 a20 a21 a22 a23 z = 1#1 :=
    congrFun h z
  -- the chain of parts is one chain: its last part, with the conjunction so far as its two live names
  have e7 : fn_part7 (F := F) a4 a5 _ _ z = 1#1 := e
  unfold fn_part7 at e7
  dsimp only at e7
  -- the conjunction is nested to the left: peel the eight range tests off from the right
  obtain ⟨e126, h129⟩ := IntOp.andi_eq_one.1 e7
  obtain ⟨e122, h125⟩ := IntOp.andi_eq_one.1 e126
  obtain ⟨e118, h121⟩ := IntOp.andi_eq_one.1 e122
  obtain ⟨e114, h117⟩ := IntOp.andi_eq_one.1 e118
  obtain ⟨e110, h113⟩ := IntOp.andi_eq_one.1 e114
  obtain ⟨e106, h109⟩ := IntOp.andi_eq_one.1 e110
  obtain ⟨e102, h105⟩ := IntOp.andi_eq_one.1 e106
  obtain ⟨-, h101⟩ := IntOp.andi_eq_one.1 e102
  clear e7 e126 e122 e118 e114 e110 e106 e102 e h
  -- each all-true test that reads one had a one at every entry
  exact ⟨⟨Host.reduce_andi_all _ _ _ _ _ h101, Host.reduce_andi_all _ _ _ _ _ h105⟩,
    ⟨Host.reduce_andi_all _ _ _ _ _ h109, Host.reduce_andi_all _ _ _ _ _ h113⟩,
    ⟨Host.reduce_andi_all _ _ _ _ _ h117, Host.reduce_andi_all _ _ _ _ _ h121⟩,
    ⟨Host.reduce_andi_all _ _ _ _ _ h125, Host.reduce_andi_all _ _ _ _ _ h129⟩⟩

end Cert.Pre_finite_inputs.Idx

end
-- ==== Proof.LibTypedRef.lean ====
/-
  Typed references to host buffers: contents moved to a reference's own buffer type and back are unchanged.
-/
import Idealize.ShloMosaic.Lib.StableHlo

noncomputable section

namespace Cert.LibTypedRef

open Idealize.ShloMosaic

/-- Contents at a value's type, moved to the typed reference's buffer type and back, are the contents: the two moves
    are transports along one equation and its inverse. -/
theorem ofBuf_toBuf {sig : RefSig} {Val : EltTy → Type} {T : BufTy} (x : StableHlo.TRef sig T) (v : T.Contents Val) :
    x.ofBuf (x.toBuf v) = v := by
  obtain ⟨r, h, _, _⟩ := x
  subst h
  rfl

end Cert.LibTypedRef

end
-- ==== Proof.LibKeep.lean ====
/-
  A buffer that no operation of a host stretch writes keeps its contents across the stretch.
-/
import Idealize.ShloMosaic.Lib.StableHlo.Run

namespace Cert.LibKeep

open Idealize.ShloMosaic

/-- Closes `after ops X (devRef b) = X (devRef b)` for a literal list `ops` (named by the identifier given) none of
    whose operations writes `b`: each operation writes one literal reference, and it differs from `b`. -/
macro "kept_host" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

end Cert.LibKeep
-- ==== Proof.Fold0.lean ====
/-
  The host side of the kernel's program from the launch to the second pallas_call's entry, read as values: the rows of
  the user and movie feature tables taken at the message edges' endpoints, their means per destination node, and the
  bias vectors laid out as rows; every other buffer a region reads is an argument, unchanged since the launch.
-/
import proofs.«401341_j58531814310253_1_alg».proof.Proof.Gen.KernelIdeal.Frame
import proofs.«401341_j58531814310253_1_alg».proof.Proof.HostTerms
import proofs.«401341_j58531814310253_1_alg».proof.Proof.LibTypedRef
import proofs.«401341_j58531814310253_1_alg».proof.Proof.LibKeep
import Idealize.ShloMosaic.Lib.StableHlo.Run

noncomputable section

namespace Cert.KernelIdeal.Fold0

open Idealize.ShloMosaic Idealize.ShloMosaic.TcCoe Idealize.SL.Sem Idealize.ShloMosaic.StableHlo
open Cert.KernelIdeal Cert.KernelIdeal.Gen Cert.HostTerms

variable {F : FTy → Type} [FloatOps F]
variable (m : (ℓ : Loc nD τ sig) → Buf (Elt F) ℓ) (ρ : Dev nD → PrngReg)

/-- A buffer no operation of the stretch writes has, after the stretch, what it had before. -/
macro "keep " ops:ident : tactic => `(tactic| (show StableHlo.after $ops _ _ = _; kept_host $ops))

/-! ## Contents moved to a typed reference's own type and back -/
theorem rd_main_arg0 (w : BufTy.Contents (Elt F) (Proc.devRef (τ := τ) .tc main_arg0).ty) (h1 : main_arg0.ty = (⟨S100000x24, .f32⟩ : BufTy)) (h2 : main_arg0.space ≠ .host) (h3 : main_arg0.isScoped = false) :
    (TRef.of main_arg0 h1 h2 h3).ofBuf w = w := rfl
theorem rd_main_arg1 (w : BufTy.Contents (Elt F) (Proc.devRef (τ := τ) .tc main_arg1).ty) (h1 : main_arg1.ty = (⟨S20000x18, .f32⟩ : BufTy)) (h2 : main_arg1.space ≠ .host) (h3 : main_arg1.isScoped = false) :
    (TRef.of main_arg1 h1 h2 h3).ofBuf w = w := rfl
theorem rd_main_arg2 (w : BufTy.Contents (Elt F) (Proc.devRef (τ := τ) .tc main_arg2).ty) (h1 : main_arg2.ty = (⟨S2000000, .i32⟩ : BufTy)) (h2 : main_arg2.space ≠ .host) (h3 : main_arg2.isScoped = false) :
    (TRef.of main_arg2 h1 h2 h3).ofBuf w = w := rfl
theorem rd_main_arg3 (w : BufTy.Contents (Elt F) (Proc.devRef (τ := τ) .tc main_arg3).ty) (h1 : main_arg3.ty = (⟨S2000000, .i32⟩ : BufTy)) (h2 : main_arg3.space ≠ .host) (h3 : main_arg3.isScoped = false) :
    (TRef.of main_arg3 h1 h2 h3).ofBuf w = w := rfl
theorem wr_main_v0 (v : (⟨S2000000x24, .f32⟩ : BufTy).Contents (Elt F)) (h1 : main_v0.ty = (⟨S2000000x24, .f32⟩ : BufTy)) (h2 : main_v0.space ≠ .host) (h3 : main_v0.isScoped = false) :
    (TRef.of main_v0 h1 h2 h3).toBuf v = v := rfl
theorem wr_main_v13 (v : (⟨S2000000x18, .f32⟩ : BufTy).Contents (Elt F)) (h1 : main_v13.ty = (⟨S2000000x18, .f32⟩ : BufTy)) (h2 : main_v13.space ≠ .host) (h3 : main_v13.isScoped = false) :
    (TRef.of main_v13 h1 h2 h3).toBuf v = v := rfl

/-! ## Before the first region -/

/-- The user features gathered at the message edges' user endpoints. -/
theorem W1_v0 (c : Dev nD) : W1 m ρ c (Proc.devRef .tc main_v0) =
    takeFill gather_S100000x24_S2000000x1_S2000000x24_1_0_n_n_0_1_124 bcast_S_S2000000 bcast_S2000000_S2000000x1_0
      bcast_S_S2000000x1 bcast_S1_S1x1_1 bcast_S1x1_S2000000x1_0_1 reducesTo_S2000000x1_S2000000_d1 h_S_
      bcast_S2000000_S2000000x24_0 bcast_S_S2000000x24 100000#32 99999#32 0x7FC00000#32 (m ((c : Thread nD τ).loc main_arg0)) (m ((c : Thread nD τ).loc main_arg2)) := by
  show StableHlo.after hostOps0 (W0 m ρ c) (Proc.devRef .tc main_v0) = _
  after_results_simp
  simp only [Cert.LibTypedRef.ofBuf_toBuf, rd_main_arg0, rd_main_arg2]
  refine (wr_main_v0 _ _ _ _).trans ?_
  exact rfl

theorem W1_arg3 (c : Dev nD) : W1 m ρ c (Proc.devRef .tc main_arg3) = (m ((c : Thread nD τ).loc main_arg3)) := by keep hostOps0
theorem W1_arg1 (c : Dev nD) : W1 m ρ c (Proc.devRef .tc main_arg1) = (m ((c : Thread nD τ).loc main_arg1)) := by keep hostOps0
theorem W1_arg2 (c : Dev nD) : W1 m ρ c (Proc.devRef .tc main_arg2) = (m ((c : Thread nD τ).loc main_arg2)) := by keep hostOps0

/-- Their mean per movie: the aggregated user features of layer 1. -/
theorem W2_v12 (c : Dev nD) : W2 m ρ c (Proc.devRef .tc main_v12) =
    meanAgg scatter_S20000x24_S2000000x1_S2000000x24_1_0_0_1 scatter_S20000_S2000000x1_S2000000_n_0_0_1
      bcast_S_S20000x24 bcast_S2000000_S2000000x1_0 bcast_S_S2000000 bcast_S_S20000 bcast_S20000_S20000x1_0 bcast_S20000x1_S20000x24_0_1
      (W1 m ρ c (Proc.devRef .tc main_v0)) (W1 m ρ c (Proc.devRef .tc main_arg3)) := by
  show StableHlo.after hostOps0_1 (W1 m ρ c) (Proc.devRef .tc main_v12) = _
  after_results_simp
  exact rfl

theorem W2_arg1 (c : Dev nD) : W2 m ρ c (Proc.devRef .tc main_arg1) = (m ((c : Thread nD τ).loc main_arg1)) :=
  (by keep hostOps0_1 : _ = W1 m ρ c (Proc.devRef .tc main_arg1)).trans (W1_arg1 m ρ c)
theorem W2_arg3 (c : Dev nD) : W2 m ρ c (Proc.devRef .tc main_arg3) = (m ((c : Thread nD τ).loc main_arg3)) :=
  (by keep hostOps0_1 : _ = W1 m ρ c (Proc.devRef .tc main_arg3)).trans (W1_arg3 m ρ c)
theorem W2_arg2 (c : Dev nD) : W2 m ρ c (Proc.devRef .tc main_arg2) = (m ((c : Thread nD τ).loc main_arg2)) :=
  (by keep hostOps0_1 : _ = W1 m ρ c (Proc.devRef .tc main_arg2)).trans (W1_arg2 m ρ c)

/-- The movie features gathered at the message edges' movie endpoints. -/
theorem W3_v13 (c : Dev nD) : W3 m ρ c (Proc.devRef .tc main_v13) =
    takeFill gather_S20000x18_S2000000x1_S2000000x18_1_0_n_n_0_1_118 bcast_S_S2000000 bcast_S2000000_S2000000x1_0
      bcast_S_S2000000x1 bcast_S1_S1x1_1 bcast_S1x1_S2000000x1_0_1 reducesTo_S2000000x1_S2000000_d1 h_S_
      bcast_S2000000_S2000000x18_0 bcast_S_S2000000x18 20000#32 19999#32 0x7FC00000#32
      (W2 m ρ c (Proc.devRef .tc main_arg1)) (W2 m ρ c (Proc.devRef .tc main_arg3)) := by
  show StableHlo.after hostOps0_2 (W2 m ρ c) (Proc.devRef .tc main_v13) = _
  after_results_simp
  simp only [Cert.LibTypedRef.ofBuf_toBuf, rd_main_arg1, rd_main_arg3]
  refine (wr_main_v13 _ _ _ _).trans ?_
  exact rfl

theorem W3_arg2 (c : Dev nD) : W3 m ρ c (Proc.devRef .tc main_arg2) = (m ((c : Thread nD τ).loc main_arg2)) :=
  (by keep hostOps0_2 : _ = W2 m ρ c (Proc.devRef .tc main_arg2)).trans (W2_arg2 m ρ c)

/-- Their mean per user: the aggregated movie features of layer 1. -/
theorem W4_v25 (c : Dev nD) : W4 m ρ c (Proc.devRef .tc main_v25) =
    meanAgg scatter_S100000x18_S2000000x1_S2000000x18_1_0_0_1 scatter_S100000_S2000000x1_S2000000_n_0_0_1
      bcast_S_S100000x18 bcast_S2000000_S2000000x1_0 bcast_S_S2000000 bcast_S_S100000 bcast_S100000_S100000x1_0 bcast_S100000x1_S100000x18_0_1
      (W3 m ρ c (Proc.devRef .tc main_v13)) (W3 m ρ c (Proc.devRef .tc main_arg2)) := by
  show StableHlo.after hostOps0_3 (W3 m ρ c) (Proc.devRef .tc main_v25) = _
  after_results_simp
  exact rfl

/-- The movie side's layer-1 bias as a row. -/
theorem W4_v26 (c : Dev nD) : W4 m ρ c (Proc.devRef .tc main_v26) = shapeCast S1x128 (W3 m ρ c (Proc.devRef .tc main_arg7)) shapeCasts_S128_S1x128 := by
  show StableHlo.after hostOps0_3 (W3 m ρ c) (Proc.devRef .tc main_v26) = _
  after_results_simp
  exact rfl

/-! ## Between the first two regions -/

/-- The user side's layer-1 bias as a row. -/
theorem W6_v28 (c : Dev nD) : W6 m ρ c (Proc.devRef .tc main_v28) = shapeCast S1x128 (W5 m ρ c (Proc.devRef .tc main_arg10)) shapeCasts_S128_S1x128 := by
  show StableHlo.after hostOps1 (W5 m ρ c) (Proc.devRef .tc main_v28) = _
  after_results_simp
  exact rfl

end Cert.KernelIdeal.Fold0

end
-- ==== Proof.Fold1.lean ====
/-
  The host side of the kernel's program between the second pallas_call's exit and the fourth's entry, read as values:
  the layer-1 tables gathered at the message edges' endpoints, their means per destination node, and the layer-2 bias
  vectors laid out as rows — each stated over the contents at the boundary before it.
-/
import proofs.«401341_j58531814310253_1_alg».proof.Proof.Gen.KernelIdeal.Frame
import proofs.«401341_j58531814310253_1_alg».proof.Proof.HostTerms
import proofs.«401341_j58531814310253_1_alg».proof.Proof.LibTypedRef
import proofs.«401341_j58531814310253_1_alg».proof.Proof.LibKeep
import Idealize.ShloMosaic.Lib.StableHlo.Run

noncomputable section

namespace Cert.KernelIdeal.Fold1

open Idealize.ShloMosaic Idealize.ShloMosaic.TcCoe Idealize.SL.Sem Idealize.ShloMosaic.StableHlo
open Cert.KernelIdeal Cert.KernelIdeal.Gen Cert.HostTerms

variable {F : FTy → Type} [FloatOps F]
variable (m : (ℓ : Loc nD τ sig) → Buf (Elt F) ℓ) (ρ : Dev nD → PrngReg)

/-- A buffer no operation of the stretch writes has, after the stretch, what it had before. -/
macro "keep " ops:ident : tactic => `(tactic| (show StableHlo.after $ops _ _ = _; kept_host $ops))

/-! ## Contents moved to a typed reference's own type and back -/
theorem rd_main_v29 (w : BufTy.Contents (Elt F) (Proc.devRef (τ := τ) .tc main_v29).ty) (h1 : main_v29.ty = (⟨S100000x128, .f32⟩ : BufTy)) (h2 : main_v29.space ≠ .host) (h3 : main_v29.isScoped = false) :
    (TRef.of main_v29 h1 h2 h3).ofBuf w = w := rfl
theorem rd_main_v27 (w : BufTy.Contents (Elt F) (Proc.devRef (τ := τ) .tc main_v27).ty) (h1 : main_v27.ty = (⟨S20000x128, .f32⟩ : BufTy)) (h2 : main_v27.space ≠ .host) (h3 : main_v27.isScoped = false) :
    (TRef.of main_v27 h1 h2 h3).ofBuf w = w := rfl
theorem rd_main_arg2 (w : BufTy.Contents (Elt F) (Proc.devRef (τ := τ) .tc main_arg2).ty) (h1 : main_arg2.ty = (⟨S2000000, .i32⟩ : BufTy)) (h2 : main_arg2.space ≠ .host) (h3 : main_arg2.isScoped = false) :
    (TRef.of main_arg2 h1 h2 h3).ofBuf w = w := rfl
theorem rd_main_arg3 (w : BufTy.Contents (Elt F) (Proc.devRef (τ := τ) .tc main_arg3).ty) (h1 : main_arg3.ty = (⟨S2000000, .i32⟩ : BufTy)) (h2 : main_arg3.space ≠ .host) (h3 : main_arg3.isScoped = false) :
    (TRef.of main_arg3 h1 h2 h3).ofBuf w = w := rfl
theorem wr_main_v30 (v : (⟨S2000000x128, .f32⟩ : BufTy).Contents (Elt F)) (h1 : main_v30.ty = (⟨S2000000x128, .f32⟩ : BufTy)) (h2 : main_v30.space ≠ .host) (h3 : main_v30.isScoped = false) :
    (TRef.of main_v30 h1 h2 h3).toBuf v = v := rfl
theorem wr_main_v43 (v : (⟨S2000000x128, .f32⟩ : BufTy).Contents (Elt F)) (h1 : main_v43.ty = (⟨S2000000x128, .f32⟩ : BufTy)) (h2 : main_v43.space ≠ .host) (h3 : main_v43.isScoped = false) :
    (TRef.of main_v43 h1 h2 h3).toBuf v = v := rfl

/-- The layer-1 user table gathered at the message edges' user endpoints. -/
theorem W8_v30 (c : Dev nD) : W8 m ρ c (Proc.devRef .tc main_v30) =
    takeFill gather_S100000x128_S2000000x1_S2000000x128_1_0_n_n_0_1_1128 bcast_S_S2000000 bcast_S2000000_S2000000x1_0
      bcast_S_S2000000x1 bcast_S1_S1x1_1 bcast_S1x1_S2000000x1_0_1 reducesTo_S2000000x1_S2000000_d1 h_S_
      bcast_S2000000_S2000000x128_0 bcast_S_S2000000x128 100000#32 99999#32 0x7FC00000#32
      (W7 m ρ c (Proc.devRef .tc main_v29)) (W7 m ρ c (Proc.devRef .tc main_arg2)) := by
  show StableHlo.after hostOps2 (W7 m ρ c) (Proc.devRef .tc main_v30) = _
  after_results_simp
  simp only [Cert.LibTypedRef.ofBuf_toBuf, rd_main_v29, rd_main_arg2]
  refine (wr_main_v30 _ _ _ _).trans ?_
  exact rfl
/-- Its mean per movie: the aggregated user table of layer 2. -/
theorem W9_v42 (c : Dev nD) : W9 m ρ c (Proc.devRef .tc main_v42) =
    meanAgg scatter_S20000x128_S2000000x1_S2000000x128_1_0_0_1 scatter_S20000_S2000000x1_S2000000_n_0_0_1
      bcast_S_S20000x128 bcast_S2000000_S2000000x1_0 bcast_S_S2000000 bcast_S_S20000 bcast_S20000_S20000x1_0 bcast_S20000x1_S20000x128_0_1
      (W8 m ρ c (Proc.devRef .tc main_v30)) (W8 m ρ c (Proc.devRef .tc main_arg3)) := by
  show StableHlo.after hostOps2_1 (W8 m ρ c) (Proc.devRef .tc main_v42) = _
  after_results_simp
  exact rfl
/-- The layer-1 movie table gathered at the message edges' movie endpoints. -/
theorem W10_v43 (c : Dev nD) : W10 m ρ c (Proc.devRef .tc main_v43) =
    takeFill gather_S20000x128_S2000000x1_S2000000x128_1_0_n_n_0_1_1128 bcast_S_S2000000 bcast_S2000000_S2000000x1_0
      bcast_S_S2000000x1 bcast_S1_S1x1_1 bcast_S1x1_S2000000x1_0_1 reducesTo_S2000000x1_S2000000_d1 h_S_
      bcast_S2000000_S2000000x128_0 bcast_S_S2000000x128 20000#32 19999#32 0x7FC00000#32
      (W9 m ρ c (Proc.devRef .tc main_v27)) (W9 m ρ c (Proc.devRef .tc main_arg3)) := by
  show StableHlo.after hostOps2_2 (W9 m ρ c) (Proc.devRef .tc main_v43) = _
  after_results_simp
  simp only [Cert.LibTypedRef.ofBuf_toBuf, rd_main_v27, rd_main_arg3]
  refine (wr_main_v43 _ _ _ _).trans ?_
  exact rfl
/-- Its mean per user: the aggregated movie table of layer 2. -/
theorem W11_v55 (c : Dev nD) : W11 m ρ c (Proc.devRef .tc main_v55) =
    meanAgg scatter_S100000x128_S2000000x1_S2000000x128_1_0_0_1 scatter_S100000_S2000000x1_S2000000_n_0_0_1
      bcast_S_S100000x128 bcast_S2000000_S2000000x1_0 bcast_S_S2000000 bcast_S_S100000 bcast_S100000_S100000x1_0 bcast_S100000x1_S100000x128_0_1
      (W10 m ρ c (Proc.devRef .tc main_v43)) (W10 m ρ c (Proc.devRef .tc main_arg2)) := by
  show StableHlo.after hostOps2_3 (W10 m ρ c) (Proc.devRef .tc main_v55) = _
  after_results_simp
  exact rfl
/-- The movie side's layer-2 bias as a row. -/
theorem W11_v56 (c : Dev nD) : W11 m ρ c (Proc.devRef .tc main_v56) = shapeCast S1x128 (W10 m ρ c (Proc.devRef .tc main_arg13)) shapeCasts_S128_S1x128 := by
  show StableHlo.after hostOps2_3 (W10 m ρ c) (Proc.devRef .tc main_v56) = _
  after_results_simp
  exact rfl
/-- The user side's layer-2 bias as a row. -/
theorem W13_v58 (c : Dev nD) : W13 m ρ c (Proc.devRef .tc main_v58) = shapeCast S1x128 (W12 m ρ c (Proc.devRef .tc main_arg16)) shapeCasts_S128_S1x128 := by
  show StableHlo.after hostOps3 (W12 m ρ c) (Proc.devRef .tc main_v58) = _
  after_results_simp
  exact rfl

end Cert.KernelIdeal.Fold1

end
-- ==== Proof.Fold2.lean ====
/-
  The host side of the kernel's program from the fourth pallas_call's exit to the return, read as values: the layer-2
  tables gathered at the label edges' endpoints and joined side by side, the head's bias vectors laid out as rows,
  and the head's output column read as a vector — each stated over the contents at the boundary before it.
-/
import proofs.«401341_j58531814310253_1_alg».proof.Proof.Gen.KernelIdeal.Frame
import proofs.«401341_j58531814310253_1_alg».proof.Proof.HostTerms
import proofs.«401341_j58531814310253_1_alg».proof.Proof.LibTypedRef
import proofs.«401341_j58531814310253_1_alg».proof.Proof.LibKeep
import Idealize.ShloMosaic.Lib.StableHlo.Run

noncomputable section

namespace Cert.KernelIdeal.Fold2

open Idealize.ShloMosaic Idealize.ShloMosaic.TcCoe Idealize.SL.Sem Idealize.ShloMosaic.StableHlo
open Cert.KernelIdeal Cert.KernelIdeal.Gen Cert.HostTerms

variable {F : FTy → Type} [FloatOps F]
variable (m : (ℓ : Loc nD τ sig) → Buf (Elt F) ℓ) (ρ : Dev nD → PrngReg)

/-- A buffer no operation of the stretch writes has, after the stretch, what it had before. -/
macro "keep " ops:ident : tactic => `(tactic| (show StableHlo.after $ops _ _ = _; kept_host $ops))

/-! ## Contents moved to a typed reference's own type and back -/
theorem rd_main_v59 (w : BufTy.Contents (Elt F) (Proc.devRef (τ := τ) .tc main_v59).ty) (h1 : main_v59.ty = (⟨S100000x128, .f32⟩ : BufTy)) (h2 : main_v59.space ≠ .host) (h3 : main_v59.isScoped = false) :
    (TRef.of main_v59 h1 h2 h3).ofBuf w = w := rfl
theorem rd_main_v57 (w : BufTy.Contents (Elt F) (Proc.devRef (τ := τ) .tc main_v57).ty) (h1 : main_v57.ty = (⟨S20000x128, .f32⟩ : BufTy)) (h2 : main_v57.space ≠ .host) (h3 : main_v57.isScoped = false) :
    (TRef.of main_v57 h1 h2 h3).ofBuf w = w := rfl
theorem rd_main_arg4 (w : BufTy.Contents (Elt F) (Proc.devRef (τ := τ) .tc main_arg4).ty) (h1 : main_arg4.ty = (⟨S1000000, .i32⟩ : BufTy)) (h2 : main_arg4.space ≠ .host) (h3 : main_arg4.isScoped = false) :
    (TRef.of main_arg4 h1 h2 h3).ofBuf w = w := rfl
theorem rd_main_arg5 (w : BufTy.Contents (Elt F) (Proc.devRef (τ := τ) .tc main_arg5).ty) (h1 : main_arg5.ty = (⟨S1000000, .i32⟩ : BufTy)) (h2 : main_arg5.space ≠ .host) (h3 : main_arg5.isScoped = false) :
    (TRef.of main_arg5 h1 h2 h3).ofBuf w = w := rfl
theorem wr_main_v60 (v : (⟨S1000000x128, .f32⟩ : BufTy).Contents (Elt F)) (h1 : main_v60.ty = (⟨S1000000x128, .f32⟩ : BufTy)) (h2 : main_v60.space ≠ .host) (h3 : main_v60.isScoped = false) :
    (TRef.of main_v60 h1 h2 h3).toBuf v = v := rfl
theorem wr_main_v61 (v : (⟨S1000000x128, .f32⟩ : BufTy).Contents (Elt F)) (h1 : main_v61.ty = (⟨S1000000x128, .f32⟩ : BufTy)) (h2 : main_v61.space ≠ .host) (h3 : main_v61.isScoped = false) :
    (TRef.of main_v61 h1 h2 h3).toBuf v = v := rfl

/-- The layer-2 user table gathered at the label edges' user endpoints. -/
theorem W15_v60 (c : Dev nD) : W15 m ρ c (Proc.devRef .tc main_v60) =
    takeFill gather_S100000x128_S1000000x1_S1000000x128_1_0_n_n_0_1_1128 bcast_S_S1000000 bcast_S1000000_S1000000x1_0
      bcast_S_S1000000x1 bcast_S1_S1x1_1 bcast_S1x1_S1000000x1_0_1 reducesTo_S1000000x1_S1000000_d1 h_S_
      bcast_S1000000_S1000000x128_0 bcast_S_S1000000x128 100000#32 99999#32 0x7FC00000#32
      (W14 m ρ c (Proc.devRef .tc main_v59)) (W14 m ρ c (Proc.devRef .tc main_arg4)) := by
  show StableHlo.after hostOps4 (W14 m ρ c) (Proc.devRef .tc main_v60) = _
  after_results_simp
  simp only [Cert.LibTypedRef.ofBuf_toBuf, rd_main_v59, rd_main_arg4]
  refine (wr_main_v60 _ _ _ _).trans ?_
  exact rfl
/-- The layer-2 movie table gathered at the label edges' movie endpoints. -/
theorem W16_v61 (c : Dev nD) : W16 m ρ c (Proc.devRef .tc main_v61) =
    takeFill gather_S20000x128_S1000000x1_S1000000x128_1_0_n_n_0_1_1128 bcast_S_S1000000 bcast_S1000000_S1000000x1_0
      bcast_S_S1000000x1 bcast_S1_S1x1_1 bcast_S1x1_S1000000x1_0_1 reducesTo_S1000000x1_S1000000_d1 h_S_
      bcast_S1000000_S1000000x128_0 bcast_S_S1000000x128 20000#32 19999#32 0x7FC00000#32
      (W15 m ρ c (Proc.devRef .tc main_v57)) (W15 m ρ c (Proc.devRef .tc main_arg5)) := by
  show StableHlo.after hostOps4_1 (W15 m ρ c) (Proc.devRef .tc main_v61) = _
  after_results_simp
  simp only [Cert.LibTypedRef.ofBuf_toBuf, rd_main_v57, rd_main_arg5]
  refine (wr_main_v61 _ _ _ _).trans ?_
  exact rfl
/-- The two gathered tables side by side: the label edges' feature rows. -/
theorem W17_v62 (c : Dev nD) : W17 m ρ c (Proc.devRef .tc main_v62) =
    concatenate S1000000x256 1 [⟨S1000000x128, (W16 m ρ c (Proc.devRef .tc main_v60))⟩, ⟨S1000000x128, (W16 m ρ c (Proc.devRef .tc main_v61))⟩] concatenates_S1000000x128_S1000000x128_S1000000x256_d1 := by
  show StableHlo.after hostOps4_2 (W16 m ρ c) (Proc.devRef .tc main_v62) = _
  after_results_simp
/-- The head's first bias as a row. -/
theorem W17_v63 (c : Dev nD) : W17 m ρ c (Proc.devRef .tc main_v63) = shapeCast S1x64 (W16 m ρ c (Proc.devRef .tc main_arg19)) shapeCasts_S64_S1x64 := by
  show StableHlo.after hostOps4_2 (W16 m ρ c) (Proc.devRef .tc main_v63) = _
  after_results_simp
  exact rfl
/-- The head's second bias as a row. -/
theorem W17_v64 (c : Dev nD) : W17 m ρ c (Proc.devRef .tc main_v64) = shapeCast S1x16 (W16 m ρ c (Proc.devRef .tc main_arg21)) shapeCasts_S16_S1x16 := by
  show StableHlo.after hostOps4_2 (W16 m ρ c) (Proc.devRef .tc main_v64) = _
  after_results_simp
  exact rfl
/-- The head's third bias as a row. -/
theorem W17_v65 (c : Dev nD) : W17 m ρ c (Proc.devRef .tc main_v65) = shapeCast S1x1 (W16 m ρ c (Proc.devRef .tc main_arg23)) shapeCasts_S1_S1x1 := by
  show StableHlo.after hostOps4_2 (W16 m ρ c) (Proc.devRef .tc main_v65) = _
  after_results_simp
  exact rfl
/-- The head's output column read as a vector: the program's result. -/
theorem W19_v67 (c : Dev nD) : W19 m ρ c (Proc.devRef .tc main_v67) = shapeCast S1000000 (W18 m ρ c (Proc.devRef .tc main_v66)) shapeCasts_S1000000x1_S1000000 := by
  show StableHlo.after hostOps5 (W18 m ρ c) (Proc.devRef .tc main_v67) = _
  after_results_simp
  exact rfl

end Cert.KernelIdeal.Fold2

end
-- ==== Proof.Keep.lean ====
/-
  Buffers that pass through stretches of the program untouched. The program's host side is fourteen stretches of host
  operations and five regions; between two boundaries a buffer that no operation of the stretch writes, or that is
  not one of the region's arrays, holds what it held. An argument of the program is written by nothing, so at every
  boundary it holds its launch contents.
-/
import proofs.«401341_j58531814310253_1_alg».proof.Proof.Gen.KernelIdeal.Frame
import Idealize.ShloMosaic.Lib.StableHlo.Run

noncomputable section

namespace Cert.KernelIdeal.Keep

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- No operation of the stretch writes the buffer. -/
abbrev NW (ops : List (HloOp τ sig (Elt F))) (b : Ref sig .tc) : Prop :=
  ∀ op ∈ ops, (Proc.devRef .tc b : DevRef τ sig) ∉ op.writes

/-- Decides `NW ops b` for a literal stretch and a literal buffer: each operation writes one literal reference, and it
    differs from the buffer. -/
macro "nw" : tactic => `(tactic|
  exact List.forall_iff_forall_mem.mp (by
    simp only [hostOps0, hostOps0_1, hostOps0_2, hostOps0_3, hostOps1, hostOps2, hostOps2_1, hostOps2_2, hostOps2_3,
      hostOps3, hostOps4, hostOps4_1, hostOps4_2, hostOps5, List.Forall, StableHlo.nullary_writes,
      StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-! ## One boundary back -/

variable (c : Dev nD)

theorem hop1 (b : Ref sig .tc) (h : NW (F := F) hostOps0 b) : W1 m ρ c (Proc.devRef .tc b) = W0 m ρ c (Proc.devRef .tc b) :=
  StableHlo.after_of_forall_not_mem _ _ h
theorem hop2 (b : Ref sig .tc) (h : NW (F := F) hostOps0_1 b) : W2 m ρ c (Proc.devRef .tc b) = W1 m ρ c (Proc.devRef .tc b) :=
  StableHlo.after_of_forall_not_mem _ _ h
theorem hop3 (b : Ref sig .tc) (h : NW (F := F) hostOps0_2 b) : W3 m ρ c (Proc.devRef .tc b) = W2 m ρ c (Proc.devRef .tc b) :=
  StableHlo.after_of_forall_not_mem _ _ h
theorem hop4 (b : Ref sig .tc) (h : NW (F := F) hostOps0_3 b) : W4 m ρ c (Proc.devRef .tc b) = W3 m ρ c (Proc.devRef .tc b) :=
  StableHlo.after_of_forall_not_mem _ _ h
theorem hop5 (b : Ref sig .tc) (h : ∀ w, Pipeline.arrRef spec0 w ≠ b) : W5 m ρ c (Proc.devRef .tc b) = W4 m ρ c (Proc.devRef .tc b) :=
  W5_of_ne m ρ c b h
theorem hop6 (b : Ref sig .tc) (h : NW (F := F) hostOps1 b) : W6 m ρ c (Proc.devRef .tc b) = W5 m ρ c (Proc.devRef .tc b) :=
  StableHlo.after_of_forall_not_mem _ _ h
theorem hop7 (b : Ref sig .tc) (h : ∀ w, Pipeline.arrRef spec1 w ≠ b) : W7 m ρ c (Proc.devRef .tc b) = W6 m ρ c (Proc.devRef .tc b) :=
  W7_of_ne m ρ c b h
theorem hop8 (b : Ref sig .tc) (h : NW (F := F) hostOps2 b) : W8 m ρ c (Proc.devRef .tc b) = W7 m ρ c (Proc.devRef .tc b) :=
  StableHlo.after_of_forall_not_mem _ _ h
theorem hop9 (b : Ref sig .tc) (h : NW (F := F) hostOps2_1 b) : W9 m ρ c (Proc.devRef .tc b) = W8 m ρ c (Proc.devRef .tc b) :=
  StableHlo.after_of_forall_not_mem _ _ h
theorem hop10 (b : Ref sig .tc) (h : NW (F := F) hostOps2_2 b) : W10 m ρ c (Proc.devRef .tc b) = W9 m ρ c (Proc.devRef .tc b) :=
  StableHlo.after_of_forall_not_mem _ _ h
theorem hop11 (b : Ref sig .tc) (h : NW (F := F) hostOps2_3 b) : W11 m ρ c (Proc.devRef .tc b) = W10 m ρ c (Proc.devRef .tc b) :=
  StableHlo.after_of_forall_not_mem _ _ h
theorem hop12 (b : Ref sig .tc) (h : ∀ w, Pipeline.arrRef spec2 w ≠ b) : W12 m ρ c (Proc.devRef .tc b) = W11 m ρ c (Proc.devRef .tc b) :=
  W12_of_ne m ρ c b h
theorem hop13 (b : Ref sig .tc) (h : NW (F := F) hostOps3 b) : W13 m ρ c (Proc.devRef .tc b) = W12 m ρ c (Proc.devRef .tc b) :=
  StableHlo.after_of_forall_not_mem _ _ h
theorem hop14 (b : Ref sig .tc) (h : ∀ w, Pipeline.arrRef spec3 w ≠ b) : W14 m ρ c (Proc.devRef .tc b) = W13 m ρ c (Proc.devRef .tc b) :=
  W14_of_ne m ρ c b h
theorem hop15 (b : Ref sig .tc) (h : NW (F := F) hostOps4 b) : W15 m ρ c (Proc.devRef .tc b) = W14 m ρ c (Proc.devRef .tc b) :=
  StableHlo.after_of_forall_not_mem _ _ h
theorem hop16 (b : Ref sig .tc) (h : NW (F := F) hostOps4_1 b) : W16 m ρ c (Proc.devRef .tc b) = W15 m ρ c (Proc.devRef .tc b) :=
  StableHlo.after_of_forall_not_mem _ _ h
theorem hop17 (b : Ref sig .tc) (h : NW (F := F) hostOps4_2 b) : W17 m ρ c (Proc.devRef .tc b) = W16 m ρ c (Proc.devRef .tc b) :=
  StableHlo.after_of_forall_not_mem _ _ h
theorem hop18 (b : Ref sig .tc) (h : ∀ w, Pipeline.arrRef spec4 w ≠ b) : W18 m ρ c (Proc.devRef .tc b) = W17 m ρ c (Proc.devRef .tc b) :=
  W18_of_ne m ρ c b h
theorem hop19 (b : Ref sig .tc) (h : NW (F := F) hostOps5 b) : W19 m ρ c (Proc.devRef .tc b) = W18 m ρ c (Proc.devRef .tc b) :=
  StableHlo.after_of_forall_not_mem _ _ h

/-! ## Written by nothing -/

/-- A region leaves one of its INPUT windows' arrays as it found it. -/
theorem in5 (w : Fin cfg0.W) (hw : (cfg0.win w).isOut = false) : W5 m ρ c (Proc.devRef .tc (Pipeline.arrRef spec0 w)) = W4 m ρ c (Proc.devRef .tc (Pipeline.arrRef spec0 w)) :=
  (W5_arr m ρ c w).trans (((dat0 (V4 m ρ) c).arrAt_in w hw _).trans (A_eq0 (V4 m ρ) c w))
theorem in7 (w : Fin cfg1.W) (hw : (cfg1.win w).isOut = false) : W7 m ρ c (Proc.devRef .tc (Pipeline.arrRef spec1 w)) = W6 m ρ c (Proc.devRef .tc (Pipeline.arrRef spec1 w)) :=
  (W7_arr m ρ c w).trans (((dat1 (V6 m ρ) c).arrAt_in w hw _).trans (A_eq1 (V6 m ρ) c w))
theorem in12 (w : Fin cfg2.W) (hw : (cfg2.win w).isOut = false) : W12 m ρ c (Proc.devRef .tc (Pipeline.arrRef spec2 w)) = W11 m ρ c (Proc.devRef .tc (Pipeline.arrRef spec2 w)) :=
  (W12_arr m ρ c w).trans (((dat2 (V11 m ρ) c).arrAt_in w hw _).trans (A_eq2 (V11 m ρ) c w))
theorem in14 (w : Fin cfg3.W) (hw : (cfg3.win w).isOut = false) : W14 m ρ c (Proc.devRef .tc (Pipeline.arrRef spec3 w)) = W13 m ρ c (Proc.devRef .tc (Pipeline.arrRef spec3 w)) :=
  (W14_arr m ρ c w).trans (((dat3 (V13 m ρ) c).arrAt_in w hw _).trans (A_eq3 (V13 m ρ) c w))
theorem in18 (w : Fin cfg4.W) (hw : (cfg4.win w).isOut = false) : W18 m ρ c (Proc.devRef .tc (Pipeline.arrRef spec4 w)) = W17 m ρ c (Proc.devRef .tc (Pipeline.arrRef spec4 w)) :=
  (W18_arr m ρ c w).trans (((dat4 (V17 m ρ) c).arrAt_in w hw _).trans (A_eq4 (V17 m ρ) c w))

/-- No host stretch writes the buffer, and every region leaves it as it found it (it is not one of the region's
    arrays, or it is the array of one of its input windows). -/
structure Untouched (b : Ref sig .tc) : Prop where
  s1 : NW (F := F) hostOps0 b
  s2 : NW (F := F) hostOps0_1 b
  s3 : NW (F := F) hostOps0_2 b
  s4 : NW (F := F) hostOps0_3 b
  s5 : ∀ (m : (ℓ : Loc nD τ sig) → Buf (Elt F) ℓ) (ρ : Dev nD → PrngReg) (c : Dev nD), W5 m ρ c (Proc.devRef .tc b) = W4 m ρ c (Proc.devRef .tc b)
  s6 : NW (F := F) hostOps1 b
  s7 : ∀ (m : (ℓ : Loc nD τ sig) → Buf (Elt F) ℓ) (ρ : Dev nD → PrngReg) (c : Dev nD), W7 m ρ c (Proc.devRef .tc b) = W6 m ρ c (Proc.devRef .tc b)
  s8 : NW (F := F) hostOps2 b
  s9 : NW (F := F) hostOps2_1 b
  s10 : NW (F := F) hostOps2_2 b
  s11 : NW (F := F) hostOps2_3 b
  s12 : ∀ (m : (ℓ : Loc nD τ sig) → Buf (Elt F) ℓ) (ρ : Dev nD → PrngReg) (c : Dev nD), W12 m ρ c (Proc.devRef .tc b) = W11 m ρ c (Proc.devRef .tc b)
  s13 : NW (F := F) hostOps3 b
  s14 : ∀ (m : (ℓ : Loc nD τ sig) → Buf (Elt F) ℓ) (ρ : Dev nD → PrngReg) (c : Dev nD), W14 m ρ c (Proc.devRef .tc b) = W13 m ρ c (Proc.devRef .tc b)
  s15 : NW (F := F) hostOps4 b
  s16 : NW (F := F) hostOps4_1 b
  s17 : NW (F := F) hostOps4_2 b
  s18 : ∀ (m : (ℓ : Loc nD τ sig) → Buf (Elt F) ℓ) (ρ : Dev nD → PrngReg) (c : Dev nD), W18 m ρ c (Proc.devRef .tc b) = W17 m ρ c (Proc.devRef .tc b)
  s19 : NW (F := F) hostOps5 b

/-- At every boundary an untouched buffer holds its launch contents. -/
theorem at0 (b : Ref sig .tc) : W0 m ρ c (Proc.devRef .tc b) = m ((c : Thread nD τ).loc b) := rfl
theorem at1 {b : Ref sig .tc} (u : Untouched (F := F) b) : W1 m ρ c (Proc.devRef .tc b) = m ((c : Thread nD τ).loc b) := (hop1 m ρ c b u.s1).trans (at0 m ρ c b)
theorem at2 {b : Ref sig .tc} (u : Untouched (F := F) b) : W2 m ρ c (Proc.devRef .tc b) = m ((c : Thread nD τ).loc b) := (hop2 m ρ c b u.s2).trans (at1 m ρ c u)
theorem at3 {b : Ref sig .tc} (u : Untouched (F := F) b) : W3 m ρ c (Proc.devRef .tc b) = m ((c : Thread nD τ).loc b) := (hop3 m ρ c b u.s3).trans (at2 m ρ c u)
theorem at4 {b : Ref sig .tc} (u : Untouched (F := F) b) : W4 m ρ c (Proc.devRef .tc b) = m ((c : Thread nD τ).loc b) := (hop4 m ρ c b u.s4).trans (at3 m ρ c u)
theorem at5 {b : Ref sig .tc} (u : Untouched (F := F) b) : W5 m ρ c (Proc.devRef .tc b) = m ((c : Thread nD τ).loc b) := (u.s5 m ρ c).trans (at4 m ρ c u)
theorem at6 {b : Ref sig .tc} (u : Untouched (F := F) b) : W6 m ρ c (Proc.devRef .tc b) = m ((c : Thread nD τ).loc b) := (hop6 m ρ c b u.s6).trans (at5 m ρ c u)
theorem at7 {b : Ref sig .tc} (u : Untouched (F := F) b) : W7 m ρ c (Proc.devRef .tc b) = m ((c : Thread nD τ).loc b) := (u.s7 m ρ c).trans (at6 m ρ c u)
theorem at8 {b : Ref sig .tc} (u : Untouched (F := F) b) : W8 m ρ c (Proc.devRef .tc b) = m ((c : Thread nD τ).loc b) := (hop8 m ρ c b u.s8).trans (at7 m ρ c u)
theorem at9 {b : Ref sig .tc} (u : Untouched (F := F) b) : W9 m ρ c (Proc.devRef .tc b) = m ((c : Thread nD τ).loc b) := (hop9 m ρ c b u.s9).trans (at8 m ρ c u)
theorem at10 {b : Ref sig .tc} (u : Untouched (F := F) b) : W10 m ρ c (Proc.devRef .tc b) = m ((c : Thread nD τ).loc b) := (hop10 m ρ c b u.s10).trans (at9 m ρ c u)
theorem at11 {b : Ref sig .tc} (u : Untouched (F := F) b) : W11 m ρ c (Proc.devRef .tc b) = m ((c : Thread nD τ).loc b) := (hop11 m ρ c b u.s11).trans (at10 m ρ c u)
theorem at12 {b : Ref sig .tc} (u : Untouched (F := F) b) : W12 m ρ c (Proc.devRef .tc b) = m ((c : Thread nD τ).loc b) := (u.s12 m ρ c).trans (at11 m ρ c u)
theorem at13 {b : Ref sig .tc} (u : Untouched (F := F) b) : W13 m ρ c (Proc.devRef .tc b) = m ((c : Thread nD τ).loc b) := (hop13 m ρ c b u.s13).trans (at12 m ρ c u)
theorem at14 {b : Ref sig .tc} (u : Untouched (F := F) b) : W14 m ρ c (Proc.devRef .tc b) = m ((c : Thread nD τ).loc b) := (u.s14 m ρ c).trans (at13 m ρ c u)
theorem at15 {b : Ref sig .tc} (u : Untouched (F := F) b) : W15 m ρ c (Proc.devRef .tc b) = m ((c : Thread nD τ).loc b) := (hop15 m ρ c b u.s15).trans (at14 m ρ c u)
theorem at16 {b : Ref sig .tc} (u : Untouched (F := F) b) : W16 m ρ c (Proc.devRef .tc b) = m ((c : Thread nD τ).loc b) := (hop16 m ρ c b u.s16).trans (at15 m ρ c u)
theorem at17 {b : Ref sig .tc} (u : Untouched (F := F) b) : W17 m ρ c (Proc.devRef .tc b) = m ((c : Thread nD τ).loc b) := (hop17 m ρ c b u.s17).trans (at16 m ρ c u)
theorem at18 {b : Ref sig .tc} (u : Untouched (F := F) b) : W18 m ρ c (Proc.devRef .tc b) = m ((c : Thread nD τ).loc b) := (u.s18 m ρ c).trans (at17 m ρ c u)
theorem at19 {b : Ref sig .tc} (u : Untouched (F := F) b) : W19 m ρ c (Proc.devRef .tc b) = m ((c : Thread nD τ).loc b) := (hop19 m ρ c b u.s19).trans (at18 m ρ c u)

end Cert.KernelIdeal.Keep

end
-- ==== Proof.KeepArgs.lean ====
/-
  Every argument of the program is written by nothing: no host operation's result is an argument, and a region that
  reads an argument through an input window leaves it as it found it.
-/
import proofs.«401341_j58531814310253_1_alg».proof.Proof.Keep

noncomputable section

namespace Cert.KernelIdeal.Keep

open Idealize.ShloMosaic Idealize.ShloMosaic.TcCoe Idealize.SL.Sem Idealize.ShloMosaic.StableHlo
open Cert.KernelIdeal Cert.KernelIdeal.Gen

variable {F : FTy → Type} [FloatOps F]

theorem arg0 : Untouched (F := F) main_arg0 :=
  ⟨by nw, by nw, by nw, by nw, fun m ρ c => hop5 m ρ c _ (by decide), by nw, fun m ρ c => in7 m ρ c 1 rfl, by nw, by nw, by nw, by nw, fun m ρ c => hop12 m ρ c _ (by decide), by nw, fun m ρ c => hop14 m ρ c _ (by decide), by nw, by nw, by nw, fun m ρ c => hop18 m ρ c _ (by decide), by nw⟩
theorem arg1 : Untouched (F := F) main_arg1 :=
  ⟨by nw, by nw, by nw, by nw, fun m ρ c => in5 m ρ c 1 rfl, by nw, fun m ρ c => hop7 m ρ c _ (by decide), by nw, by nw, by nw, by nw, fun m ρ c => hop12 m ρ c _ (by decide), by nw, fun m ρ c => hop14 m ρ c _ (by decide), by nw, by nw, by nw, fun m ρ c => hop18 m ρ c _ (by decide), by nw⟩
theorem arg2 : Untouched (F := F) main_arg2 :=
  ⟨by nw, by nw, by nw, by nw, fun m ρ c => hop5 m ρ c _ (by decide), by nw, fun m ρ c => hop7 m ρ c _ (by decide), by nw, by nw, by nw, by nw, fun m ρ c => hop12 m ρ c _ (by decide), by nw, fun m ρ c => hop14 m ρ c _ (by decide), by nw, by nw, by nw, fun m ρ c => hop18 m ρ c _ (by decide), by nw⟩
theorem arg3 : Untouched (F := F) main_arg3 :=
  ⟨by nw, by nw, by nw, by nw, fun m ρ c => hop5 m ρ c _ (by decide), by nw, fun m ρ c => hop7 m ρ c _ (by decide), by nw, by nw, by nw, by nw, fun m ρ c => hop12 m ρ c _ (by decide), by nw, fun m ρ c => hop14 m ρ c _ (by decide), by nw, by nw, by nw, fun m ρ c => hop18 m ρ c _ (by decide), by nw⟩
theorem arg4 : Untouched (F := F) main_arg4 :=
  ⟨by nw, by nw, by nw, by nw, fun m ρ c => hop5 m ρ c _ (by decide), by nw, fun m ρ c => hop7 m ρ c _ (by decide), by nw, by nw, by nw, by nw, fun m ρ c => hop12 m ρ c _ (by decide), by nw, fun m ρ c => hop14 m ρ c _ (by decide), by nw, by nw, by nw, fun m ρ c => hop18 m ρ c _ (by decide), by nw⟩
theorem arg5 : Untouched (F := F) main_arg5 :=
  ⟨by nw, by nw, by nw, by nw, fun m ρ c => hop5 m ρ c _ (by decide), by nw, fun m ρ c => hop7 m ρ c _ (by decide), by nw, by nw, by nw, by nw, fun m ρ c => hop12 m ρ c _ (by decide), by nw, fun m ρ c => hop14 m ρ c _ (by decide), by nw, by nw, by nw, fun m ρ c => hop18 m ρ c _ (by decide), by nw⟩
theorem arg6 : Untouched (F := F) main_arg6 :=
  ⟨by nw, by nw, by nw, by nw, fun m ρ c => in5 m ρ c 2 rfl, by nw, fun m ρ c => hop7 m ρ c _ (by decide), by nw, by nw, by nw, by nw, fun m ρ c => hop12 m ρ c _ (by decide), by nw, fun m ρ c => hop14 m ρ c _ (by decide), by nw, by nw, by nw, fun m ρ c => hop18 m ρ c _ (by decide), by nw⟩
theorem arg7 : Untouched (F := F) main_arg7 :=
  ⟨by nw, by nw, by nw, by nw, fun m ρ c => hop5 m ρ c _ (by decide), by nw, fun m ρ c => hop7 m ρ c _ (by decide), by nw, by nw, by nw, by nw, fun m ρ c => hop12 m ρ c _ (by decide), by nw, fun m ρ c => hop14 m ρ c _ (by decide), by nw, by nw, by nw, fun m ρ c => hop18 m ρ c _ (by decide), by nw⟩
theorem arg8 : Untouched (F := F) main_arg8 :=
  ⟨by nw, by nw, by nw, by nw, fun m ρ c => in5 m ρ c 4 rfl, by nw, fun m ρ c => hop7 m ρ c _ (by decide), by nw, by nw, by nw, by nw, fun m ρ c => hop12 m ρ c _ (by decide), by nw, fun m ρ c => hop14 m ρ c _ (by decide), by nw, by nw, by nw, fun m ρ c => hop18 m ρ c _ (by decide), by nw⟩
theorem arg9 : Untouched (F := F) main_arg9 :=
  ⟨by nw, by nw, by nw, by nw, fun m ρ c => hop5 m ρ c _ (by decide), by nw, fun m ρ c => in7 m ρ c 2 rfl, by nw, by nw, by nw, by nw, fun m ρ c => hop12 m ρ c _ (by decide), by nw, fun m ρ c => hop14 m ρ c _ (by decide), by nw, by nw, by nw, fun m ρ c => hop18 m ρ c _ (by decide), by nw⟩
theorem arg10 : Untouched (F := F) main_arg10 :=
  ⟨by nw, by nw, by nw, by nw, fun m ρ c => hop5 m ρ c _ (by decide), by nw, fun m ρ c => hop7 m ρ c _ (by decide), by nw, by nw, by nw, by nw, fun m ρ c => hop12 m ρ c _ (by decide), by nw, fun m ρ c => hop14 m ρ c _ (by decide), by nw, by nw, by nw, fun m ρ c => hop18 m ρ c _ (by decide), by nw⟩
theorem arg11 : Untouched (F := F) main_arg11 :=
  ⟨by nw, by nw, by nw, by nw, fun m ρ c => hop5 m ρ c _ (by decide), by nw, fun m ρ c => in7 m ρ c 4 rfl, by nw, by nw, by nw, by nw, fun m ρ c => hop12 m ρ c _ (by decide), by nw, fun m ρ c => hop14 m ρ c _ (by decide), by nw, by nw, by nw, fun m ρ c => hop18 m ρ c _ (by decide), by nw⟩
theorem arg12 : Untouched (F := F) main_arg12 :=
  ⟨by nw, by nw, by nw, by nw, fun m ρ c => hop5 m ρ c _ (by decide), by nw, fun m ρ c => hop7 m ρ c _ (by decide), by nw, by nw, by nw, by nw, fun m ρ c => in12 m ρ c 2 rfl, by nw, fun m ρ c => hop14 m ρ c _ (by decide), by nw, by nw, by nw, fun m ρ c => hop18 m ρ c _ (by decide), by nw⟩
theorem arg13 : Untouched (F := F) main_arg13 :=
  ⟨by nw, by nw, by nw, by nw, fun m ρ c => hop5 m ρ c _ (by decide), by nw, fun m ρ c => hop7 m ρ c _ (by decide), by nw, by nw, by nw, by nw, fun m ρ c => hop12 m ρ c _ (by decide), by nw, fun m ρ c => hop14 m ρ c _ (by decide), by nw, by nw, by nw, fun m ρ c => hop18 m ρ c _ (by decide), by nw⟩
theorem arg14 : Untouched (F := F) main_arg14 :=
  ⟨by nw, by nw, by nw, by nw, fun m ρ c => hop5 m ρ c _ (by decide), by nw, fun m ρ c => hop7 m ρ c _ (by decide), by nw, by nw, by nw, by nw, fun m ρ c => in12 m ρ c 4 rfl, by nw, fun m ρ c => hop14 m ρ c _ (by decide), by nw, by nw, by nw, fun m ρ c => hop18 m ρ c _ (by decide), by nw⟩
theorem arg15 : Untouched (F := F) main_arg15 :=
  ⟨by nw, by nw, by nw, by nw, fun m ρ c => hop5 m ρ c _ (by decide), by nw, fun m ρ c => hop7 m ρ c _ (by decide), by nw, by nw, by nw, by nw, fun m ρ c => hop12 m ρ c _ (by decide), by nw, fun m ρ c => in14 m ρ c 2 rfl, by nw, by nw, by nw, fun m ρ c => hop18 m ρ c _ (by decide), by nw⟩
theorem arg16 : Untouched (F := F) main_arg16 :=
  ⟨by nw, by nw, by nw, by nw, fun m ρ c => hop5 m ρ c _ (by decide), by nw, fun m ρ c => hop7 m ρ c _ (by decide), by nw, by nw, by nw, by nw, fun m ρ c => hop12 m ρ c _ (by decide), by nw, fun m ρ c => hop14 m ρ c _ (by decide), by nw, by nw, by nw, fun m ρ c => hop18 m ρ c _ (by decide), by nw⟩
theorem arg17 : Untouched (F := F) main_arg17 :=
  ⟨by nw, by nw, by nw, by nw, fun m ρ c => hop5 m ρ c _ (by decide), by nw, fun m ρ c => hop7 m ρ c _ (by decide), by nw, by nw, by nw, by nw, fun m ρ c => hop12 m ρ c _ (by decide), by nw, fun m ρ c => in14 m ρ c 4 rfl, by nw, by nw, by nw, fun m ρ c => hop18 m ρ c _ (by decide), by nw⟩
theorem arg18 : Untouched (F := F) main_arg18 :=
  ⟨by nw, by nw, by nw, by nw, fun m ρ c => hop5 m ρ c _ (by decide), by nw, fun m ρ c => hop7 m ρ c _ (by decide), by nw, by nw, by nw, by nw, fun m ρ c => hop12 m ρ c _ (by decide), by nw, fun m ρ c => hop14 m ρ c _ (by decide), by nw, by nw, by nw, fun m ρ c => in18 m ρ c 1 rfl, by nw⟩
theorem arg19 : Untouched (F := F) main_arg19 :=
  ⟨by nw, by nw, by nw, by nw, fun m ρ c => hop5 m ρ c _ (by decide), by nw, fun m ρ c => hop7 m ρ c _ (by decide), by nw, by nw, by nw, by nw, fun m ρ c => hop12 m ρ c _ (by decide), by nw, fun m ρ c => hop14 m ρ c _ (by decide), by nw, by nw, by nw, fun m ρ c => hop18 m ρ c _ (by decide), by nw⟩
theorem arg20 : Untouched (F := F) main_arg20 :=
  ⟨by nw, by nw, by nw, by nw, fun m ρ c => hop5 m ρ c _ (by decide), by nw, fun m ρ c => hop7 m ρ c _ (by decide), by nw, by nw, by nw, by nw, fun m ρ c => hop12 m ρ c _ (by decide), by nw, fun m ρ c => hop14 m ρ c _ (by decide), by nw, by nw, by nw, fun m ρ c => in18 m ρ c 3 rfl, by nw⟩
theorem arg21 : Untouched (F := F) main_arg21 :=
  ⟨by nw, by nw, by nw, by nw, fun m ρ c => hop5 m ρ c _ (by decide), by nw, fun m ρ c => hop7 m ρ c _ (by decide), by nw, by nw, by nw, by nw, fun m ρ c => hop12 m ρ c _ (by decide), by nw, fun m ρ c => hop14 m ρ c _ (by decide), by nw, by nw, by nw, fun m ρ c => hop18 m ρ c _ (by decide), by nw⟩
theorem arg22 : Untouched (F := F) main_arg22 :=
  ⟨by nw, by nw, by nw, by nw, fun m ρ c => hop5 m ρ c _ (by decide), by nw, fun m ρ c => hop7 m ρ c _ (by decide), by nw, by nw, by nw, by nw, fun m ρ c => hop12 m ρ c _ (by decide), by nw, fun m ρ c => hop14 m ρ c _ (by decide), by nw, by nw, by nw, fun m ρ c => in18 m ρ c 5 rfl, by nw⟩
theorem arg23 : Untouched (F := F) main_arg23 :=
  ⟨by nw, by nw, by nw, by nw, fun m ρ c => hop5 m ρ c _ (by decide), by nw, fun m ρ c => hop7 m ρ c _ (by decide), by nw, by nw, by nw, by nw, fun m ρ c => hop12 m ρ c _ (by decide), by nw, fun m ρ c => hop14 m ρ c _ (by decide), by nw, by nw, by nw, fun m ρ c => hop18 m ρ c _ (by decide), by nw⟩

end Cert.KernelIdeal.Keep

end
-- ==== Proof.Spec.lean ====
/-
  The mathematics both programs compute, written once at the extended reals, entry by entry.

  `combine` is one SAGE layer on a destination node set: for node `p` and hidden unit `q`,
  `(Σₖ agg[p,k]·wl[k,q] + b[q]) + Σₖ xd[p,k]·wr[k,q]` — the aggregated neighbour features through the left weights,
  plus the bias, plus the node's own features through the right weights, in that order of addition. It depends on the
  two tables only through their rows at `p`, so it is stated over rows first (`combineRow`): a block of rows of the
  tables gives the same block of rows of the result.

  `head` is the rating head on a label edge: two affine layers each followed by the positive part, a third affine
  layer to one logit, the logistic function of it, times the float word for five; again a function of the edge's own
  feature row (`headRow`).
-/
import Idealize.ShloMosaic.PureOps.Ideal
import Idealize.ShloMosaic.Lib.ValueIdx

noncomputable section

open scoped BigOperators

namespace Cert.Spec

open Idealize.ShloMosaic Idealize.ShloMosaic.ValueIdx

/-- A bias vector laid out as a one-row table. -/
def rowOf {H : Nat} (b : (⟨1, ![H]⟩ : Shape).Idx → EReal) : (⟨2, ![1, H]⟩ : Shape).Idx → EReal :=
  fun i => b (ix1 (i 1 : Fin H))

/-- One affine layer on a feature row `r`, at output unit `q`: the row against column `q` of `w`, plus the bias. -/
def affRow {K H : Nat} (r : Fin K → EReal) (w : (⟨2, ![K, H]⟩ : Shape).Idx → EReal)
    (b : (⟨2, ![1, H]⟩ : Shape).Idx → EReal) (q : Fin H) : EReal :=
  ∑ k : Fin K, r k * w (ix2 k q) + b (ix2 (0 : Fin 1) q)

/-- The SAGE combine of a node's aggregated row `a` and own row `x`, at hidden unit `q`. -/
def combineRow {A B H : Nat} (a : Fin A → EReal) (x : Fin B → EReal)
    (wl : (⟨2, ![A, H]⟩ : Shape).Idx → EReal) (b : (⟨2, ![1, H]⟩ : Shape).Idx → EReal)
    (wr : (⟨2, ![B, H]⟩ : Shape).Idx → EReal) (q : Fin H) : EReal :=
  affRow a wl b q + ∑ k : Fin B, x k * wr (ix2 k q)

/-- Row `p` of a table. -/
abbrev rowAt {N K : Nat} (t : (⟨2, ![N, K]⟩ : Shape).Idx → EReal) (p : Fin N) : Fin K → EReal := fun k => t (ix2 p k)

/-- The SAGE combine as a whole table. -/
def combine {N A B H : Nat} (agg : (⟨2, ![N, A]⟩ : Shape).Idx → EReal) (xd : (⟨2, ![N, B]⟩ : Shape).Idx → EReal)
    (wl : (⟨2, ![A, H]⟩ : Shape).Idx → EReal) (b : (⟨2, ![1, H]⟩ : Shape).Idx → EReal)
    (wr : (⟨2, ![B, H]⟩ : Shape).Idx → EReal) : (⟨2, ![N, H]⟩ : Shape).Idx → EReal :=
  fun i => combineRow (rowAt agg (i 0 : Fin N)) (rowAt xd (i 0 : Fin N)) wl b wr (i 1 : Fin H)

/-- The float word for zero, the positive part's floor. -/
abbrev zeroW : EReal := Ideal.ofBits .f32 0x00000000#32
/-- The float word for five, the rating scale. -/
abbrev fiveW : EReal := Ideal.ofBits .f32 0x40A00000#32

/-- The rating head on one label edge's feature row. -/
def headRow (f : Fin 256 → EReal)
    (w1 : (⟨2, ![256, 64]⟩ : Shape).Idx → EReal) (b1 : (⟨2, ![1, 64]⟩ : Shape).Idx → EReal)
    (w2 : (⟨2, ![64, 16]⟩ : Shape).Idx → EReal) (b2 : (⟨2, ![1, 16]⟩ : Shape).Idx → EReal)
    (w3 : (⟨2, ![16, 1]⟩ : Shape).Idx → EReal) (b3 : (⟨2, ![1, 1]⟩ : Shape).Idx → EReal) : EReal :=
  let h1 : Fin 64 → EReal := fun k => max (affRow f w1 b1 k) zeroW
  let h2 : Fin 16 → EReal := fun k => max (affRow h1 w2 b2 k) zeroW
  Ideal.logistic (affRow h2 w3 b3 (0 : Fin 1)) * fiveW

/-- The rating head as a column, one rating per label edge. -/
def head {N : Nat} (feat : (⟨2, ![N, 256]⟩ : Shape).Idx → EReal)
    (w1 : (⟨2, ![256, 64]⟩ : Shape).Idx → EReal) (b1 : (⟨2, ![1, 64]⟩ : Shape).Idx → EReal)
    (w2 : (⟨2, ![64, 16]⟩ : Shape).Idx → EReal) (b2 : (⟨2, ![1, 16]⟩ : Shape).Idx → EReal)
    (w3 : (⟨2, ![16, 1]⟩ : Shape).Idx → EReal) (b3 : (⟨2, ![1, 1]⟩ : Shape).Idx → EReal) :
    (⟨2, ![N, 1]⟩ : Shape).Idx → EReal :=
  fun i => headRow (rowAt feat (i 0 : Fin N)) w1 b1 w2 b2 w3 b3

end Cert.Spec

end
-- ==== Proof.Pay.lean ====
/-
  The combine kernels' stored value, read at one entry: block row `p`, hidden unit `q` of the stored tile is the SAGE
  combine of the row `p` of the aggregated-features tile and of the own-features tile (the two matrix products into
  zero accumulators are plain sums at the extended reals; the narrowing of the operands before the products is the identity there).
-/
import proofs.«401341_j58531814310253_1_alg».proof.Proof.Gen.KernelIdeal.Skeleton
import proofs.«401341_j58531814310253_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx
open Cert.KernelIdeal Cert.KernelIdeal.Gen Cert.Spec

/-! ### The product of a 4000×24 tile and a 24×128 table: which entries of the operands meet -/

/-- The left operand is read on the output's row … -/
theorem lhs24_0 (i : S4000x128.Idx) (c : dot_S4000x24_S24x128_S4000x128_1_0_0_1_n_n.contr.Idx) :
    (dot_S4000x24_S24x128_S4000x128_1_0_0_1_n_n.lhsIdx i c 0).val = (i 0).val := by
  unfold DotDims.lhsIdx
  rw [dif_neg (show ¬(0 : Fin S4000x24.rank) ∈ dot_S4000x24_S24x128_S4000x128_1_0_0_1_n_n.lhsBatch by decide), dif_pos (show (0 : Fin S4000x24.rank) ∈ dot_S4000x24_S24x128_S4000x128_1_0_0_1_n_n.lhsNonContracting by decide)]
  rfl
/-- … at the summation index as its column; -/
theorem lhs24_1 (i : S4000x128.Idx) (c : dot_S4000x24_S24x128_S4000x128_1_0_0_1_n_n.contr.Idx) :
    (dot_S4000x24_S24x128_S4000x128_1_0_0_1_n_n.lhsIdx i c 1).val = (c ⟨0, by decide⟩).val :=
  dot_S4000x24_S24x128_S4000x128_1_0_0_1_n_n.lhsIdx_val_of_single rfl i c
/-- the right operand at the summation index as its row … -/
theorem rhs24_0 (i : S4000x128.Idx) (c : dot_S4000x24_S24x128_S4000x128_1_0_0_1_n_n.contr.Idx) :
    (dot_S4000x24_S24x128_S4000x128_1_0_0_1_n_n.rhsIdx i c 0).val = (c ⟨0, by decide⟩).val :=
  dot_S4000x24_S24x128_S4000x128_1_0_0_1_n_n.rhsIdx_val_of_single rfl i c
/-- … on the output's column. -/
theorem rhs24_1 (i : S4000x128.Idx) (c : dot_S4000x24_S24x128_S4000x128_1_0_0_1_n_n.contr.Idx) :
    (dot_S4000x24_S24x128_S4000x128_1_0_0_1_n_n.rhsIdx i c 1).val = (i 1).val := by
  unfold DotDims.rhsIdx
  rw [dif_neg (show ¬(1 : Fin S24x128.rank) ∈ dot_S4000x24_S24x128_S4000x128_1_0_0_1_n_n.rhsBatch by decide), dif_pos (show (1 : Fin S24x128.rank) ∈ dot_S4000x24_S24x128_S4000x128_1_0_0_1_n_n.rhsNonContracting by decide)]
  rfl

/-- Into the zero accumulator the product's entry `(p, q)` is `Σₖ l[p,k]·r[k,q]`, whatever float formats the operands carry. -/
theorem mm24_apply {φ₁ φ₂ : FTy} (l : FVec Ideal S4000x24 φ₁) (r : FVec Ideal S24x128 φ₂) (p : Fin 4000) (q : Fin 128) :
    matmul dot_S4000x24_S24x128_S4000x128_1_0_0_1_n_n none l r (constant (F := Ideal) S4000x128 .f32 0x00000000#32) (ix2 p q)
      = ∑ k : Fin 24, l (ix2 p k) * r (ix2 k q) := by
  simp only [matmul]
  rw [Ideal.matmul_constant_zero_apply, ← Equiv.sum_comp (ValueIdx.contrEquiv1 dot_S4000x24_S24x128_S4000x128_1_0_0_1_n_n 24 rfl rfl).symm]
  refine Finset.sum_congr rfl fun k _ => ?_
  have hk := ValueIdx.contrEquiv1_symm_val dot_S4000x24_S24x128_S4000x128_1_0_0_1_n_n 24 rfl rfl k
  have el : dot_S4000x24_S24x128_S4000x128_1_0_0_1_n_n.lhsIdx (ix2 p q) ((ValueIdx.contrEquiv1 dot_S4000x24_S24x128_S4000x128_1_0_0_1_n_n 24 rfl rfl).symm k) = ix2 p k := funext fun a => Fin.ext (by
    match a with
    | ⟨0, _⟩ => exact lhs24_0 _ _
    | ⟨1, _⟩ => exact (lhs24_1 _ _).trans hk)
  have er : dot_S4000x24_S24x128_S4000x128_1_0_0_1_n_n.rhsIdx (ix2 p q) ((ValueIdx.contrEquiv1 dot_S4000x24_S24x128_S4000x128_1_0_0_1_n_n 24 rfl rfl).symm k) = ix2 k q := funext fun a => Fin.ext (by
    match a with
    | ⟨0, _⟩ => exact (rhs24_0 _ _).trans hk
    | ⟨1, _⟩ => exact rhs24_1 _ _)
  rw [el, er]

/-! ### The product of a 4000×18 tile and a 18×128 table: which entries of the operands meet -/

/-- The left operand is read on the output's row … -/
theorem lhs18_0 (i : S4000x128.Idx) (c : dot_S4000x18_S18x128_S4000x128_1_0_0_1_n_n.contr.Idx) :
    (dot_S4000x18_S18x128_S4000x128_1_0_0_1_n_n.lhsIdx i c 0).val = (i 0).val := by
  unfold DotDims.lhsIdx
  rw [dif_neg (show ¬(0 : Fin S4000x18.rank) ∈ dot_S4000x18_S18x128_S4000x128_1_0_0_1_n_n.lhsBatch by decide), dif_pos (show (0 : Fin S4000x18.rank) ∈ dot_S4000x18_S18x128_S4000x128_1_0_0_1_n_n.lhsNonContracting by decide)]
  rfl
/-- … at the summation index as its column; -/
theorem lhs18_1 (i : S4000x128.Idx) (c : dot_S4000x18_S18x128_S4000x128_1_0_0_1_n_n.contr.Idx) :
    (dot_S4000x18_S18x128_S4000x128_1_0_0_1_n_n.lhsIdx i c 1).val = (c ⟨0, by decide⟩).val :=
  dot_S4000x18_S18x128_S4000x128_1_0_0_1_n_n.lhsIdx_val_of_single rfl i c
/-- the right operand at the summation index as its row … -/
theorem rhs18_0 (i : S4000x128.Idx) (c : dot_S4000x18_S18x128_S4000x128_1_0_0_1_n_n.contr.Idx) :
    (dot_S4000x18_S18x128_S4000x128_1_0_0_1_n_n.rhsIdx i c 0).val = (c ⟨0, by decide⟩).val :=
  dot_S4000x18_S18x128_S4000x128_1_0_0_1_n_n.rhsIdx_val_of_single rfl i c
/-- … on the output's column. -/
theorem rhs18_1 (i : S4000x128.Idx) (c : dot_S4000x18_S18x128_S4000x128_1_0_0_1_n_n.contr.Idx) :
    (dot_S4000x18_S18x128_S4000x128_1_0_0_1_n_n.rhsIdx i c 1).val = (i 1).val := by
  unfold DotDims.rhsIdx
  rw [dif_neg (show ¬(1 : Fin S18x128.rank) ∈ dot_S4000x18_S18x128_S4000x128_1_0_0_1_n_n.rhsBatch by decide), dif_pos (show (1 : Fin S18x128.rank) ∈ dot_S4000x18_S18x128_S4000x128_1_0_0_1_n_n.rhsNonContracting by decide)]
  rfl

/-- Into the zero accumulator the product's entry `(p, q)` is `Σₖ l[p,k]·r[k,q]`, whatever float formats the operands carry. -/
theorem mm18_apply {φ₁ φ₂ : FTy} (l : FVec Ideal S4000x18 φ₁) (r : FVec Ideal S18x128 φ₂) (p : Fin 4000) (q : Fin 128) :
    matmul dot_S4000x18_S18x128_S4000x128_1_0_0_1_n_n none l r (constant (F := Ideal) S4000x128 .f32 0x00000000#32) (ix2 p q)
      = ∑ k : Fin 18, l (ix2 p k) * r (ix2 k q) := by
  simp only [matmul]
  rw [Ideal.matmul_constant_zero_apply, ← Equiv.sum_comp (ValueIdx.contrEquiv1 dot_S4000x18_S18x128_S4000x128_1_0_0_1_n_n 18 rfl rfl).symm]
  refine Finset.sum_congr rfl fun k _ => ?_
  have hk := ValueIdx.contrEquiv1_symm_val dot_S4000x18_S18x128_S4000x128_1_0_0_1_n_n 18 rfl rfl k
  have el : dot_S4000x18_S18x128_S4000x128_1_0_0_1_n_n.lhsIdx (ix2 p q) ((ValueIdx.contrEquiv1 dot_S4000x18_S18x128_S4000x128_1_0_0_1_n_n 18 rfl rfl).symm k) = ix2 p k := funext fun a => Fin.ext (by
    match a with
    | ⟨0, _⟩ => exact lhs18_0 _ _
    | ⟨1, _⟩ => exact (lhs18_1 _ _).trans hk)
  have er : dot_S4000x18_S18x128_S4000x128_1_0_0_1_n_n.rhsIdx (ix2 p q) ((ValueIdx.contrEquiv1 dot_S4000x18_S18x128_S4000x128_1_0_0_1_n_n 18 rfl rfl).symm k) = ix2 k q := funext fun a => Fin.ext (by
    match a with
    | ⟨0, _⟩ => exact (rhs18_0 _ _).trans hk
    | ⟨1, _⟩ => exact rhs18_1 _ _)
  rw [el, er]

/-! ### The product of a 4000×128 tile and a 128×128 table: which entries of the operands meet -/

/-- The left operand is read on the output's row … -/
theorem lhs128_0 (i : S4000x128.Idx) (c : dot_S4000x128_S128x128_S4000x128_1_0_0_1_n_n.contr.Idx) :
    (dot_S4000x128_S128x128_S4000x128_1_0_0_1_n_n.lhsIdx i c 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … at the summation index as its column; -/
theorem lhs128_1 (i : S4000x128.Idx) (c : dot_S4000x128_S128x128_S4000x128_1_0_0_1_n_n.contr.Idx) :
    (dot_S4000x128_S128x128_S4000x128_1_0_0_1_n_n.lhsIdx i c 1).val = (c ⟨0, by decide⟩).val :=
  dot_S4000x128_S128x128_S4000x128_1_0_0_1_n_n.lhsIdx_val_of_single rfl i c
/-- the right operand at the summation index as its row … -/
theorem rhs128_0 (i : S4000x128.Idx) (c : dot_S4000x128_S128x128_S4000x128_1_0_0_1_n_n.contr.Idx) :
    (dot_S4000x128_S128x128_S4000x128_1_0_0_1_n_n.rhsIdx i c 0).val = (c ⟨0, by decide⟩).val :=
  dot_S4000x128_S128x128_S4000x128_1_0_0_1_n_n.rhsIdx_val_of_single rfl i c
/-- … on the output's column. -/
theorem rhs128_1 (i : S4000x128.Idx) (c : dot_S4000x128_S128x128_S4000x128_1_0_0_1_n_n.contr.Idx) :
    (dot_S4000x128_S128x128_S4000x128_1_0_0_1_n_n.rhsIdx i c 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Into the zero accumulator the product's entry `(p, q)` is `Σₖ l[p,k]·r[k,q]`, whatever float formats the operands carry. -/
theorem mm128_apply {φ₁ φ₂ : FTy} (l : FVec Ideal S4000x128 φ₁) (r : FVec Ideal S128x128 φ₂) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-! ### The four stored tiles

  In each, the narrowing of an operand and the recast of a tile to its own shape read the operand itself, the bias row is
  read at row 0 on every tile row, and the two sums of entries add entry by entry: what is left is the combine of the two rows. -/

/-- Layer 1, movie side: tile rows of width 24 (aggregated user features) and 18 (movie features). -/
theorem k0_pay1_apply (x0 : Vec Ideal S4000x24 .f32) (x1 : Vec Ideal S4000x18 .f32) (x2 : Vec Ideal S24x128 .f32)
    (x3 : Vec Ideal S1x128 .f32) (x4 : Vec Ideal S18x128 .f32) (p : Fin 4000) (q : Fin 128) :
    k0_pay1 (F := Ideal) x0 x1 x2 x4 x3 (ix2 p q) = combineRow (rowAt x0 p) (rowAt x1 p) x2 x3 x4 q := by
  unfold k0_pay1
  rw [addf_apply, addf_apply, mm24_apply, mm18_apply, broadcastTo_1b_ab_apply, shapeCast_self, shapeCast_self]
  simp only [truncf_apply]
  unfold combineRow affRow rowAt
  rfl

/-- Layer 1, user side: tile rows of width 18 (aggregated movie features) and 24 (user features). -/
theorem k1_pay1_apply (x0 : Vec Ideal S4000x18 .f32) (x1 : Vec Ideal S4000x24 .f32) (x2 : Vec Ideal S18x128 .f32)
    (x3 : Vec Ideal S1x128 .f32) (x4 : Vec Ideal S24x128 .f32) (p : Fin 4000) (q : Fin 128) :
    k1_pay1 (F := Ideal) x0 x1 x2 x4 x3 (ix2 p q) = combineRow (rowAt x0 p) (rowAt x1 p) x2 x3 x4 q := by
  unfold k1_pay1
  rw [addf_apply, addf_apply, mm18_apply, mm24_apply, broadcastTo_1b_ab_apply, shapeCast_self, shapeCast_self]
  simp only [truncf_apply]
  unfold combineRow affRow rowAt
  rfl

/-- Layer 2, movie side: both tiles of width 128. -/
theorem k2_pay1_apply (x0 : Vec Ideal S4000x128 .f32) (x1 : Vec Ideal S4000x128 .f32) (x2 : Vec Ideal S128x128 .f32)
    (x3 : Vec Ideal S1x128 .f32) (x4 : Vec Ideal S128x128 .f32) (p : Fin 4000) (q : Fin 128) :
    k2_pay1 (F := Ideal) x0 x1 x2 x4 x3 (ix2 p q) = combineRow (rowAt x0 p) (rowAt x1 p) x2 x3 x4 q := by
  unfold k2_pay1
  rw [addf_apply, addf_apply, mm128_apply, mm128_apply, broadcastTo_1b_ab_apply, shapeCast_self, shapeCast_self, shapeCast_self]
  simp only [truncf_apply]
  unfold combineRow affRow rowAt
  rfl

/-- Layer 2, user side: both tiles of width 128. -/
theorem k3_pay1_apply (x0 : Vec Ideal S4000x128 .f32) (x1 : Vec Ideal S4000x128 .f32) (x2 : Vec Ideal S128x128 .f32)
    (x3 : Vec Ideal S1x128 .f32) (x4 : Vec Ideal S128x128 .f32) (p : Fin 4000) (q : Fin 128) :
    k3_pay1 (F := Ideal) x0 x1 x2 x4 x3 (ix2 p q) = combineRow (rowAt x0 p) (rowAt x1 p) x2 x3 x4 q := by
  unfold k3_pay1
  rw [addf_apply, addf_apply, mm128_apply, mm128_apply, broadcastTo_1b_ab_apply, shapeCast_self, shapeCast_self, shapeCast_self]
  simp only [truncf_apply]
  unfold combineRow affRow rowAt
  rfl

end Cert.KernelIdeal.Pay

end
-- ==== Proof.Reg0.lean ====
/-
  Layer 1, movie side: the region's output table is the SAGE combine of the tables it was entered with.
  The grid cuts the node rows into tiles of 4000; tile `t` of the output is written from tile `t` of the two row-tiled
  inputs and the whole weight and bias tables, and the combine of a node depends only on that node's rows, so the tiles
  of the result are the tiles of one table, and the tiles cover it.
-/
import proofs.«401341_j58531814310253_1_alg».proof.Proof.Gen.KernelIdeal.Frame
import proofs.«401341_j58531814310253_1_alg».proof.Proof.Spec
import proofs.«401341_j58531814310253_1_alg».proof.Proof.Pay
import Idealize.ShloMosaic.Lib.Pipeline.Value
import Idealize.ShloMosaic.Lib.ValueIdx

set_option maxRecDepth 16384

noncomputable section

namespace Cert.KernelIdeal.Reg0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The tiles are loaded and stored whole: at offset zero on both axes. -/
theorem zero_offsets : (![0, 0] : Fin 2 → Nat) = fun _ => 0 := funext fun a => by fin_cases a <;> rfl

/-- Where each table's tile sits at grid point `t`: the two row-tiled inputs move with the output on the node axis, the
    weight and bias tables are taken whole, no table is cut on the second axis, and the output's row-tile number is at most 4. -/
theorem tile_index : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 4 ∧ win0_5.index t (1 : Fin 2) = 0 :=
  (by decide +kernel : ∀ t : Fin grid0.N, _)

/-- Each of the five row tiles of the output is some grid point's. -/
theorem tile_onto : ∀ q : Fin 5, ∃ t : Fin cfg0.N, win0_5.index t = ![q.val, 0] :=
  (by decide +kernel : ∀ q : Fin 5, ∃ t : Fin grid0.N, win0_5.index t = ![q.val, 0])

/-- Row `p` of the aggregated-features tile at grid point `t` is row `4000·(tile number) + p` of the aggregated-features table. -/
theorem agg_tile_read (c : Dev nD) (t : Fin cfg0.N) (p : Fin 4000) (k : Fin 24) (P : Fin 20000)
    (hP : P.val = win0_5.index t (0 : Fin 2) * 4000 + p.val) :
    (iblk0 V c 0 t : S4000x24.Idx → EReal) (ix2 p k) = (V c main_v12 : S20000x24.Idx → EReal) (ix2 P k) := by
  obtain ⟨e0, e1, -⟩ := tile_index t
  show (V c main_v12 : S20000x24.Idx → EReal) (((cfg0.win 0).blk t).view.emb (ix2 p k)) = _
  refine congrArg _ (funext fun a => Fin.ext ?_)
  match a with
  | ⟨0, _⟩ => show win0_0.index t (0 : Fin 2) * 4000 + 1 * p.val = P.val; omega
  | ⟨1, _⟩ => show win0_0.index t (1 : Fin 2) * 24 + 1 * k.val = k.val; omega

/-- Row `p` of the own-features tile at grid point `t` is row `4000·(tile number) + p` of the own-features table. -/
theorem own_tile_read (c : Dev nD) (t : Fin cfg0.N) (p : Fin 4000) (k : Fin 18) (P : Fin 20000)
    (hP : P.val = win0_5.index t (0 : Fin 2) * 4000 + p.val) :
    (iblk0 V c 1 t : S4000x18.Idx → EReal) (ix2 p k) = (V c main_arg1 : S20000x18.Idx → EReal) (ix2 P k) := by
  obtain ⟨-, -, e0, e1, -⟩ := tile_index t
  show (V c main_arg1 : S20000x18.Idx → EReal) (((cfg0.win 1).blk t).view.emb (ix2 p k)) = _
  refine congrArg _ (funext fun a => Fin.ext ?_)
  match a with
  | ⟨0, _⟩ => show win0_1.index t (0 : Fin 2) * 4000 + 1 * p.val = P.val; omega
  | ⟨1, _⟩ => show win0_1.index t (1 : Fin 2) * 18 + 1 * k.val = k.val; omega

/-- The left weights' tile is the whole table at every grid point. -/
theorem left_weights_read (c : Dev nD) (t : Fin cfg0.N) : (iblk0 V c 2 t : S24x128.Idx → EReal) = V c main_arg6 := by
  obtain ⟨-, -, -, -, e0, e1, -⟩ := tile_index t
  funext y
  show (V c main_arg6 : S24x128.Idx → EReal) (((cfg0.win 2).blk t).view.emb y) = _
  refine congrArg _ (funext fun a => Fin.ext ?_)
  match a with
  | ⟨0, _⟩ => show win0_2.index t (0 : Fin 2) * 24 + 1 * (y 0).val = (y 0).val; omega
  | ⟨1, _⟩ => show win0_2.index t (1 : Fin 2) * 128 + 1 * (y 1).val = (y 1).val; omega

/-- The bias row's tile is the whole row at every grid point. -/
theorem bias_read (c : Dev nD) (t : Fin cfg0.N) : (iblk0 V c 3 t : S1x128.Idx → EReal) = V c main_v26 := by
  obtain ⟨-, -, -, -, -, -, e0, e1, -⟩ := tile_index t
  funext y
  show (V c main_v26 : S1x128.Idx → EReal) (((cfg0.win 3).blk t).view.emb y) = _
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The right weights' tile is the whole table at every grid point. -/
theorem right_weights_read (c : Dev nD) (t : Fin cfg0.N) : (iblk0 V c 4 t : S18x128.Idx → EReal) = V c main_arg8 := by
  obtain ⟨-, -, -, -, -, -, -, -, e0, e1, -⟩ := tile_index t
  funext y
  show (V c main_arg8 : S18x128.Idx → EReal) (((cfg0.win 4).blk t).view.emb y) = _
  refine congrArg _ (funext fun a => Fin.ext ?_)
  match a with
  | ⟨0, _⟩ => show win0_4.index t (0 : Fin 2) * 18 + 1 * (y 0).val = (y 0).val; omega
  | ⟨1, _⟩ => show win0_4.index t (1 : Fin 2) * 128 + 1 * (y 1).val = (y 1).val; omega

/-- What grid point `t` writes back is tile `t` of the combine of the whole input tables: entry `(p, q)` of the stored
    tile is the combine of the two input tiles' rows `p`, which are the tables' rows `4000·(tile number) + p`. -/
theorem flushed_eq (c : Dev nD) (t : Fin cfg0.N) :
    (dat0 (F := Ideal) V c).flushed 5 t = ((cfg0.win 5).blk t).view.read (Elt Ideal)
      (combine (V c main_v12) (V c main_arg1) (V c main_arg6) (V c main_v26) (V c main_arg8)) := by
  show (cfg0.win 5).cut (grid0.coords t) ((dat0 V c).after 5 t) = _
  rw [after0_5]
  unfold out0_5
  rw [View.canon_unit_zero zero_offsets]
  simp only [View.ld_unit_zero (S := S4000x24) zero_offsets, View.ld_unit_zero (S := S4000x18) zero_offsets,
    View.ld_unit_zero (S := S24x128) zero_offsets, View.ld_unit_zero (S := S18x128) zero_offsets, View.ld_unit_zero (S := S1x128) zero_offsets]
  funext j
  obtain ⟨p, q, rfl⟩ : ∃ (p : Fin 4000) (q : Fin 128), j = ix2 p q := ⟨j 0, j 1, eq_ix2 j⟩
  refine (Pay.k0_pay1_apply (iblk0 V c 0 t) (iblk0 V c 1 t) (iblk0 V c 2 t) (iblk0 V c 3 t) (iblk0 V c 4 t) p q).trans ?_
  obtain ⟨-, -, -, -, -, -, -, -, -, -, e0, e1⟩ := tile_index t
  have hP : win0_5.index t (0 : Fin 2) * 4000 + p.val < 20000 := by have := p.isLt; omega
  have he : ((cfg0.win 5).blk t).view.emb (ix2 p q) = (ix2 (⟨win0_5.index t (0 : Fin 2) * 4000 + p.val, hP⟩ : Fin 20000) q : S20000x128.Idx) :=
    funext fun a => Fin.ext (by
      match a with
      | ⟨0, _⟩ => show win0_5.index t (0 : Fin 2) * 4000 + 1 * p.val = win0_5.index t (0 : Fin 2) * 4000 + p.val; omega
      | ⟨1, _⟩ => show win0_5.index t (1 : Fin 2) * 128 + 1 * q.val = q.val; omega)
  show _ = combine (V c main_v12) (V c main_arg1) (V c main_arg6) (V c main_v26) (V c main_arg8) (((cfg0.win 5).blk t).view.emb (ix2 p q))
  rw [he]
  show combineRow (rowAt (iblk0 V c 0 t : S4000x24.Idx → EReal) p) (rowAt (iblk0 V c 1 t : S4000x18.Idx → EReal) p)
      (iblk0 V c 2 t : S24x128.Idx → EReal) (iblk0 V c 3 t : S1x128.Idx → EReal) (iblk0 V c 4 t : S18x128.Idx → EReal) q
    = combineRow (rowAt (V c main_v12 : S20000x24.Idx → EReal) ⟨win0_5.index t (0 : Fin 2) * 4000 + p.val, hP⟩)
      (rowAt (V c main_arg1 : S20000x18.Idx → EReal) ⟨win0_5.index t (0 : Fin 2) * 4000 + p.val, hP⟩)
      (V c main_arg6) (V c main_v26) (V c main_arg8) q
  have h0 : rowAt (iblk0 V c 0 t : S4000x24.Idx → EReal) p
      = rowAt (V c main_v12 : S20000x24.Idx → EReal) ⟨win0_5.index t (0 : Fin 2) * 4000 + p.val, hP⟩ :=
    funext fun k => agg_tile_read V c t p k _ rfl
  have h1 : rowAt (iblk0 V c 1 t : S4000x18.Idx → EReal) p
      = rowAt (V c main_arg1 : S20000x18.Idx → EReal) ⟨win0_5.index t (0 : Fin 2) * 4000 + p.val, hP⟩ :=
    funext fun k => own_tile_read V c t p k _ rfl
  rw [h0, h1, left_weights_read V c t, bias_read V c t, right_weights_read V c t]

/-- A table entry is in the tile of grid point `t` iff, on each axis, its coordinate is in the tile's range. -/
theorem mem_tile (t : Fin cfg0.N) (i : S20000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v27).slice (win0_5.rect t)).set ↔ _
  rw [View.set_slice_whole, Rect.mem_set_unit]
  exact Iff.rfl

/-- Every entry of the output table is in some grid point's tile: node row `r` is in row tile `r / 4000`. -/
theorem tiles_cover (i : S20000x128.Idx) :
    ∃ t : Fin cfg0.N, (cfg0.win 5).flush t = true ∧ i ∈ ((cfg0.win 5).blk t).view.set := by
  have hi0 : (i 0).val < 20000 := (i 0).isLt
  have hi1 : (i 1).val < 128 := (i 1).isLt
  obtain ⟨t, ht⟩ := tile_onto ⟨(i 0).val / 4000, by omega⟩
  have q0 : win0_5.index t (0 : Fin 2) = (i 0).val / 4000 := congrFun ht 0
  have q1 : win0_5.index t (1 : Fin 2) = 0 := congrFun ht 1
  refine ⟨t, flush0_5 t, ?_⟩
  rw [mem_tile]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- After the region's last grid point its output table holds the combine of its input tables as entered. -/
theorem arr (c : Dev nD) :
    (dat0 (F := Ideal) V c).arrAt 5 cfg0.N
      = combine (V c main_v12) (V c main_arg1) (V c main_arg6) (V c main_v26) (V c main_arg8) :=
  (dat0 (F := Ideal) V c).arrAt_eq_of_cover 5 _ (fun t _ => flushed_eq V c t) tiles_cover

end Cert.KernelIdeal.Reg0

end
-- ==== Proof.Reg1.lean ====
/-
  Layer 1, user side: the region's output table is the SAGE combine of the tables it was entered with.
  The grid cuts the node rows into tiles of 4000; tile `t` of the output is written from tile `t` of the two row-tiled
  inputs and the whole weight and bias tables, and the combine of a node depends only on that node's rows, so the tiles
  of the result are the tiles of one table, and the tiles cover it.
-/
import proofs.«401341_j58531814310253_1_alg».proof.Proof.Gen.KernelIdeal.Frame
import proofs.«401341_j58531814310253_1_alg».proof.Proof.Spec
import proofs.«401341_j58531814310253_1_alg».proof.Proof.Pay
import Idealize.ShloMosaic.Lib.Pipeline.Value
import Idealize.ShloMosaic.Lib.ValueIdx

set_option maxRecDepth 16384

noncomputable section

namespace Cert.KernelIdeal.Reg1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The zero offsets on the two axes are the constant zero. -/
theorem zeros2 : (![0, 0] : Fin 2 → Nat) = fun _ => 0 := funext fun a => by fin_cases a <;> rfl

/-- The block indices over the 25 grid points: the two row-tiled inputs sit at the output tile's row-block, the two weight
    tables and the bias row at block 0 on both axes, every table at block 0 on its column axis, and the output's row-block
    is at most 24. -/
theorem tile_index : ∀ t : Fin cfg1.N,
    win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0
    ∧ win1_5.index t (0 : Fin 2) ≤ 24 :=
  (by decide +kernel : ∀ t : Fin grid1.N, _)

/-- Each of the 25 row-blocks of the output table is some grid point's. -/
theorem tile_onto : ∀ q : Fin 25, ∃ t : Fin cfg1.N, win1_5.index t = ![q.val, 0] :=
  (by decide +kernel : ∀ q : Fin 25, ∃ t : Fin grid1.N, win1_5.index t = ![q.val, 0])

/-- Row `p` of the aggregated-features tile at point `t` is row `4000·(row-block of t) + p` of the table. -/
theorem agg_tile_row (c : Dev nD) (t : Fin cfg1.N) (p : Fin 4000) (P : Fin 100000)
    (hP : P.val = win1_5.index t (0 : Fin 2) * 4000 + p.val) :
    rowAt (iblk1 (F := Ideal) V c 0 t : Vec Ideal S4000x18 .f32) p = rowAt (V c main_v25 : S100000x18.Idx → EReal) P := by
  obtain ⟨e0, e1, -⟩ := tile_index t
  funext k
  show V c main_v25 (((cfg1.win 0).blk t).view.emb (ix2 p k)) = V c main_v25 (ix2 P k)
  congr 1
  funext a; apply Fin.ext
  match a with
  | ⟨0, _⟩ => show win1_0.index t (0 : Fin 2) * 4000 + 1 * p.val = P.val; omega
  | ⟨1, _⟩ => show win1_0.index t (1 : Fin 2) * 18 + 1 * k.val = k.val; omega

/-- Row `p` of the own-features tile at point `t` is the same row `4000·(row-block of t) + p` of its table. -/
theorem own_tile_row (c : Dev nD) (t : Fin cfg1.N) (p : Fin 4000) (P : Fin 100000)
    (hP : P.val = win1_5.index t (0 : Fin 2) * 4000 + p.val) :
    rowAt (iblk1 (F := Ideal) V c 1 t : Vec Ideal S4000x24 .f32) p = rowAt (V c main_arg0 : S100000x24.Idx → EReal) P := by
  obtain ⟨-, -, e0, e1, -⟩ := tile_index t
  funext k
  show V c main_arg0 (((cfg1.win 1).blk t).view.emb (ix2 p k)) = V c main_arg0 (ix2 P k)
  congr 1
  funext a; apply Fin.ext
  match a with
  | ⟨0, _⟩ => show win1_1.index t (0 : Fin 2) * 4000 + 1 * p.val = P.val; omega
  | ⟨1, _⟩ => show win1_1.index t (1 : Fin 2) * 24 + 1 * k.val = k.val; omega

/-- The left-weights tile is the whole left-weights table at every point: block 0 of a table of the block's own size. -/
theorem left_weights_whole (c : Dev nD) (t : Fin cfg1.N) :
    (iblk1 (F := Ideal) V c 2 t : Vec Ideal S18x128 .f32) = (V c main_arg9 : S18x128.Idx → EReal) := by
  obtain ⟨-, -, -, -, e0, e1, -⟩ := tile_index t
  funext y
  show V c main_arg9 (((cfg1.win 2).blk t).view.emb y) = V c main_arg9 y
  congr 1
  funext a; apply Fin.ext
  match a with
  | ⟨0, _⟩ => show win1_2.index t (0 : Fin 2) * 18 + 1 * (y 0).val = (y 0).val; omega
  | ⟨1, _⟩ => show win1_2.index t (1 : Fin 2) * 128 + 1 * (y 1).val = (y 1).val; omega

/-- The bias tile is the whole bias row at every point. -/
theorem bias_whole (c : Dev nD) (t : Fin cfg1.N) :
    (iblk1 (F := Ideal) V c 3 t : Vec Ideal S1x128 .f32) = (V c main_v28 : S1x128.Idx → EReal) := by
  obtain ⟨-, -, -, -, -, -, e0, e1, -⟩ := tile_index t
  funext y
  show V c main_v28 (((cfg1.win 3).blk t).view.emb y) = V c main_v28 y
  congr 1
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The right-weights tile is the whole right-weights table at every point. -/
theorem right_weights_whole (c : Dev nD) (t : Fin cfg1.N) :
    (iblk1 (F := Ideal) V c 4 t : Vec Ideal S24x128 .f32) = (V c main_arg11 : S24x128.Idx → EReal) := by
  obtain ⟨-, -, -, -, -, -, -, -, e0, e1, -⟩ := tile_index t
  funext y
  show V c main_arg11 (((cfg1.win 4).blk t).view.emb y) = V c main_arg11 y
  congr 1
  funext a; apply Fin.ext
  match a with
  | ⟨0, _⟩ => show win1_4.index t (0 : Fin 2) * 24 + 1 * (y 0).val = (y 0).val; omega
  | ⟨1, _⟩ => show win1_4.index t (1 : Fin 2) * 128 + 1 * (y 1).val = (y 1).val; omega

/-- Entry `(p, q)` of the output tile at point `t` is entry `(4000·(row-block of t) + p, q)` of the output table. -/
theorem out_tile_entry (t : Fin cfg1.N) (p : Fin 4000) (q : Fin 128) (P : Fin 100000)
    (hP : P.val = win1_5.index t (0 : Fin 2) * 4000 + p.val) :
    ((cfg1.win 5).blk t).view.emb (ix2 p q) = (ix2 P q : S100000x128.Idx) := by
  obtain ⟨-, -, -, -, -, -, -, -, -, -, e1, -⟩ := tile_index t
  funext a; apply Fin.ext
  match a with
  | ⟨0, _⟩ => show win1_5.index t (0 : Fin 2) * 4000 + 1 * p.val = P.val; omega
  | ⟨1, _⟩ => show win1_5.index t (1 : Fin 2) * 128 + 1 * q.val = q.val; omega

/-- What point `t` writes back is tile `t` of the combine of the whole tables: entry `(p, q)` of the stored tile is the
    combine of row `p` of the two input tiles, which are row `4000·(row-block of t) + p` of the two tables, against the whole
    weight and bias tables. -/
theorem flushed_eq (c : Dev nD) (t : Fin cfg1.N) :
    (dat1 (F := Ideal) V c).flushed 5 t = ((cfg1.win 5).blk t).view.read (Elt Ideal)
      (combine (V c main_v25) (V c main_arg0) (V c main_arg9) (V c main_v28) (V c main_arg11)) := by
  show (cfg1.win 5).cut (grid1.coords t) ((dat1 V c).after 5 t) = _
  rw [after1_5]
  unfold out1_5
  rw [View.canon_unit_zero zeros2]
  simp only [View.ld_unit_zero (S := S4000x18) zeros2, View.ld_unit_zero (S := S4000x24) zeros2,
    View.ld_unit_zero (S := S18x128) zeros2, View.ld_unit_zero (S := S24x128) zeros2,
    View.ld_unit_zero (S := S1x128) zeros2]
  funext j
  obtain ⟨p, q, rfl⟩ : ∃ (p : Fin 4000) (q : Fin 128), j = ix2 p q := ⟨j 0, j 1, eq_ix2 j⟩
  have hb : win1_5.index t (0 : Fin 2) ≤ 24 := (tile_index t).2.2.2.2.2.2.2.2.2.2.2
  obtain ⟨P, hP⟩ : ∃ P : Fin 100000, P.val = win1_5.index t (0 : Fin 2) * 4000 + p.val :=
    ⟨⟨win1_5.index t (0 : Fin 2) * 4000 + p.val, by have := p.isLt; omega⟩, rfl⟩
  show k1_pay1 (F := Ideal) (iblk1 V c 0 t) (iblk1 V c 1 t) (iblk1 V c 2 t) (iblk1 V c 4 t) (iblk1 V c 3 t) (ix2 p q)
    = combine (V c main_v25) (V c main_arg0) (V c main_arg9) (V c main_v28) (V c main_arg11)
        (((cfg1.win 5).blk t).view.emb (ix2 p q))
  refine (Pay.k1_pay1_apply (iblk1 V c 0 t) (iblk1 V c 1 t) (iblk1 V c 2 t) (iblk1 V c 3 t) (iblk1 V c 4 t) p q).trans ?_
  rw [agg_tile_row V c t p P hP, own_tile_row V c t p P hP, left_weights_whole V c t, bias_whole V c t,
    right_weights_whole V c t, out_tile_entry t p q P hP]
  rfl

/-- An index of the output table is in point `t`'s tile iff each coordinate is in the tile's range on its axis. -/
theorem mem_tile (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v29).slice (win1_5.rect t)).set ↔ _
  rw [View.set_slice_whole, Rect.mem_set_unit]
  exact Iff.rfl

/-- The tiles cover the output table: row `r` lies in the tile of the point whose row-block is `r / 4000`, and every tile is
    written back. -/
theorem tiles_cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := tile_onto ⟨(i 0).val / 4000, by omega⟩
  have q0 : win1_5.index t (0 : Fin 2) = (i 0).val / 4000 := congrFun ht 0
  have q1 : win1_5.index t (1 : Fin 2) = 0 := congrFun ht 1
  refine ⟨t, flush1_5 t, ?_⟩
  rw [mem_tile]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- After the region's last grid point its output table holds the combine of its input tables as entered. -/
theorem arr (c : Dev nD) :
    (dat1 (F := Ideal) V c).arrAt 5 cfg1.N
      = combine (V c main_v25) (V c main_arg0) (V c main_arg9) (V c main_v28) (V c main_arg11) :=
  (dat1 (F := Ideal) V c).arrAt_eq_of_cover 5
    (combine (V c main_v25) (V c main_arg0) (V c main_arg9) (V c main_v28) (V c main_arg11))
    (fun t _ => flushed_eq V c t) tiles_cover

end Cert.KernelIdeal.Reg1

end
-- ==== Proof.Reg2.lean ====
/-
  Layer 2, movie side: the region's output table is the SAGE combine of the tables it was entered with.
  The grid cuts the node rows into tiles of 4000; tile `t` of the output is written from tile `t` of the two row-tiled
  inputs and the whole weight and bias tables, and the combine of a node depends only on that node's rows, so the tiles
  of the result are the tiles of one table, and the tiles cover it.
-/
import proofs.«401341_j58531814310253_1_alg».proof.Proof.Gen.KernelIdeal.Frame
import proofs.«401341_j58531814310253_1_alg».proof.Proof.Spec
import proofs.«401341_j58531814310253_1_alg».proof.Proof.Pay
import Idealize.ShloMosaic.Lib.Pipeline.Value
import Idealize.ShloMosaic.Lib.ValueIdx

set_option maxRecDepth 16384

noncomputable section

namespace Cert.KernelIdeal.Reg2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The tiles are loaded and stored whole: at offset zero on both axes. -/
theorem zero_offsets : (![0, 0] : Fin 2 → Nat) = fun _ => 0 := funext fun a => by fin_cases a <;> rfl

/-- Where each table's tile sits at grid point `t`: the two row-tiled inputs move with the output on the node axis, the
    weight and bias tables are taken whole, no table is cut on the second axis, and the output's row-tile number is at most 4. -/
theorem tile_index : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 4 ∧ win2_5.index t (1 : Fin 2) = 0 :=
  (by decide +kernel : ∀ t : Fin grid2.N, _)

/-- Each of the five row tiles of the output is some grid point's. -/
theorem tile_onto : ∀ q : Fin 5, ∃ t : Fin cfg2.N, win2_5.index t = ![q.val, 0] :=
  (by decide +kernel : ∀ q : Fin 5, ∃ t : Fin grid2.N, win2_5.index t = ![q.val, 0])

/-- Row `p` of the aggregated-features tile at grid point `t` is row `4000·(tile number) + p` of the aggregated-features table. -/
theorem agg_tile_read (c : Dev nD) (t : Fin cfg2.N) (p : Fin 4000) (k : Fin 128) (P : Fin 20000)
    (hP : P.val = win2_5.index t (0 : Fin 2) * 4000 + p.val) :
    (iblk2 V c 0 t : S4000x128.Idx → EReal) (ix2 p k) = (V c main_v42 : S20000x128.Idx → EReal) (ix2 P k) := by
  obtain ⟨e0, e1, -⟩ := tile_index t
  show (V c main_v42 : S20000x128.Idx → EReal) (((cfg2.win 0).blk t).view.emb (ix2 p k)) = _
  refine congrArg _ (funext fun a => Fin.ext ?_)
  match a with
  | ⟨0, _⟩ => show win2_0.index t (0 : Fin 2) * 4000 + 1 * p.val = P.val; omega
  | ⟨1, _⟩ => show win2_0.index t (1 : Fin 2) * 128 + 1 * k.val = k.val; omega

/-- Row `p` of the own-features tile at grid point `t` is row `4000·(tile number) + p` of the own-features table. -/
theorem own_tile_read (c : Dev nD) (t : Fin cfg2.N) (p : Fin 4000) (k : Fin 128) (P : Fin 20000)
    (hP : P.val = win2_5.index t (0 : Fin 2) * 4000 + p.val) :
    (iblk2 V c 1 t : S4000x128.Idx → EReal) (ix2 p k) = (V c main_v27 : S20000x128.Idx → EReal) (ix2 P k) := by
  obtain ⟨-, -, e0, e1, -⟩ := tile_index t
  show (V c main_v27 : S20000x128.Idx → EReal) (((cfg2.win 1).blk t).view.emb (ix2 p k)) = _
  refine congrArg _ (funext fun a => Fin.ext ?_)
  match a with
  | ⟨0, _⟩ => show win2_1.index t (0 : Fin 2) * 4000 + 1 * p.val = P.val; omega
  | ⟨1, _⟩ => show win2_1.index t (1 : Fin 2) * 128 + 1 * k.val = k.val; omega

/-- The left weights' tile is the whole table at every grid point. -/
theorem left_weights_read (c : Dev nD) (t : Fin cfg2.N) : (iblk2 V c 2 t : S128x128.Idx → EReal) = V c main_arg12 := by
  obtain ⟨-, -, -, -, e0, e1, -⟩ := tile_index t
  funext y
  show (V c main_arg12 : S128x128.Idx → EReal) (((cfg2.win 2).blk t).view.emb y) = _
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The bias row's tile is the whole row at every grid point. -/
theorem bias_read (c : Dev nD) (t : Fin cfg2.N) : (iblk2 V c 3 t : S1x128.Idx → EReal) = V c main_v56 := by
  obtain ⟨-, -, -, -, -, -, e0, e1, -⟩ := tile_index t
  funext y
  show (V c main_v56 : S1x128.Idx → EReal) (((cfg2.win 3).blk t).view.emb y) = _
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The right weights' tile is the whole table at every grid point. -/
theorem right_weights_read (c : Dev nD) (t : Fin cfg2.N) : (iblk2 V c 4 t : S128x128.Idx → EReal) = V c main_arg14 := by
  obtain ⟨-, -, -, -, -, -, -, -, e0, e1, -⟩ := tile_index t
  funext y
  show (V c main_arg14 : S128x128.Idx → EReal) (((cfg2.win 4).blk t).view.emb y) = _
  refine congrArg _ (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- What grid point `t` writes back is tile `t` of the combine of the whole input tables: entry `(p, q)` of the stored
    tile is the combine of the two input tiles' rows `p`, which are the tables' rows `4000·(tile number) + p`. -/
theorem flushed_eq (c : Dev nD) (t : Fin cfg2.N) :
    (dat2 (F := Ideal) V c).flushed 5 t = ((cfg2.win 5).blk t).view.read (Elt Ideal)
      (combine (V c main_v42) (V c main_v27) (V c main_arg12) (V c main_v56) (V c main_arg14)) := by
  show (cfg2.win 5).cut (grid2.coords t) ((dat2 V c).after 5 t) = _
  rw [after2_5]
  unfold out2_5
  rw [View.canon_unit_zero zero_offsets]
  simp only [View.ld_unit_zero (S := S4000x128) zero_offsets, View.ld_unit_zero (S := S128x128) zero_offsets,
    View.ld_unit_zero (S := S1x128) zero_offsets]
  funext j
  obtain ⟨p, q, rfl⟩ : ∃ (p : Fin 4000) (q : Fin 128), j = ix2 p q := ⟨j 0, j 1, eq_ix2 j⟩
  refine (Pay.k2_pay1_apply (iblk2 V c 0 t) (iblk2 V c 1 t) (iblk2 V c 2 t) (iblk2 V c 3 t) (iblk2 V c 4 t) p q).trans ?_
  obtain ⟨-, -, -, -, -, -, -, -, -, -, e0, e1⟩ := tile_index t
  have hP : win2_5.index t (0 : Fin 2) * 4000 + p.val < 20000 := by have := p.isLt; omega
  have he : ((cfg2.win 5).blk t).view.emb (ix2 p q) = (ix2 (⟨win2_5.index t (0 : Fin 2) * 4000 + p.val, hP⟩ : Fin 20000) q : S20000x128.Idx) :=
    funext fun a => Fin.ext (by
      match a with
      | ⟨0, _⟩ => show win2_5.index t (0 : Fin 2) * 4000 + 1 * p.val = win2_5.index t (0 : Fin 2) * 4000 + p.val; omega
      | ⟨1, _⟩ => show win2_5.index t (1 : Fin 2) * 128 + 1 * q.val = q.val; omega)
  show _ = combine (V c main_v42) (V c main_v27) (V c main_arg12) (V c main_v56) (V c main_arg14) (((cfg2.win 5).blk t).view.emb (ix2 p q))
  rw [he]
  show combineRow (rowAt (iblk2 V c 0 t : S4000x128.Idx → EReal) p) (rowAt (iblk2 V c 1 t : S4000x128.Idx → EReal) p)
      (iblk2 V c 2 t : S128x128.Idx → EReal) (iblk2 V c 3 t : S1x128.Idx → EReal) (iblk2 V c 4 t : S128x128.Idx → EReal) q
    = combineRow (rowAt (V c main_v42 : S20000x128.Idx → EReal) ⟨win2_5.index t (0 : Fin 2) * 4000 + p.val, hP⟩)
      (rowAt (V c main_v27 : S20000x128.Idx → EReal) ⟨win2_5.index t (0 : Fin 2) * 4000 + p.val, hP⟩)
      (V c main_arg12) (V c main_v56) (V c main_arg14) q
  have h0 : rowAt (iblk2 V c 0 t : S4000x128.Idx → EReal) p
      = rowAt (V c main_v42 : S20000x128.Idx → EReal) ⟨win2_5.index t (0 : Fin 2) * 4000 + p.val, hP⟩ :=
    funext fun k => agg_tile_read V c t p k _ rfl
  have h1 : rowAt (iblk2 V c 1 t : S4000x128.Idx → EReal) p
      = rowAt (V c main_v27 : S20000x128.Idx → EReal) ⟨win2_5.index t (0 : Fin 2) * 4000 + p.val, hP⟩ :=
    funext fun k => own_tile_read V c t p k _ rfl
  rw [h0, h1, left_weights_read V c t, bias_read V c t, right_weights_read V c t]

/-- A table entry is in the tile of grid point `t` iff, on each axis, its coordinate is in the tile's range. -/
theorem mem_tile (t : Fin cfg2.N) (i : S20000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v57).slice (win2_5.rect t)).set ↔ _
  rw [View.set_slice_whole, Rect.mem_set_unit]
  exact Iff.rfl

/-- Every entry of the output table is in some grid point's tile: node row `r` is in row tile `r / 4000`. -/
theorem tiles_cover (i : S20000x128.Idx) :
    ∃ t : Fin cfg2.N, (cfg2.win 5).flush t = true ∧ i ∈ ((cfg2.win 5).blk t).view.set := by
  have hi0 : (i 0).val < 20000 := (i 0).isLt
  have hi1 : (i 1).val < 128 := (i 1).isLt
  obtain ⟨t, ht⟩ := tile_onto ⟨(i 0).val / 4000, by omega⟩
  have q0 : win2_5.index t (0 : Fin 2) = (i 0).val / 4000 := congrFun ht 0
  have q1 : win2_5.index t (1 : Fin 2) = 0 := congrFun ht 1
  refine ⟨t, flush2_5 t, ?_⟩
  rw [mem_tile]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 128 ≤ (i 1).val ∧ (i 1).val < win2_5.index t (1 : Fin 2) * 128 + 128; omega

/-- After the region's last grid point its output table holds the combine of its input tables as entered. -/
theorem arr (c : Dev nD) :
    (dat2 (F := Ideal) V c).arrAt 5 cfg2.N
      = combine (V c main_v42) (V c main_v27) (V c main_arg12) (V c main_v56) (V c main_arg14) :=
  (dat2 (F := Ideal) V c).arrAt_eq_of_cover 5 _ (fun t _ => flushed_eq V c t) tiles_cover

end Cert.KernelIdeal.Reg2

end
-- ==== Proof.Reg3.lean ====
/-
  Layer 2, user side: the region's output table is the SAGE combine of the tables it was entered with.
  The grid cuts the node rows into tiles of 4000; tile `t` of the output is written from tile `t` of the two row-tiled
  inputs and the whole weight and bias tables, and the combine of a node depends only on that node's rows, so the tiles
  of the result are the tiles of one table, and the tiles cover it.
-/
import proofs.«401341_j58531814310253_1_alg».proof.Proof.Gen.KernelIdeal.Frame
import proofs.«401341_j58531814310253_1_alg».proof.Proof.Spec
import proofs.«401341_j58531814310253_1_alg».proof.Proof.Pay
import Idealize.ShloMosaic.Lib.Pipeline.Value
import Idealize.ShloMosaic.Lib.ValueIdx

set_option maxRecDepth 16384

noncomputable section

namespace Cert.KernelIdeal.Reg3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The zero offsets on the two axes are the constant zero. -/
theorem zeros2 : (![0, 0] : Fin 2 → Nat) = fun _ => 0 := funext fun a => by fin_cases a <;> rfl

/-- The block indices over the 25 grid points: the two row-tiled inputs sit at the output tile's row-block, the two weight
    tables and the bias row at block 0 on both axes, every table at block 0 on its column axis, and the output's row-block
    is at most 24. -/
theorem tile_index : ∀ t : Fin cfg3.N,
    win3_0.index t (0 : Fin 2) = win3_5.index t (0 : Fin 2)
    ∧ win3_0.index t (1 : Fin 2) = 0
    ∧ win3_1.index t (0 : Fin 2) = win3_5.index t (0 : Fin 2)
    ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0
    ∧ win3_5.index t (0 : Fin 2) ≤ 24 :=
  (by decide +kernel : ∀ t : Fin grid3.N, _)

/-- Each of the 25 row-blocks of the output table is some grid point's. -/
theorem tile_onto : ∀ q : Fin 25, ∃ t : Fin cfg3.N, win3_5.index t = ![q.val, 0] :=
  (by decide +kernel : ∀ q : Fin 25, ∃ t : Fin grid3.N, win3_5.index t = ![q.val, 0])

/-- Row `p` of the aggregated-features tile at point `t` is row `4000·(row-block of t) + p` of the table. -/
theorem agg_tile_row (c : Dev nD) (t : Fin cfg3.N) (p : Fin 4000) (P : Fin 100000)
    (hP : P.val = win3_5.index t (0 : Fin 2) * 4000 + p.val) :
    rowAt (iblk3 (F := Ideal) V c 0 t : Vec Ideal S4000x128 .f32) p = rowAt (V c main_v55 : S100000x128.Idx → EReal) P := by
  obtain ⟨e0, e1, -⟩ := tile_index t
  funext k
  show V c main_v55 (((cfg3.win 0).blk t).view.emb (ix2 p k)) = V c main_v55 (ix2 P k)
  congr 1
  funext a; apply Fin.ext
  match a with
  | ⟨0, _⟩ => show win3_0.index t (0 : Fin 2) * 4000 + 1 * p.val = P.val; omega
  | ⟨1, _⟩ => show win3_0.index t (1 : Fin 2) * 128 + 1 * k.val = k.val; omega

/-- Row `p` of the own-features tile at point `t` is the same row `4000·(row-block of t) + p` of its table. -/
theorem own_tile_row (c : Dev nD) (t : Fin cfg3.N) (p : Fin 4000) (P : Fin 100000)
    (hP : P.val = win3_5.index t (0 : Fin 2) * 4000 + p.val) :
    rowAt (iblk3 (F := Ideal) V c 1 t : Vec Ideal S4000x128 .f32) p = rowAt (V c main_v29 : S100000x128.Idx → EReal) P := by
  obtain ⟨-, -, e0, e1, -⟩ := tile_index t
  funext k
  show V c main_v29 (((cfg3.win 1).blk t).view.emb (ix2 p k)) = V c main_v29 (ix2 P k)
  congr 1
  funext a; apply Fin.ext
  match a with
  | ⟨0, _⟩ => show win3_1.index t (0 : Fin 2) * 4000 + 1 * p.val = P.val; omega
  | ⟨1, _⟩ => show win3_1.index t (1 : Fin 2) * 128 + 1 * k.val = k.val; omega

/-- The left-weights tile is the whole left-weights table at every point: block 0 of a table of the block's own size. -/
theorem left_weights_whole (c : Dev nD) (t : Fin cfg3.N) :
    (iblk3 (F := Ideal) V c 2 t : Vec Ideal S128x128 .f32) = (V c main_arg15 : S128x128.Idx → EReal) := by
  obtain ⟨-, -, -, -, e0, e1, -⟩ := tile_index t
  funext y
  show V c main_arg15 (((cfg3.win 2).blk t).view.emb y) = V c main_arg15 y
  congr 1
  funext a; apply Fin.ext
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- The bias tile is the whole bias row at every point. -/
theorem bias_whole (c : Dev nD) (t : Fin cfg3.N) :
    (iblk3 (F := Ideal) V c 3 t : Vec Ideal S1x128 .f32) = (V c main_v58 : S1x128.Idx → EReal) := by
  obtain ⟨-, -, -, -, -, -, e0, e1, -⟩ := tile_index t
  funext y
  show V c main_v58 (((cfg3.win 3).blk t).view.emb y) = V c main_v58 y
  congr 1
  funext a; apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- The right-weights tile is the whole right-weights table at every point. -/
theorem right_weights_whole (c : Dev nD) (t : Fin cfg3.N) :
    (iblk3 (F := Ideal) V c 4 t : Vec Ideal S128x128 .f32) = (V c main_arg17 : S128x128.Idx → EReal) := by
  obtain ⟨-, -, -, -, -, -, -, -, e0, e1, -⟩ := tile_index t
  funext y
  show V c main_arg17 (((cfg3.win 4).blk t).view.emb y) = V c main_arg17 y
  congr 1
  funext a; apply Fin.ext
  match a with
  | ⟨0, _⟩ => show win3_4.index t (0 : Fin 2) * 128 + 1 * (y 0).val = (y 0).val; omega
  | ⟨1, _⟩ => show win3_4.index t (1 : Fin 2) * 128 + 1 * (y 1).val = (y 1).val; omega

/-- Entry `(p, q)` of the output tile at point `t` is entry `(4000·(row-block of t) + p, q)` of the output table. -/
theorem out_tile_entry (t : Fin cfg3.N) (p : Fin 4000) (q : Fin 128) (P : Fin 100000)
    (hP : P.val = win3_5.index t (0 : Fin 2) * 4000 + p.val) :
    ((cfg3.win 5).blk t).view.emb (ix2 p q) = (ix2 P q : S100000x128.Idx) := by
  obtain ⟨-, -, -, -, -, -, -, -, -, -, e1, -⟩ := tile_index t
  funext a; apply Fin.ext
  match a with
  | ⟨0, _⟩ => show win3_5.index t (0 : Fin 2) * 4000 + 1 * p.val = P.val; omega
  | ⟨1, _⟩ => show win3_5.index t (1 : Fin 2) * 128 + 1 * q.val = q.val; omega

/-- What point `t` writes back is tile `t` of the combine of the whole tables: entry `(p, q)` of the stored tile is the
    combine of row `p` of the two input tiles, which are row `4000·(row-block of t) + p` of the two tables, against the whole
    weight and bias tables. -/
theorem flushed_eq (c : Dev nD) (t : Fin cfg3.N) :
    (dat3 (F := Ideal) V c).flushed 5 t = ((cfg3.win 5).blk t).view.read (Elt Ideal)
      (combine (V c main_v55) (V c main_v29) (V c main_arg15) (V c main_v58) (V c main_arg17)) := by
  show (cfg3.win 5).cut (grid3.coords t) ((dat3 V c).after 5 t) = _
  rw [after3_5]
  unfold out3_5
  rw [View.canon_unit_zero zeros2]
  simp only [View.ld_unit_zero (S := S4000x128) zeros2, View.ld_unit_zero (S := S128x128) zeros2,
    View.ld_unit_zero (S := S1x128) zeros2]
  funext j
  obtain ⟨p, q, rfl⟩ : ∃ (p : Fin 4000) (q : Fin 128), j = ix2 p q := ⟨j 0, j 1, eq_ix2 j⟩
  have hb : win3_5.index t (0 : Fin 2) ≤ 24 := (tile_index t).2.2.2.2.2.2.2.2.2.2.2
  obtain ⟨P, hP⟩ : ∃ P : Fin 100000, P.val = win3_5.index t (0 : Fin 2) * 4000 + p.val :=
    ⟨⟨win3_5.index t (0 : Fin 2) * 4000 + p.val, by have := p.isLt; omega⟩, rfl⟩
  show k3_pay1 (F := Ideal) (iblk3 V c 0 t) (iblk3 V c 1 t) (iblk3 V c 2 t) (iblk3 V c 4 t) (iblk3 V c 3 t) (ix2 p q)
    = combine (V c main_v55) (V c main_v29) (V c main_arg15) (V c main_v58) (V c main_arg17)
        (((cfg3.win 5).blk t).view.emb (ix2 p q))
  refine (Pay.k3_pay1_apply (iblk3 V c 0 t) (iblk3 V c 1 t) (iblk3 V c 2 t) (iblk3 V c 3 t) (iblk3 V c 4 t) p q).trans ?_
  rw [agg_tile_row V c t p P hP, own_tile_row V c t p P hP, left_weights_whole V c t, bias_whole V c t,
    right_weights_whole V c t, out_tile_entry t p q P hP]
  rfl

/-- An index of the output table is in point `t`'s tile iff each coordinate is in the tile's range on its axis. -/
theorem mem_tile (t : Fin cfg3.N) (i : S100000x128.Idx) :
    i ∈ ((cfg3.win 5).blk t).view.set ↔ ∀ a : Fin 2, win3_5.index t a * S4000x128.size a ≤ (i a).val ∧ (i a).val < win3_5.index t a * S4000x128.size a + S4000x128.size a := by
  show i ∈ ((View.whole main_v59).slice (win3_5.rect t)).set ↔ _
  rw [View.set_slice_whole, Rect.mem_set_unit]
  exact Iff.rfl

/-- The tiles cover the output table: row `r` lies in the tile of the point whose row-block is `r / 4000`, and every tile is
    written back. -/
theorem tiles_cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ := tile_onto ⟨(i 0).val / 4000, by omega⟩
  have q0 : win3_5.index t (0 : Fin 2) = (i 0).val / 4000 := congrFun ht 0
  have q1 : win3_5.index t (1 : Fin 2) = 0 := congrFun ht 1
  refine ⟨t, flush3_5 t, ?_⟩
  rw [mem_tile]
  intro a
  match a with
  | ⟨0, _⟩ => show win3_5.index t (0 : Fin 2) * 4000 ≤ (i 0).val ∧ (i 0).val < win3_5.index t (0 : Fin 2) * 4000 + 4000; omega
  | ⟨1, _⟩ => show win3_5.index t (1 : Fin 2) * 128 ≤ (i 1).val ∧ (i 1).val < win3_5.index t (1 : Fin 2) * 128 + 128; omega

/-- After the region's last grid point its output table holds the combine of its input tables as entered. -/
theorem arr (c : Dev nD) :
    (dat3 (F := Ideal) V c).arrAt 5 cfg3.N
      = combine (V c main_v55) (V c main_v29) (V c main_arg15) (V c main_v58) (V c main_arg17) :=
  (dat3 (F := Ideal) V c).arrAt_eq_of_cover 5
    (combine (V c main_v55) (V c main_v29) (V c main_arg15) (V c main_v58) (V c main_arg17))
    (fun t _ => flushed_eq V c t) tiles_cover

end Cert.KernelIdeal.Reg3

end
-- ==== Proof.PayHead.lean ====
/-
  The rating-head kernel's stored value, read at one entry: row `p` of the stored column is the rating head of row `p`
  of the feature tile.
-/
import proofs.«401341_j58531814310253_1_alg».proof.Proof.Gen.KernelIdeal.Skeleton
import proofs.«401341_j58531814310253_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayHead

open Idealize.ShloMosaic Idealize.ShloMosaic.ValueIdx
open Cert.KernelIdeal Cert.KernelIdeal.Gen Cert.Spec

/-! ### The 8000×256 by 256×64 contraction -/

theorem lhsA_0 (i : S8000x64.Idx) (q : dot_S8000x256_S256x64_S8000x64_1_0_0_1_n_n.contr.Idx) :
    (dot_S8000x256_S256x64_S8000x64_1_0_0_1_n_n.lhsIdx i q 0).val = (i 0).val := by
  unfold DotDims.lhsIdx
  rw [dif_neg (show ¬(0 : Fin S8000x256.rank) ∈ dot_S8000x256_S256x64_S8000x64_1_0_0_1_n_n.lhsBatch by decide), dif_pos (show (0 : Fin S8000x256.rank) ∈ dot_S8000x256_S256x64_S8000x64_1_0_0_1_n_n.lhsNonContracting by decide)]
  rfl
theorem lhsA_1 (i : S8000x64.Idx) (q : dot_S8000x256_S256x64_S8000x64_1_0_0_1_n_n.contr.Idx) :
    (dot_S8000x256_S256x64_S8000x64_1_0_0_1_n_n.lhsIdx i q 1).val = (q ⟨0, by decide⟩).val :=
  dot_S8000x256_S256x64_S8000x64_1_0_0_1_n_n.lhsIdx_val_of_single rfl i q
theorem rhsA_0 (i : S8000x64.Idx) (q : dot_S8000x256_S256x64_S8000x64_1_0_0_1_n_n.contr.Idx) :
    (dot_S8000x256_S256x64_S8000x64_1_0_0_1_n_n.rhsIdx i q 0).val = (q ⟨0, by decide⟩).val :=
  dot_S8000x256_S256x64_S8000x64_1_0_0_1_n_n.rhsIdx_val_of_single rfl i q
theorem rhsA_1 (i : S8000x64.Idx) (q : dot_S8000x256_S256x64_S8000x64_1_0_0_1_n_n.contr.Idx) :
    (dot_S8000x256_S256x64_S8000x64_1_0_0_1_n_n.rhsIdx i q 1).val = (i 1).val := by
  unfold DotDims.rhsIdx
  rw [dif_neg (show ¬(1 : Fin S256x64.rank) ∈ dot_S8000x256_S256x64_S8000x64_1_0_0_1_n_n.rhsBatch by decide), dif_pos (show (1 : Fin S256x64.rank) ∈ dot_S8000x256_S256x64_S8000x64_1_0_0_1_n_n.rhsNonContracting by decide)]
  rfl

/-- Into the zero splat, the contraction read at row `p`, column `q` is the sum over the shared axis of the products
    of row `p` of the left operand with column `q` of the right one, whatever the operands' float formats. -/
theorem mmA {φ₁ φ₂ : FTy} (l : FVec Ideal S8000x256 φ₁) (r : FVec Ideal S256x64 φ₂) (p : Fin 8000) (q : Fin 64) :
    matmul dot_S8000x256_S256x64_S8000x64_1_0_0_1_n_n none l r (constant (F := Ideal) S8000x64 .f32 0x00000000#32) (ix2 p q)
      = ∑ k : Fin 256, l (ix2 p k) * r (ix2 k q) := by
  refine (Ideal.matmul_constant_zero_apply dot_S8000x256_S256x64_S8000x64_1_0_0_1_n_n none l r (ix2 p q)).trans ?_
  rw [← Equiv.sum_comp (ValueIdx.contrEquiv1 dot_S8000x256_S256x64_S8000x64_1_0_0_1_n_n 256 rfl rfl).symm]
  refine Finset.sum_congr rfl fun k _ => ?_
  have hk := ValueIdx.contrEquiv1_symm_val dot_S8000x256_S256x64_S8000x64_1_0_0_1_n_n 256 rfl rfl k
  have el : dot_S8000x256_S256x64_S8000x64_1_0_0_1_n_n.lhsIdx (ix2 p q) ((ValueIdx.contrEquiv1 dot_S8000x256_S256x64_S8000x64_1_0_0_1_n_n 256 rfl rfl).symm k) = ix2 p k := funext fun a => Fin.ext (by
    match a with
    | ⟨0, _⟩ => exact lhsA_0 _ _
    | ⟨1, _⟩ => exact (lhsA_1 _ _).trans hk)
  have er : dot_S8000x256_S256x64_S8000x64_1_0_0_1_n_n.rhsIdx (ix2 p q) ((ValueIdx.contrEquiv1 dot_S8000x256_S256x64_S8000x64_1_0_0_1_n_n 256 rfl rfl).symm k) = ix2 k q := funext fun a => Fin.ext (by
    match a with
    | ⟨0, _⟩ => exact (rhsA_0 _ _).trans hk
    | ⟨1, _⟩ => exact rhsA_1 _ _)
  rw [el, er]

/-! ### The 8000×64 by 64×16 contraction -/

theorem lhsB_0 (i : S8000x16.Idx) (q : dot_S8000x64_S64x16_S8000x16_1_0_0_1_n_n.contr.Idx) :
    (dot_S8000x64_S64x16_S8000x16_1_0_0_1_n_n.lhsIdx i q 0).val = (i 0).val := by
  unfold DotDims.lhsIdx
  rw [dif_neg (show ¬(0 : Fin S8000x64.rank) ∈ dot_S8000x64_S64x16_S8000x16_1_0_0_1_n_n.lhsBatch by decide), dif_pos (show (0 : Fin S8000x64.rank) ∈ dot_S8000x64_S64x16_S8000x16_1_0_0_1_n_n.lhsNonContracting by decide)]
  rfl
theorem lhsB_1 (i : S8000x16.Idx) (q : dot_S8000x64_S64x16_S8000x16_1_0_0_1_n_n.contr.Idx) :
    (dot_S8000x64_S64x16_S8000x16_1_0_0_1_n_n.lhsIdx i q 1).val = (q ⟨0, by decide⟩).val :=
  dot_S8000x64_S64x16_S8000x16_1_0_0_1_n_n.lhsIdx_val_of_single rfl i q
theorem rhsB_0 (i : S8000x16.Idx) (q : dot_S8000x64_S64x16_S8000x16_1_0_0_1_n_n.contr.Idx) :
    (dot_S8000x64_S64x16_S8000x16_1_0_0_1_n_n.rhsIdx i q 0).val = (q ⟨0, by decide⟩).val :=
  dot_S8000x64_S64x16_S8000x16_1_0_0_1_n_n.rhsIdx_val_of_single rfl i q
theorem rhsB_1 (i : S8000x16.Idx) (q : dot_S8000x64_S64x16_S8000x16_1_0_0_1_n_n.contr.Idx) :
    (dot_S8000x64_S64x16_S8000x16_1_0_0_1_n_n.rhsIdx i q 1).val = (i 1).val := by
  unfold DotDims.rhsIdx
  rw [dif_neg (show ¬(1 : Fin S64x16.rank) ∈ dot_S8000x64_S64x16_S8000x16_1_0_0_1_n_n.rhsBatch by decide), dif_pos (show (1 : Fin S64x16.rank) ∈ dot_S8000x64_S64x16_S8000x16_1_0_0_1_n_n.rhsNonContracting by decide)]
  rfl

/-- Into the zero splat, the contraction read at row `p`, column `q` is the sum over the shared axis of the products
    of row `p` of the left operand with column `q` of the right one, whatever the operands' float formats. -/
theorem mmB {φ₁ φ₂ : FTy} (l : FVec Ideal S8000x64 φ₁) (r : FVec Ideal S64x16 φ₂) (p : Fin 8000) (q : Fin 16) :
    matmul dot_S8000x64_S64x16_S8000x16_1_0_0_1_n_n none l r (constant (F := Ideal) S8000x16 .f32 0x00000000#32) (ix2 p q)
      = ∑ k : Fin 64, l (ix2 p k) * r (ix2 k q) := by
  refine (Ideal.matmul_constant_zero_apply dot_S8000x64_S64x16_S8000x16_1_0_0_1_n_n none l r (ix2 p q)).trans ?_
  rw [← Equiv.sum_comp (ValueIdx.contrEquiv1 dot_S8000x64_S64x16_S8000x16_1_0_0_1_n_n 64 rfl rfl).symm]
  refine Finset.sum_congr rfl fun k _ => ?_
  have hk := ValueIdx.contrEquiv1_symm_val dot_S8000x64_S64x16_S8000x16_1_0_0_1_n_n 64 rfl rfl k
  have el : dot_S8000x64_S64x16_S8000x16_1_0_0_1_n_n.lhsIdx (ix2 p q) ((ValueIdx.contrEquiv1 dot_S8000x64_S64x16_S8000x16_1_0_0_1_n_n 64 rfl rfl).symm k) = ix2 p k := funext fun a => Fin.ext (by
    match a with
    | ⟨0, _⟩ => exact lhsB_0 _ _
    | ⟨1, _⟩ => exact (lhsB_1 _ _).trans hk)
  have er : dot_S8000x64_S64x16_S8000x16_1_0_0_1_n_n.rhsIdx (ix2 p q) ((ValueIdx.contrEquiv1 dot_S8000x64_S64x16_S8000x16_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-! ### The 8000×16 by 16×1 contraction -/

theorem lhsC_0 (i : S8000x1.Idx) (q : dot_S8000x16_S16x1_S8000x1_1_0_0_1_n_n.contr.Idx) :
    (dot_S8000x16_S16x1_S8000x1_1_0_0_1_n_n.lhsIdx i q 0).val = (i 0).val := by
  unfold DotDims.lhsIdx
  rw [dif_neg (show ¬(0 : Fin S8000x16.rank) ∈ dot_S8000x16_S16x1_S8000x1_1_0_0_1_n_n.lhsBatch by decide), dif_pos (show (0 : Fin S8000x16.rank) ∈ dot_S8000x16_S16x1_S8000x1_1_0_0_1_n_n.lhsNonContracting by decide)]
  rfl
theorem lhsC_1 (i : S8000x1.Idx) (q : dot_S8000x16_S16x1_S8000x1_1_0_0_1_n_n.contr.Idx) :
    (dot_S8000x16_S16x1_S8000x1_1_0_0_1_n_n.lhsIdx i q 1).val = (q ⟨0, by decide⟩).val :=
  dot_S8000x16_S16x1_S8000x1_1_0_0_1_n_n.lhsIdx_val_of_single rfl i q
theorem rhsC_0 (i : S8000x1.Idx) (q : dot_S8000x16_S16x1_S8000x1_1_0_0_1_n_n.contr.Idx) :
    (dot_S8000x16_S16x1_S8000x1_1_0_0_1_n_n.rhsIdx i q 0).val = (q ⟨0, by decide⟩).val :=
  dot_S8000x16_S16x1_S8000x1_1_0_0_1_n_n.rhsIdx_val_of_single rfl i q
theorem rhsC_1 (i : S8000x1.Idx) (q : dot_S8000x16_S16x1_S8000x1_1_0_0_1_n_n.contr.Idx) :
    (dot_S8000x16_S16x1_S8000x1_1_0_0_1_n_n.rhsIdx i q 1).val = (i 1).val := by
  unfold DotDims.rhsIdx
  rw [dif_neg (show ¬(1 : Fin S16x1.rank) ∈ dot_S8000x16_S16x1_S8000x1_1_0_0_1_n_n.rhsBatch by decide), dif_pos (show (1 : Fin S16x1.rank) ∈ dot_S8000x16_S16x1_S8000x1_1_0_0_1_n_n.rhsNonContracting by decide)]
  rfl

/-- Into the zero splat, the contraction read at row `p`, column `q` is the sum over the shared axis of the products
    of row `p` of the left operand with column `q` of the right one, whatever the operands' float formats. -/
theorem mmC {φ₁ φ₂ : FTy} (l : FVec Ideal S8000x16 φ₁) (r : FVec Ideal S16x1 φ₂) (p : Fin 8000) (q : Fin 1) :
    matmul dot_S8000x16_S16x1_S8000x1_1_0_0_1_n_n none l r (constant (F := Ideal) S8000x1 .f32 0x00000000#32) (ix2 p q)
      = ∑ k : Fin 16, l (ix2 p k) * r (ix2 k q) := by
  refine (Ideal.matmul_constant_zero_apply dot_S8000x16_S16x1_S8000x1_1_0_0_1_n_n none l r (ix2 p q)).trans ?_
  rw [← Equiv.sum_comp (ValueIdx.contrEquiv1 dot_S8000x16_S16x1_S8000x1_1_0_0_1_n_n 16 rfl rfl).symm]
  refine Finset.sum_congr rfl fun k _ => ?_
  have hk := ValueIdx.contrEquiv1_symm_val dot_S8000x16_S16x1_S8000x1_1_0_0_1_n_n 16 rfl rfl k
  have el : dot_S8000x16_S16x1_S8000x1_1_0_0_1_n_n.lhsIdx (ix2 p q) ((ValueIdx.contrEquiv1 dot_S8000x16_S16x1_S8000x1_1_0_0_1_n_n 16 rfl rfl).symm k) = ix2 p k := funext fun a => Fin.ext (by
    match a with
    | ⟨0, _⟩ => exact lhsC_0 _ _
    | ⟨1, _⟩ => exact (lhsC_1 _ _).trans hk)
  have er : dot_S8000x16_S16x1_S8000x1_1_0_0_1_n_n.rhsIdx (ix2 p q) ((ValueIdx.contrEquiv1 dot_S8000x16_S16x1_S8000x1_1_0_0_1_n_n 16 rfl rfl).symm k) = ix2 k q := funext fun a => Fin.ext (by
    match a with
    | ⟨0, _⟩ => exact (rhsC_0 _ _).trans hk
    | ⟨1, _⟩ => exact rhsC_1 _ _)
  rw [el, er]

/-- One affine layer read at row `p`, unit `q`: the contraction of the left operand with the weights (the weights'
    narrowing is the identity on extended reals) into the zero splat, plus the bias row broadcast down the rows, is the
    affine map of the left operand's row `p`. -/
theorem affA {φ : FTy} (l : FVec Ideal S8000x256 φ) (w : Vec Ideal S256x64 .f32) (b : Vec Ideal S1x64 .f32)
    (hw : FTy.bits .bf16 < FTy.bits .f32) (hb : S1x64.Broadcasts S8000x64) (p : Fin 8000) (q : Fin 64) :
    addf (matmul dot_S8000x256_S256x64_S8000x64_1_0_0_1_n_n none l (truncf .bf16 w hw) (constant (F := Ideal) S8000x64 .f32 0x00000000#32))
        (broadcastTo S8000x64 b hb) (ix2 p q)
      = affRow (fun k => l (ix2 p k)) w b q := by
  refine (addf_apply _ _ _).trans ?_
  rw [mmA, broadcastTo_apply b hb (ix2 p q) (ix2 (0 : Fin 1) q) (fun a => match a with
    | ⟨0, _⟩ => by show (0 : Nat) = if (1 : Nat) = 1 then 0 else _; rw [if_pos rfl]
    | ⟨1, _⟩ => by show q.val = if (64 : Nat) = 1 then 0 else q.val; rw [if_neg (by decide)])]
  rfl

/-- The same layer followed by the positive part (the maximum with the splat of the float word for zero). -/
theorem reluA {φ : FTy} (l : FVec Ideal S8000x256 φ) (w : Vec Ideal S256x64 .f32) (b : Vec Ideal S1x64 .f32)
    (hw : FTy.bits .bf16 < FTy.bits .f32) (hb : S1x64.Broadcasts S8000x64) (p : Fin 8000) (q : Fin 64) :
    maximumf (addf (matmul dot_S8000x256_S256x64_S8000x64_1_0_0_1_n_n none l (truncf .bf16 w hw) (constant (F := Ideal) S8000x64 .f32 0x00000000#32))
        (broadcastTo S8000x64 b hb)) (broadcast S8000x64 (FloatOps.ofBits (F := Ideal) .f32 0x00000000#32)) (ix2 p q)
      = max (affRow (fun k => l (ix2 p k)) w b q) zeroW :=
  congrArg (fun t => max t zeroW) (affA l w b hw hb p q)

/-- One affine layer read at row `p`, unit `q`: the contraction of the left operand with the weights (the weights'
    narrowing is the identity on extended reals) into the zero splat, plus the bias row broadcast down the rows, is the
    affine map of the left operand's row `p`. -/
theorem affB {φ : FTy} (l : FVec Ideal S8000x64 φ) (w : Vec Ideal S64x16 .f32) (b : Vec Ideal S1x16 .f32)
    (hw : FTy.bits .bf16 < FTy.bits .f32) (hb : S1x16.Broadcasts S8000x16) (p : Fin 8000) (q : Fin 16) :
    addf (matmul dot_S8000x64_S64x16_S8000x16_1_0_0_1_n_n none l (truncf .bf16 w hw) (constant (F := Ideal) S8000x16 .f32 0x00000000#32))
        (broadcastTo S8000x16 b hb) (ix2 p q)
      = affRow (fun k => l (ix2 p k)) w b q := by
  refine (addf_apply _ _ _).trans ?_
  rw [mmB, broadcastTo_apply b hb (ix2 p q) (ix2 (0 : Fin 1) q) (fun a => match a with
    | ⟨0, _⟩ => by show (0 : Nat) = if (1 : Nat) = 1 then 0 else _; rw [if_pos rfl]
    | ⟨1, _⟩ => by show q.val = if (16 : Nat) = 1 then 0 else q.val; rw [if_neg (by decide)])]
  rfl

/-- The same layer followed by the positive part (the maximum with the splat of the float word for zero). -/
theorem reluB {φ : FTy} (l : FVec Ideal S8000x64 φ) (w : Vec Ideal S64x16 .f32) (b : Vec Ideal S1x16 .f32)
    (hw : FTy.bits .bf16 < FTy.bits .f32) (hb : S1x16.Broadcasts S8000x16) (p : Fin 8000) (q : Fin 16) :
    maximumf (addf (matmul dot_S8000x64_S64x16_S8000x16_1_0_0_1_n_n none l (truncf .bf16 w hw) (constant (F := Ideal) S8000x16 .f32 0x00000000#32))
        (broadcastTo S8000x16 b hb)) (broadcast S8000x16 (FloatOps.ofBits (F := Ideal) .f32 0x00000000#32)) (ix2 p q)
      = max (affRow (fun k => l (ix2 p k)) w b q) zeroW :=
  congrArg (fun t => max t zeroW) (affB l w b hw hb p q)

/-- One affine layer read at row `p`, unit `q`: the contraction of the left operand with the weights (the weights'
    narrowing is the identity on extended reals) into the zero splat, plus the bias row broadcast down the rows, is the
    affine map of the left operand's row `p`. -/
theorem affC {φ : FTy} (l : FVec Ideal S8000x16 φ) (w : Vec Ideal S16x1 .f32) (b : Vec Ideal S1x1 .f32)
    (hw : FTy.bits .bf16 < FTy.bits .f32) (hb : S1x1.Broadcasts S8000x1) (p : Fin 8000) (q : Fin 1) :
    addf (matmul dot_S8000x16_S16x1_S8000x1_1_0_0_1_n_n none l (truncf .bf16 w hw) (constant (F := Ideal) S8000x1 .f32 0x00000000#32))
        (broadcastTo S8000x1 b hb) (ix2 p q)
      = affRow (fun k => l (ix2 p k)) w b q := by
  refine (addf_apply _ _ _).trans ?_
  rw [mmC, broadcastTo_apply b hb (ix2 p q) (ix2 (0 : Fin 1) q) (fun a => match a with
    | ⟨0, _⟩ => by show (0 : Nat) = if (1 : Nat) = 1 then 0 else _; rw [if_pos rfl]
    | ⟨1, _⟩ => by show q.val = if (1 : Nat) = 1 then 0 else _; rw [if_pos rfl]; exact Fin.val_eq_zero q)]
  rfl

/-- The stored rating: the three layers composed. Each hidden layer's narrowing to the half-width format is the identity
    on extended reals, so the next contraction's left operand at `(p, k)` is the previous layer's value there; the
    same-shape casts are identities; the last layer's logit goes through the logistic function and is scaled by the
    float word for five. -/
theorem k4_pay1_apply (x0 : Vec Ideal S8000x256 .f32) (x1 : Vec Ideal S256x64 .f32) (x2 : Vec Ideal S1x64 .f32)
    (x3 : Vec Ideal S64x16 .f32) (x4 : Vec Ideal S1x16 .f32) (x5 : Vec Ideal S16x1 .f32) (x6 : Vec Ideal S1x1 .f32)
    (p : Fin 8000) :
    k4_pay1 (F := Ideal) x0 x1 x2 x3 x4 x5 x6 (ix2 p (0 : Fin 1)) = headRow (rowAt x0 p) x1 x2 x3 x4 x5 x6 := by
  unfold k4_pay1 headRow
  rw [shapeCast_self x0, shapeCast_self x2, shapeCast_self x4, shapeCast_self x6]
  refine congrArg (fun t => Ideal.logistic t * fiveW) ?_
  refine (affC _ x5 x6 _ _ p 0).trans ?_
  refine congrArg (fun r => affRow r x5 x6 (0 : Fin 1)) (funext fun k => ?_)
  refine (reluB _ x3 x4 _ _ p k).trans ?_
  refine congrArg (fun r => max (affRow r x3 x4 k) zeroW) (funext fun j => ?_)
  exact reluA _ x1 x2 _ _ p j

end Cert.KernelIdeal.PayHead

end
-- ==== Proof.Reg4.lean ====
/-
  The rating head's region: its output column is the rating head of the feature table it was entered with.
  The grid cuts the label edges into tiles of 8000; tile `t` of the output column is written from tile `t` of the feature
  table and the whole weight and bias tables, and an edge's rating depends only on that edge's feature row, so the
  tiles of the result are the tiles of one column, and the tiles cover it.
-/
import proofs.«401341_j58531814310253_1_alg».proof.Proof.Gen.KernelIdeal.Frame
import proofs.«401341_j58531814310253_1_alg».proof.Proof.Spec
import proofs.«401341_j58531814310253_1_alg».proof.Proof.PayHead
import Idealize.ShloMosaic.Lib.Pipeline.Value
import Idealize.ShloMosaic.Lib.ValueIdx

set_option maxRecDepth 16384

noncomputable section

namespace Cert.KernelIdeal.Reg4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

set_option maxHeartbeats 400000 in
theorem index_facts : ∀ t : Fin cfg4.N,
    win4_0.index t (0 : Fin 2) = win4_7.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (1 : Fin 2) = 0 ∧ win4_7.index t (0 : Fin 2) ≤ 124 :=
  (by decide +kernel : ∀ t : Fin grid4.N, _)

set_option maxHeartbeats 400000 in
theorem index_onto : ∀ q : Fin 125, ∃ t : Fin cfg4.N, win4_7.index t = ![q.val, 0] :=
  (by decide +kernel : ∀ q : Fin 125, ∃ t : Fin grid4.N, win4_7.index t = ![q.val, 0])

/-- Row `p` of the feature tile at grid point `t` is row `P` of the feature table, `P` the tile's first row plus `p`:
    the feature window moves with the output window down the rows and spans all 256 columns. -/
theorem blk0_row (c : Dev nD) (t : Fin cfg4.N) (p : Fin 8000) (P : Fin 1000000)
    (hP : P.val = win4_7.index t (0 : Fin 2) * 8000 + p.val) :
    rowAt (N := 8000) (K := 256) (iblk4 V c 0 t) p = rowAt (N := 1000000) (K := 256) (V c main_v62) P := by
  obtain ⟨a00, a01, -⟩ := index_facts t
  funext k
  show iblk4 V c 0 t (ix2 p k) = V c main_v62 (ix2 P k)
  unfold iblk4
  rw [View.read_apply]
  show V c main_v62 (((cfg4.win 0).blk t).view.emb (ix2 p k)) = V c main_v62 (ix2 P k)
  refine congrArg (V c main_v62) (funext fun a => Fin.ext ?_)
  match a with
  | ⟨0, _⟩ => show win4_0.index t (0 : Fin 2) * 8000 + 1 * p.val = P.val; omega
  | ⟨1, _⟩ => show win4_0.index t (1 : Fin 2) * 256 + 1 * k.val = k.val; omega

/-- Window 1's block is its whole table at every grid point: its block index is zero on both axes. -/
theorem blk1_eq (c : Dev nD) (t : Fin cfg4.N) : (iblk4 V c 1 t : Vec Ideal S256x64 .f32) = V c main_arg18 := by
  obtain ⟨-, -, a10, a11, a20, a21, a30, a31, a40, a41, a50, a51, a60, a61, -, -⟩ := index_facts t
  funext y
  unfold iblk4
  rw [View.read_apply]
  show V c main_arg18 (((cfg4.win 1).blk t).view.emb y) = V c main_arg18 y
  refine congrArg (V c main_arg18) (funext fun a => Fin.ext ?_)
  match a with
  | ⟨0, _⟩ => show win4_1.index t (0 : Fin 2) * 256 + 1 * (y 0).val = (y 0).val; omega
  | ⟨1, _⟩ => show win4_1.index t (1 : Fin 2) * 64 + 1 * (y 1).val = (y 1).val; omega

/-- Window 2's block is its whole table at every grid point: its block index is zero on both axes. -/
theorem blk2_eq (c : Dev nD) (t : Fin cfg4.N) : (iblk4 V c 2 t : Vec Ideal S1x64 .f32) = V c main_v63 := by
  obtain ⟨-, -, a10, a11, a20, a21, a30, a31, a40, a41, a50, a51, a60, a61, -, -⟩ := index_facts t
  funext y
  unfold iblk4
  rw [View.read_apply]
  show V c main_v63 (((cfg4.win 2).blk t).view.emb y) = V c main_v63 y
  refine congrArg (V c main_v63) (funext fun a => Fin.ext ?_)
  match a with
  | ⟨0, _⟩ => show win4_2.index t (0 : Fin 2) * 1 + 1 * (y 0).val = (y 0).val; omega
  | ⟨1, _⟩ => show win4_2.index t (1 : Fin 2) * 64 + 1 * (y 1).val = (y 1).val; omega

/-- Window 3's block is its whole table at every grid point: its block index is zero on both axes. -/
theorem blk3_eq (c : Dev nD) (t : Fin cfg4.N) : (iblk4 V c 3 t : Vec Ideal S64x16 .f32) = V c main_arg20 := by
  obtain ⟨-, -, a10, a11, a20, a21, a30, a31, a40, a41, a50, a51, a60, a61, -, -⟩ := index_facts t
  funext y
  unfold iblk4
  rw [View.read_apply]
  show V c main_arg20 (((cfg4.win 3).blk t).view.emb y) = V c main_arg20 y
  refine congrArg (V c main_arg20) (funext fun a => Fin.ext ?_)
  match a with
  | ⟨0, _⟩ => show win4_3.index t (0 : Fin 2) * 64 + 1 * (y 0).val = (y 0).val; omega
  | ⟨1, _⟩ => show win4_3.index t (1 : Fin 2) * 16 + 1 * (y 1).val = (y 1).val; omega

/-- Window 4's block is its whole table at every grid point: its block index is zero on both axes. -/
theorem blk4_eq (c : Dev nD) (t : Fin cfg4.N) : (iblk4 V c 4 t : Vec Ideal S1x16 .f32) = V c main_v64 := by
  obtain ⟨-, -, a10, a11, a20, a21, a30, a31, a40, a41, a50, a51, a60, a61, -, -⟩ := index_facts t
  funext y
  unfold iblk4
  rw [View.read_apply]
  show V c main_v64 (((cfg4.win 4).blk t).view.emb y) = V c main_v64 y
  refine congrArg (V c main_v64) (funext fun a => Fin.ext ?_)
  match a with
  | ⟨0, _⟩ => show win4_4.index t (0 : Fin 2) * 1 + 1 * (y 0).val = (y 0).val; omega
  | ⟨1, _⟩ => show win4_4.index t (1 : Fin 2) * 16 + 1 * (y 1).val = (y 1).val; omega

/-- Window 5's block is its whole table at every grid point: its block index is zero on both axes. -/
theorem blk5_eq (c : Dev nD) (t : Fin cfg4.N) : (iblk4 V c 5 t : Vec Ideal S16x1 .f32) = V c main_arg22 := by
  obtain ⟨-, -, a10, a11, a20, a21, a30, a31, a40, a41, a50, a51, a60, a61, -, -⟩ := index_facts t
  funext y
  unfold iblk4
  rw [View.read_apply]
  show V c main_arg22 (((cfg4.win 5).blk t).view.emb y) = V c main_arg22 y
  refine congrArg (V c main_arg22) (funext fun a => Fin.ext ?_)
  match a with
  | ⟨0, _⟩ => show win4_5.index t (0 : Fin 2) * 16 + 1 * (y 0).val = (y 0).val; omega
  | ⟨1, _⟩ => show win4_5.index t (1 : Fin 2) * 1 + 1 * (y 1).val = (y 1).val; omega

/-- Window 6's block is its whole table at every grid point: its block index is zero on both axes. -/
theorem blk6_eq (c : Dev nD) (t : Fin cfg4.N) : (iblk4 V c 6 t : Vec Ideal S1x1 .f32) = V c main_v65 := by
  obtain ⟨-, -, a10, a11, a20, a21, a30, a31, a40, a41, a50, a51, a60, a61, -, -⟩ := index_facts t
  funext y
  unfold iblk4
  rw [View.read_apply]
  show V c main_v65 (((cfg4.win 6).blk t).view.emb y) = V c main_v65 y
  refine congrArg (V c main_v65) (funext fun a => Fin.ext ?_)
  match a with
  | ⟨0, _⟩ => show win4_6.index t (0 : Fin 2) * 1 + 1 * (y 0).val = (y 0).val; omega
  | ⟨1, _⟩ => show win4_6.index t (1 : Fin 2) * 1 + 1 * (y 1).val = (y 1).val; omega

set_option maxHeartbeats 400000 in
/-- What grid point `t` writes back is tile `t` of the rating-head column of the tables as entered. -/
theorem flushed_eq (c : Dev nD) (t : Fin cfg4.N) :
    (dat4 (F := Ideal) V c).flushed 7 t = ((cfg4.win 7).blk t).view.read (Elt Ideal) (head (V c main_v62) (V c main_arg18) (V c main_v63) (V c main_arg20) (V c main_v64) (V c main_arg22) (V c main_v65)) := by
  show (cfg4.win 7).cut (grid4.coords t) ((dat4 V c).after 7 t) = _
  rw [after4_7]
  unfold out4_7
  rw [View.canon_unit_zero hz]
  simp only [View.ld_unit_zero (S := S8000x256) hz, View.ld_unit_zero (S := S256x64) hz, View.ld_unit_zero (S := S1x64) hz,
    View.ld_unit_zero (S := S64x16) hz, View.ld_unit_zero (S := S1x16) hz, View.ld_unit_zero (S := S16x1) hz, View.ld_unit_zero (S := S1x1) hz]
  funext j
  obtain ⟨p, q, rfl⟩ : ∃ (p : Fin 8000) (q : Fin 1), j = ix2 p q := ⟨j 0, j 1, eq_ix2 j⟩
  obtain rfl : q = 0 := Subsingleton.elim q 0
  rw [View.read_apply]
  show k4_pay1 (F := Ideal) (iblk4 V c 0 t) (iblk4 V c 1 t) (iblk4 V c 2 t) (iblk4 V c 3 t) (iblk4 V c 4 t) (iblk4 V c 5 t) (iblk4 V c 6 t) (ix2 p (0 : Fin 1))
    = head (V c main_v62) (V c main_arg18) (V c main_v63) (V c main_arg20) (V c main_v64) (V c main_arg22) (V c main_v65) (((cfg4.win 7).blk t).view.emb (ix2 p (0 : Fin 1)))
  refine (PayHead.k4_pay1_apply (iblk4 V c 0 t) (iblk4 V c 1 t) (iblk4 V c 2 t) (iblk4 V c 3 t) (iblk4 V c 4 t) (iblk4 V c 5 t) (iblk4 V c 6 t) p).trans ?_
  have e0 := blk0_row V c t p ((((cfg4.win 7).blk t).view.emb (ix2 p (0 : Fin 1))) 0) (by
    show win4_7.index t (0 : Fin 2) * 8000 + 1 * p.val = win4_7.index t (0 : Fin 2) * 8000 + p.val; omega)
  rw [e0, blk1_eq V c t, blk2_eq V c t, blk3_eq V c t, blk4_eq V c t, blk5_eq V c t, blk6_eq V c t]
  rfl

/-- An index of the output column is in point `t`'s tile iff each coordinate is in the tile's range on its axis. -/
theorem mem_blk (t : Fin cfg4.N) (i : S1000000x1.Idx) :
    i ∈ ((cfg4.win 7).blk t).view.set ↔ ∀ a : Fin 2, win4_7.index t a * S8000x1.size a ≤ (i a).val ∧ (i a).val < win4_7.index t a * S8000x1.size a + S8000x1.size a := by
  show i ∈ ((View.whole main_v66).slice (win4_7.rect t)).set ↔ _
  rw [View.set_slice_whole, Rect.mem_set_unit]
  exact Iff.rfl

/-- The tiles cover the column: row `r` is in the tile of the grid point whose row-block index is `r / 8000`. -/
theorem cover (i : S1000000x1.Idx) :
    ∃ t : Fin cfg4.N, (cfg4.win 7).flush t = true ∧ i ∈ ((cfg4.win 7).blk t).view.set := by
  have hi0 : (i 0).val < 1000000 := (i 0).isLt
  have hi1 : (i 1).val < 1 := (i 1).isLt
  obtain ⟨t, ht⟩ := index_onto ⟨(i 0).val / 8000, by omega⟩
  have q0 : win4_7.index t (0 : Fin 2) = (i 0).val / 8000 := congrFun ht 0
  have q1 : win4_7.index t (1 : Fin 2) = 0 := congrFun ht 1
  refine ⟨t, flush4_7 t, ?_⟩
  rw [mem_blk]
  intro a
  match a with
  | ⟨0, _⟩ => show win4_7.index t (0 : Fin 2) * 8000 ≤ (i 0).val ∧ (i 0).val < win4_7.index t (0 : Fin 2) * 8000 + 8000; omega
  | ⟨1, _⟩ => show win4_7.index t (1 : Fin 2) * 1 ≤ (i 1).val ∧ (i 1).val < win4_7.index t (1 : Fin 2) * 1 + 1; omega

/-- After the region's last grid point its output column holds the rating head of its input tables as entered. -/
theorem arr (c : Dev nD) :
    (dat4 (F := Ideal) V c).arrAt 7 cfg4.N
      = head (V c main_v62) (V c main_arg18) (V c main_v63) (V c main_arg20) (V c main_v64) (V c main_arg22) (V c main_v65) := by
  exact (dat4 V c).arrAt_eq_of_cover 7 _ (fun t _ => flushed_eq V c t) (fun i => cover i)

end Cert.KernelIdeal.Reg4

end
-- ==== Proof.TakeEq.lean ====
/-
  Where every position word lies in the table, taking rows with a fill for out-of-range positions is the plain gather:
  a word that is not negative is not wrapped, the range test then holds on every row, and a selection on a mask that
  is one everywhere is its first branch.
-/
import proofs.«401341_j58531814310253_1_alg».proof.Proof.HostTerms
import Idealize.ShloMosaic.Lib.ValueIdx
import Idealize.ShloMosaic.Lib.ReduceAll
import Idealize.ShloMosaic.Lib.StableHlo.Predicate

noncomputable section

namespace Cert.HostTerms

open Idealize.ShloMosaic

variable {F : FTy → Type} [FloatOps F]

/-- A word that is at least b as a signed word is not below b: the two compares are each other's negation. -/
private theorem slt_eq_zero_of_sge {w : Nat} (a b : BitVec w) (h : IntOp.cmpi .sge a b = 1#1) :
    IntOp.cmpi .slt a b = 0#1 := by
  apply ValueIdx.eq_zero_of_ne_one
  intro hc
  unfold IntOp.cmpi at h hc
  rw [StableHlo.Predicate.ofBool_eq_one_iff] at h hc
  simp only [BitVec.sle, BitVec.slt, decide_eq_true_eq] at h hc
  omega

/-- A left fold by the bitwise and, from one, over words that are all one is one. -/
private theorem foldl_andi_all_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_all_one f hf l

/-- An all-true test of a mask that is one everywhere is one at every result index. -/
private theorem reduce_andi_of_all_one {s t u : Shape} {axes : List (Fin s.rank)} (x : s.Idx → BitVec 1)
    (hx : ∀ i, x i = 1#1) (h : s.ReducesTo axes t) (hu : 0 < u.numel) (j : t.Idx) :
    Host.reduce IntOp.andi x (constantI u 1 1#1) h hu j = 1#1 := by
  rw [Host.reduce_eq_foldl]
  exact foldl_andi_all_one x hx _

/-- In range, the wrap keeps every word. -/
theorem wrapIdx_of_inRange {n : Nat} (hb : S0.BroadcastsInDim ⟨1, ![n]⟩ (![] : Fin 0 → Fin 1)) (len last : BitVec 32)
    (idx : IVec ⟨1, ![n]⟩ 32) (h : InRange hb last idx) : wrapIdx hb len idx = idx := by
  funext i
  unfold wrapIdx
  rw [ValueIdx.select_apply]
  have hz : cmpi .slt idx (broadcastInDim ⟨1, ![n]⟩ ![] hb (constantI S0 32 0#32)) i = 0#1 :=
    slt_eq_zero_of_sge _ _ (h.1 i)
  rw [hz, ValueIdx.select_zero]

/-- In range, the rows taken with a fill are the gathered rows. -/
theorem takeFill_eq_gatherWrapped {N D n : Nat} (g : GatherDims ⟨2, ![N, D]⟩ ⟨2, ![n, 1]⟩ ⟨2, ![n, D]⟩)
    (hb : S0.BroadcastsInDim ⟨1, ![n]⟩ (![] : Fin 0 → Fin 1))
    (hcol : (⟨1, ![n]⟩ : Shape).BroadcastsInDim ⟨2, ![n, 1]⟩ ![0])
    (hb0 : S0.BroadcastsInDim ⟨2, ![n, 1]⟩ (![] : Fin 0 → Fin 2))
    (h11 : (⟨1, ![1]⟩ : Shape).BroadcastsInDim ⟨2, ![1, 1]⟩ ![1])
    (h1n : (⟨2, ![1, 1]⟩ : Shape).BroadcastsInDim ⟨2, ![n, 1]⟩ ![0, 1])
    (hred : (⟨2, ![n, 1]⟩ : Shape).ReducesTo [1] ⟨1, ![n]⟩) (h0 : 0 < S0.numel)
    (hrow : (⟨1, ![n]⟩ : Shape).BroadcastsInDim ⟨2, ![n, D]⟩ ![0])
    (hfill : S0.BroadcastsInDim ⟨2, ![n, D]⟩ (![] : Fin 0 → Fin 2))
    (len last fill : BitVec 32) (x : FVec F ⟨2, ![N, D]⟩ .f32) (idx : IVec ⟨1, ![n]⟩ 32)
    (h : InRange hb last idx) :
    takeFill g hb hcol hb0 h11 h1n hred h0 hrow hfill len last fill x idx = gatherWrapped g hb hcol len x idx := by
  have hw : wrapIdx hb len idx = idx := wrapIdx_of_inRange hb len last idx h
  unfold takeFill gatherWrapped
  rw [hw]
  -- the range test on the column of (unwrapped) positions: both compares read one at every entry
  have hv : ∀ i : (⟨2, ![n, 1]⟩ : Shape).Idx,
      andi (cmpi .sge (broadcastInDim ⟨2, ![n, 1]⟩ ![0] hcol idx) (broadcastInDim ⟨2, ![n, 1]⟩ ![] hb0 (constantI S0 32 0#32)))
        (cmpi .sle (broadcastInDim ⟨2, ![n, 1]⟩ ![0] hcol idx)
          (broadcastInDim ⟨2, ![n, 1]⟩ ![0, 1] h1n (broadcastInDim ⟨2, ![1, 1]⟩ ![1] h11 (constantI ⟨1, ![1]⟩ 32 last)))) i = 1#1 :=
    fun i => IntOp.andi_eq_one.2 ⟨h.1 _, h.2 _⟩
  funext j
  rw [ValueIdx.select_apply]
  have hm : broadcastInDim ⟨2, ![n, D]⟩ ![0] hrow
      (Host.reduce IntOp.andi
        (andi (cmpi .sge (broadcastInDim ⟨2, ![n, 1]⟩ ![0] hcol idx) (broadcastInDim ⟨2, ![n, 1]⟩ ![] hb0 (constantI S0 32 0#32)))
          (cmpi .sle (broadcastInDim ⟨2, ![n, 1]⟩ ![0] hcol idx)
            (broadcastInDim ⟨2, ![n, 1]⟩ ![0, 1] h1n (broadcastInDim ⟨2, ![1, 1]⟩ ![1] h11 (constantI ⟨1, ![1]⟩ 32 last)))))
        (constantI S0 1 1#1) hred h0) j = 1#1 :=
    reduce_andi_of_all_one _ hv hred h0 _
  rw [hm, ValueIdx.select_one]

end Cert.HostTerms

end
-- ==== Proof.RefComb.lean ====
/-
  The reference's four SAGE layers and its rating head, each as the whole-table function of its inputs: the host's
  two matrix products are the plain sums at the extended reals, the bias is laid along the rows, and the head's
  logistic is spelt as one over one plus the exponential of the negated logit, which is the logistic function there.
-/
import proofs.«401341_j58531814310253_1_alg».proof.Proof.Gen.ReferenceIdeal.Read
import proofs.«401341_j58531814310253_1_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.ReferenceIdeal.RefComb

open Idealize.ShloMosaic Idealize.ShloMosaic.ValueIdx
open Cert.ReferenceIdeal Cert.ReferenceIdeal.Gen Cert.ReferenceIdeal.Read Cert.Spec

/-- Layer 1, movie side. -/
theorem m1_eq (x0 : (⟨S100000x24, .f32⟩ : BufTy).Contents (Elt Ideal)) (x1 : (⟨S20000x18, .f32⟩ : BufTy).Contents (Elt Ideal)) (x2 : (⟨S2000000, .i32⟩ : BufTy).Contents (Elt Ideal)) (x3 : (⟨S2000000, .i32⟩ : BufTy).Contents (Elt Ideal)) (x6 : (⟨S24x128, .f32⟩ : BufTy).Contents (Elt Ideal)) (x7 : (⟨S128, .f32⟩ : BufTy).Contents (Elt Ideal)) (x8 : (⟨S18x128, .f32⟩ : BufTy).Contents (Elt Ideal)) :
    val_main_v24 (F := Ideal) x0 x1 x2 x3 x6 x7 x8
      = combine (val_main_v18 (F := Ideal) x0 x2 x3) x1 x6 (rowOf x7) x8 := by
  funext i
  obtain ⟨p, q, rfl⟩ : ∃ (p : Fin 20000) (q : Fin 128), i = ix2 p q := ⟨i 0, i 1, eq_ix2 i⟩
  rw [val_main_v24_apply, val_main_v22_apply, val_main_v19_apply, val_main_v21_apply, val_main_v20_apply, val_main_v23_apply]
  generalize val_main_v18 (F := Ideal) x0 x2 x3 = y0
  have e1 : ∀ k : Fin 24, lidx_main_v19 (ix2 p q) k = ix2 p k := fun k => funext fun a => Fin.ext (by match a with | ⟨0, _⟩ => rfl | ⟨1, _⟩ => rfl)
  have e2 : ∀ k : Fin 24, ridx_main_v19 (ix2 p q) k = ix2 k q := fun k => funext fun a => Fin.ext (by match a with | ⟨0, _⟩ => rfl | ⟨1, _⟩ => rfl)
  have e3 : ∀ k : Fin 18, lidx_main_v23 (ix2 p q) k = ix2 p k := fun k => funext fun a => Fin.ext (by match a with | ⟨0, _⟩ => rfl | ⟨1, _⟩ => rfl)
  have e4 : ∀ k : Fin 18, ridx_main_v23 (ix2 p q) k = ix2 k q := fun k => funext fun a => Fin.ext (by match a with | ⟨0, _⟩ => rfl | ⟨1, _⟩ => rfl)
  have e5 : idx_main_v20 (idx_main_v21 (ix2 p q)) = ix1 q := funext fun a => Fin.ext (by match a with | ⟨0, _⟩ => rfl)
  simp only [e1, e2, e3, e4, e5, Ideal.addf_def]
  rfl

/-- Layer 1, user side. -/
theorem u1_eq (x0 : (⟨S100000x24, .f32⟩ : BufTy).Contents (Elt Ideal)) (x1 : (⟨S20000x18, .f32⟩ : BufTy).Contents (Elt Ideal)) (x2 : (⟨S2000000, .i32⟩ : BufTy).Contents (Elt Ideal)) (x3 : (⟨S2000000, .i32⟩ : BufTy).Contents (Elt Ideal)) (x9 : (⟨S18x128, .f32⟩ : BufTy).Contents (Elt Ideal)) (x10 : (⟨S128, .f32⟩ : BufTy).Contents (Elt Ideal)) (x11 : (⟨S24x128, .f32⟩ : BufTy).Contents (Elt Ideal)) :
    val_main_v49 (F := Ideal) x0 x1 x2 x3 x9 x10 x11
      = combine (val_main_v43 (F := Ideal) x1 x2 x3) x0 x9 (rowOf x10) x11 := by
  funext i
  obtain ⟨p, q, rfl⟩ : ∃ (p : Fin 100000) (q : Fin 128), i = ix2 p q := ⟨i 0, i 1, eq_ix2 i⟩
  rw [val_main_v49_apply, val_main_v47_apply, val_main_v44_apply, val_main_v46_apply, val_main_v45_apply, val_main_v48_apply]
  generalize val_main_v43 (F := Ideal) x1 x2 x3 = y0
  have e1 : ∀ k : Fin 18, lidx_main_v44 (ix2 p q) k = ix2 p k := fun k => funext fun a => Fin.ext (by match a with | ⟨0, _⟩ => rfl | ⟨1, _⟩ => rfl)
  have e2 : ∀ k : Fin 18, ridx_main_v44 (ix2 p q) k = ix2 k q := fun k => funext fun a => Fin.ext (by match a with | ⟨0, _⟩ => rfl | ⟨1, _⟩ => rfl)
  have e3 : ∀ k : Fin 24, lidx_main_v48 (ix2 p q) k = ix2 p k := fun k => funext fun a => Fin.ext (by match a with | ⟨0, _⟩ => rfl | ⟨1, _⟩ => rfl)
  have e4 : ∀ k : Fin 24, ridx_main_v48 (ix2 p q) k = ix2 k q := fun k => funext fun a => Fin.ext (by match a with | ⟨0, _⟩ => rfl | ⟨1, _⟩ => rfl)
  have e5 : idx_main_v45 (idx_main_v46 (ix2 p q)) = ix1 q := funext fun a => Fin.ext (by match a with | ⟨0, _⟩ => rfl)
  simp only [e1, e2, e3, e4, e5, Ideal.addf_def]
  rfl

/-- Layer 2, movie side. -/
theorem m2_eq (x0 : (⟨S100000x24, .f32⟩ : BufTy).Contents (Elt Ideal)) (x1 : (⟨S20000x18, .f32⟩ : BufTy).Contents (Elt Ideal)) (x2 : (⟨S2000000, .i32⟩ : BufTy).Contents (Elt Ideal)) (x3 : (⟨S2000000, .i32⟩ : BufTy).Contents (Elt Ideal)) (x6 : (⟨S24x128, .f32⟩ : BufTy).Contents (Elt Ideal)) (x7 : (⟨S128, .f32⟩ : BufTy).Contents (Elt Ideal)) (x8 : (⟨S18x128, .f32⟩ : BufTy).Contents (Elt Ideal)) (x9 : (⟨S18x128, .f32⟩ : BufTy).Contents (Elt Ideal)) (x10 : (⟨S128, .f32⟩ : BufTy).Contents (Elt Ideal)) (x11 : (⟨S24x128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) :
    val_main_v74 (F := Ideal) x0 x1 x2 x3 x6 x7 x8 x9 x10 x11 x12 x13 x14
      = combine (val_main_v68 (F := Ideal) x0 x1 x2 x3 x9 x10 x11) (val_main_v24 (F := Ideal) x0 x1 x2 x3 x6 x7 x8) x12 (rowOf x13) x14 := by
  funext i
  obtain ⟨p, q, rfl⟩ : ∃ (p : Fin 20000) (q : Fin 128), i = ix2 p q := ⟨i 0, i 1, eq_ix2 i⟩
  rw [val_main_v74_apply, val_main_v72_apply, val_main_v69_apply, val_main_v71_apply, val_main_v70_apply, val_main_v73_apply]
  generalize val_main_v68 (F := Ideal) x0 x1 x2 x3 x9 x10 x11 = y0
  generalize val_main_v24 (F := Ideal) x0 x1 x2 x3 x6 x7 x8 = y1
  have e1 : ∀ k : Fin 128, lidx_main_v69 (ix2 p q) k = ix2 p k := fun k => funext fun a => Fin.ext (by match a with | ⟨0, _⟩ => rfl | ⟨1, _⟩ => rfl)
  have e2 : ∀ k : Fin 128, ridx_main_v69 (ix2 p q) k = ix2 k q := fun k => funext fun a => Fin.ext (by match a with | ⟨0, _⟩ => rfl | ⟨1, _⟩ => rfl)
  have e3 : ∀ k : Fin 128, lidx_main_v73 (ix2 p q) k = ix2 p k := fun k => funext fun a => Fin.ext (by match a with | ⟨0, _⟩ => rfl | ⟨1, _⟩ => rfl)
  have e4 : ∀ k : Fin 128, ridx_main_v73 (ix2 p q) k = ix2 k q := fun k => funext fun a => Fin.ext (by match a with | ⟨0, _⟩ => rfl | ⟨1, _⟩ => rfl)
  have e5 : idx_main_v70 (idx_main_v71 (ix2 p q)) = ix1 q := funext fun a => Fin.ext (by match a with | ⟨0, _⟩ => rfl)
  simp only [e1, e2, e3, e4, e5, Ideal.addf_def]
  rfl

/-- Layer 2, user side. -/
theorem u2_eq (x0 : (⟨S100000x24, .f32⟩ : BufTy).Contents (Elt Ideal)) (x1 : (⟨S20000x18, .f32⟩ : BufTy).Contents (Elt Ideal)) (x2 : (⟨S2000000, .i32⟩ : BufTy).Contents (Elt Ideal)) (x3 : (⟨S2000000, .i32⟩ : BufTy).Contents (Elt Ideal)) (x6 : (⟨S24x128, .f32⟩ : BufTy).Contents (Elt Ideal)) (x7 : (⟨S128, .f32⟩ : BufTy).Contents (Elt Ideal)) (x8 : (⟨S18x128, .f32⟩ : BufTy).Contents (Elt Ideal)) (x9 : (⟨S18x128, .f32⟩ : BufTy).Contents (Elt Ideal)) (x10 : (⟨S128, .f32⟩ : BufTy).Contents (Elt Ideal)) (x11 : (⟨S24x128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) :
    val_main_v99 (F := Ideal) x0 x1 x2 x3 x6 x7 x8 x9 x10 x11 x15 x16 x17
      = combine (val_main_v93 (F := Ideal) x0 x1 x2 x3 x6 x7 x8) (val_main_v49 (F := Ideal) x0 x1 x2 x3 x9 x10 x11) x15 (rowOf x16) x17 := by
  funext i
  obtain ⟨p, q, rfl⟩ : ∃ (p : Fin 100000) (q : Fin 128), i = ix2 p q := ⟨i 0, i 1, eq_ix2 i⟩
  rw [val_main_v99_apply, val_main_v97_apply, val_main_v94_apply, val_main_v96_apply, val_main_v95_apply, val_main_v98_apply]
  generalize val_main_v93 (F := Ideal) x0 x1 x2 x3 x6 x7 x8 = y0
  generalize val_main_v49 (F := Ideal) x0 x1 x2 x3 x9 x10 x11 = y1
  have e1 : ∀ k : Fin 128, lidx_main_v94 (ix2 p q) k = ix2 p k := fun k => funext fun a => Fin.ext (by match a with | ⟨0, _⟩ => rfl | ⟨1, _⟩ => rfl)
  have e2 : ∀ k : Fin 128, ridx_main_v94 (ix2 p q) k = ix2 k q := fun k => funext fun a => Fin.ext (by match a with | ⟨0, _⟩ => rfl | ⟨1, _⟩ => rfl)
  have e3 : ∀ k : Fin 128, lidx_main_v98 (ix2 p q) k = ix2 p k := fun k => funext fun a => Fin.ext (by match a with | ⟨0, _⟩ => rfl | ⟨1, _⟩ => rfl)
  have e4 : ∀ k : Fin 128, ridx_main_v98 (ix2 p q) k = ix2 k q := fun k => funext fun a => Fin.ext (by match a with | ⟨0, _⟩ => rfl | ⟨1, _⟩ => rfl)
  have e5 : idx_main_v95 (idx_main_v96 (ix2 p q)) = ix1 q := funext fun a => Fin.ext (by match a with | ⟨0, _⟩ => rfl)
  simp only [e1, e2, e3, e4, e5, Ideal.addf_def]
  rfl

/-- The float word for one is the extended real one: sign clear, biased exponent 127, empty fraction. -/
private theorem one_word : Ideal.ofBits .f32 0x3F800000#32 = 1 := by
  simp [Ideal.ofBits, Ideal.ieee]
  exact_mod_cast (show (8388608 : ℝ) * ((2 : ℝ) ^ 23)⁻¹ = 1 by norm_num)

/-- The head's first hidden layer at an edge and a unit: the affine layer of the edge's feature row, floored at zero. -/
private theorem hid1_apply (x0 : (⟨S100000x24, .f32⟩ : BufTy).Contents (Elt Ideal)) (x1 : (⟨S20000x18, .f32⟩ : BufTy).Contents (Elt Ideal)) (x2 : (⟨S2000000, .i32⟩ : BufTy).Contents (Elt Ideal)) (x3 : (⟨S2000000, .i32⟩ : BufTy).Contents (Elt Ideal)) (x4 : (⟨S1000000, .i32⟩ : BufTy).Contents (Elt Ideal)) (x5 : (⟨S1000000, .i32⟩ : BufTy).Contents (Elt Ideal)) (x6 : (⟨S24x128, .f32⟩ : BufTy).Contents (Elt Ideal)) (x7 : (⟨S128, .f32⟩ : BufTy).Contents (Elt Ideal)) (x8 : (⟨S18x128, .f32⟩ : BufTy).Contents (Elt Ideal)) (x9 : (⟨S18x128, .f32⟩ : BufTy).Contents (Elt Ideal)) (x10 : (⟨S128, .f32⟩ : BufTy).Contents (Elt Ideal)) (x11 : (⟨S24x128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S256x64, .f32⟩ : BufTy).Contents (Elt Ideal)) (x19 : (⟨S64, .f32⟩ : BufTy).Contents (Elt Ideal)) (p : Fin 1000000) (k : Fin 64) :
    val_main_v119 (F := Ideal) x0 x1 x2 x3 x4 x5 x6 x7 x8 x9 x10 x11 x12 x13 x14 x15 x16 x17 x18 x19 (ix2 p k)
      = max (affRow (rowAt (val_main_v114 (F := Ideal) x0 x1 x2 x3 x4 x5 x6 x7 x8 x9 x10 x11 x12 x13 x14 x15 x16 x17) p) x18 (rowOf x19) k) zeroW := by
  rw [val_main_v119_apply, val_main_v118_apply, val_main_v115_apply, val_main_v117_apply, val_main_v116_apply, val_main_call0_v0_apply, val_main_call0_cst_apply]
  generalize val_main_v114 (F := Ideal) x0 x1 x2 x3 x4 x5 x6 x7 x8 x9 x10 x11 x12 x13 x14 x15 x16 x17 = y
  have e1 : ∀ j : Fin 256, lidx_main_v115 (ix2 p k) j = ix2 p j := fun j => funext fun a => Fin.ext (by match a with | ⟨0, _⟩ => rfl | ⟨1, _⟩ => rfl)
  have e2 : ∀ j : Fin 256, ridx_main_v115 (ix2 p k) j = ix2 j k := fun j => funext fun a => Fin.ext (by match a with | ⟨0, _⟩ => rfl | ⟨1, _⟩ => rfl)
  have e3 : idx_main_v116 (idx_main_v117 (ix2 p k)) = ix1 k := funext fun a => Fin.ext (by match a with | ⟨0, _⟩ => rfl)
  simp only [e1, e2, e3, Ideal.addf_def, Ideal.maximumf_def, Ideal.ofBits_def]
  rfl

/-- The head's second hidden layer at an edge and a unit, over the first. -/
private theorem hid2_apply (x0 : (⟨S100000x24, .f32⟩ : BufTy).Contents (Elt Ideal)) (x1 : (⟨S20000x18, .f32⟩ : BufTy).Contents (Elt Ideal)) (x2 : (⟨S2000000, .i32⟩ : BufTy).Contents (Elt Ideal)) (x3 : (⟨S2000000, .i32⟩ : BufTy).Contents (Elt Ideal)) (x4 : (⟨S1000000, .i32⟩ : BufTy).Contents (Elt Ideal)) (x5 : (⟨S1000000, .i32⟩ : BufTy).Contents (Elt Ideal)) (x6 : (⟨S24x128, .f32⟩ : BufTy).Contents (Elt Ideal)) (x7 : (⟨S128, .f32⟩ : BufTy).Contents (Elt Ideal)) (x8 : (⟨S18x128, .f32⟩ : BufTy).Contents (Elt Ideal)) (x9 : (⟨S18x128, .f32⟩ : BufTy).Contents (Elt Ideal)) (x10 : (⟨S128, .f32⟩ : BufTy).Contents (Elt Ideal)) (x11 : (⟨S24x128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S256x64, .f32⟩ : BufTy).Contents (Elt Ideal)) (x19 : (⟨S64, .f32⟩ : BufTy).Contents (Elt Ideal)) (x20 : (⟨S64x16, .f32⟩ : BufTy).Contents (Elt Ideal)) (x21 : (⟨S16, .f32⟩ : BufTy).Contents (Elt Ideal)) (p : Fin 1000000) (k : Fin 16) :
    val_main_v124 (F := Ideal) x0 x1 x2 x3 x4 x5 x6 x7 x8 x9 x10 x11 x12 x13 x14 x15 x16 x17 x18 x19 x20 x21 (ix2 p k)
      = max (affRow (fun j : Fin 64 => max (affRow (rowAt (val_main_v114 (F := Ideal) x0 x1 x2 x3 x4 x5 x6 x7 x8 x9 x10 x11 x12 x13 x14 x15 x16 x17) p) x18 (rowOf x19) j) zeroW) x20 (rowOf x21) k) zeroW := by
  rw [val_main_v124_apply, val_main_v123_apply, val_main_v120_apply, val_main_v122_apply, val_main_v121_apply, val_main_call1_v0_apply, val_main_call1_cst_apply]
  have e1 : ∀ j : Fin 64, lidx_main_v120 (ix2 p k) j = ix2 p j := fun j => funext fun a => Fin.ext (by match a with | ⟨0, _⟩ => rfl | ⟨1, _⟩ => rfl)
  have e2 : ∀ j : Fin 64, ridx_main_v120 (ix2 p k) j = ix2 j k := fun j => funext fun a => Fin.ext (by match a with | ⟨0, _⟩ => rfl | ⟨1, _⟩ => rfl)
  have e3 : idx_main_v121 (idx_main_v122 (ix2 p k)) = ix1 k := funext fun a => Fin.ext (by match a with | ⟨0, _⟩ => rfl)
  simp only [e1, e2, e3, hid1_apply, Ideal.addf_def, Ideal.maximumf_def, Ideal.ofBits_def]
  rfl

/-- The rating head. -/
theorem out_eq (x0 : (⟨S100000x24, .f32⟩ : BufTy).Contents (Elt Ideal)) (x1 : (⟨S20000x18, .f32⟩ : BufTy).Contents (Elt Ideal)) (x2 : (⟨S2000000, .i32⟩ : BufTy).Contents (Elt Ideal)) (x3 : (⟨S2000000, .i32⟩ : BufTy).Contents (Elt Ideal)) (x4 : (⟨S1000000, .i32⟩ : BufTy).Contents (Elt Ideal)) (x5 : (⟨S1000000, .i32⟩ : BufTy).Contents (Elt Ideal)) (x6 : (⟨S24x128, .f32⟩ : BufTy).Contents (Elt Ideal)) (x7 : (⟨S128, .f32⟩ : BufTy).Contents (Elt Ideal)) (x8 : (⟨S18x128, .f32⟩ : BufTy).Contents (Elt Ideal)) (x9 : (⟨S18x128, .f32⟩ : BufTy).Contents (Elt Ideal)) (x10 : (⟨S128, .f32⟩ : BufTy).Contents (Elt Ideal)) (x11 : (⟨S24x128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S256x64, .f32⟩ : BufTy).Contents (Elt Ideal)) (x19 : (⟨S64, .f32⟩ : BufTy).Contents (Elt Ideal)) (x20 : (⟨S64x16, .f32⟩ : BufTy).Contents (Elt Ideal)) (x21 : (⟨S16, .f32⟩ : BufTy).Contents (Elt Ideal)) (x22 : (⟨S16x1, .f32⟩ : BufTy).Contents (Elt Ideal)) (x23 : (⟨S1, .f32⟩ : BufTy).Contents (Elt Ideal)) :
    val_main_v136 (F := Ideal) x0 x1 x2 x3 x4 x5 x6 x7 x8 x9 x10 x11 x12 x13 x14 x15 x16 x17 x18 x19 x20 x21 x22 x23
      = head (val_main_v114 (F := Ideal) x0 x1 x2 x3 x4 x5 x6 x7 x8 x9 x10 x11 x12 x13 x14 x15 x16 x17) x18 (rowOf x19) x20 (rowOf x21) x22 (rowOf x23) := by
  funext i
  obtain ⟨p, q, rfl⟩ : ∃ (p : Fin 1000000) (q : Fin 1), i = ix2 p q := ⟨i 0, i 1, eq_ix2 i⟩
  obtain rfl : q = 0 := Subsingleton.elim _ _
  rw [val_main_v136_apply, val_main_v134_apply, val_main_v133_apply, val_main_cst_27_apply, val_main_v132_apply, val_main_v131_apply, val_main_cst_26_apply, val_main_v130_apply, val_main_v129_apply, val_main_v128_apply, val_main_v125_apply, val_main_v127_apply, val_main_v126_apply, val_main_v135_apply, val_main_cst_28_apply]
  have e1 : ∀ j : Fin 16, lidx_main_v125 (ix2 p (0 : Fin 1)) j = ix2 p j := fun j => funext fun a => Fin.ext (by match a with | ⟨0, _⟩ => rfl | ⟨1, _⟩ => rfl)
  have e2 : ∀ j : Fin 16, ridx_main_v125 (ix2 p (0 : Fin 1)) j = ix2 j (0 : Fin 1) := fun j => funext fun a => Fin.ext (by match a with | ⟨0, _⟩ => rfl | ⟨1, _⟩ => rfl)
  have e3 : idx_main_v126 (idx_main_v127 (ix2 p (0 : Fin 1))) = ix1 (0 : Fin 1) := funext fun a => Fin.ext (by match a with | ⟨0, _⟩ => rfl)
  simp only [e1, e2, e3, hid2_apply, Ideal.addf_def, Ideal.mulf_def, Ideal.hostDivf_def, Ideal.hostNegf_def, Ideal.negf_def, Ideal.hostUnary_exp_def, Ideal.ofBits_def, one_word]
  rfl

end Cert.ReferenceIdeal.RefComb

end
-- ==== Proof.RefTerms.lean ====
/-
  The reference's host chains are the shared host functions: its four neighbour means are `meanAgg` of rows gathered
  at wrapped positions, its label-edge features the two gathered layer-2 tables side by side, and its result the
  head's column read as a vector. The two programs print the same operations with their own copies of the shape and
  dimension records; the copies are equal field by field, so each identity holds by unfolding.
-/
import proofs.«401341_j58531814310253_1_alg».proof.KernelIdeal
import proofs.«401341_j58531814310253_1_alg».proof.Proof.Gen.KernelIdeal
import proofs.«401341_j58531814310253_1_alg».proof.Proof.Gen.ReferenceIdeal.Read
import proofs.«401341_j58531814310253_1_alg».proof.Proof.HostTerms

noncomputable section

namespace Cert.RefTerms

open Idealize.ShloMosaic Cert.HostTerms
open Cert.ReferenceIdeal.Read (val_main_v18 val_main_v24 val_main_v43 val_main_v49 val_main_v68 val_main_v74 val_main_v93 val_main_v99 val_main_v114 val_main_v136 val_main_v137)

variable {F : FTy → Type} [FloatOps F]

set_option maxHeartbeats 400000 in
/-- Layer 1: the mean of the user features over each movie's message edges. -/
theorem aggM1 (x0 : (⟨Cert.ReferenceIdeal.S100000x24, .f32⟩ : BufTy).Contents (Elt F)) (x2 : (⟨Cert.ReferenceIdeal.S2000000, .i32⟩ : BufTy).Contents (Elt F)) (x3 : (⟨Cert.ReferenceIdeal.S2000000, .i32⟩ : BufTy).Contents (Elt F)) :
    val_main_v18 (F := F) x0 x2 x3
      = meanAgg Cert.KernelIdeal.scatter_S20000x24_S2000000x1_S2000000x24_1_0_0_1 Cert.KernelIdeal.scatter_S20000_S2000000x1_S2000000_n_0_0_1
          Cert.KernelIdeal.Gen.bcast_S_S20000x24 Cert.KernelIdeal.Gen.bcast_S2000000_S2000000x1_0 Cert.KernelIdeal.Gen.bcast_S_S2000000 Cert.KernelIdeal.Gen.bcast_S_S20000 Cert.KernelIdeal.Gen.bcast_S20000_S20000x1_0 Cert.KernelIdeal.Gen.bcast_S20000x1_S20000x24_0_1
          (gatherWrapped Cert.KernelIdeal.gather_S100000x24_S2000000x1_S2000000x24_1_0_n_n_0_1_124 Cert.KernelIdeal.Gen.bcast_S_S2000000 Cert.KernelIdeal.Gen.bcast_S2000000_S2000000x1_0 100000#32 x0 x2) x3 := rfl

set_option maxHeartbeats 400000 in
/-- Layer 1: the mean of the movie features over each user's message edges. -/
theorem aggU1 (x1 : (⟨Cert.ReferenceIdeal.S20000x18, .f32⟩ : BufTy).Contents (Elt F)) (x2 : (⟨Cert.ReferenceIdeal.S2000000, .i32⟩ : BufTy).Contents (Elt F)) (x3 : (⟨Cert.ReferenceIdeal.S2000000, .i32⟩ : BufTy).Contents (Elt F)) :
    val_main_v43 (F := F) x1 x2 x3
      = meanAgg Cert.KernelIdeal.scatter_S100000x18_S2000000x1_S2000000x18_1_0_0_1 Cert.KernelIdeal.scatter_S100000_S2000000x1_S2000000_n_0_0_1
          Cert.KernelIdeal.Gen.bcast_S_S100000x18 Cert.KernelIdeal.Gen.bcast_S2000000_S2000000x1_0 Cert.KernelIdeal.Gen.bcast_S_S2000000 Cert.KernelIdeal.Gen.bcast_S_S100000 Cert.KernelIdeal.Gen.bcast_S100000_S100000x1_0 Cert.KernelIdeal.Gen.bcast_S100000x1_S100000x18_0_1
          (gatherWrapped Cert.KernelIdeal.gather_S20000x18_S2000000x1_S2000000x18_1_0_n_n_0_1_118 Cert.KernelIdeal.Gen.bcast_S_S2000000 Cert.KernelIdeal.Gen.bcast_S2000000_S2000000x1_0 20000#32 x1 x3) x2 := rfl

set_option maxHeartbeats 400000 in
/-- Layer 2: the mean of the layer-1 user table over each movie's message edges. -/
theorem aggM2 (x0 : (⟨Cert.ReferenceIdeal.S100000x24, .f32⟩ : BufTy).Contents (Elt F)) (x1 : (⟨Cert.ReferenceIdeal.S20000x18, .f32⟩ : BufTy).Contents (Elt F)) (x2 : (⟨Cert.ReferenceIdeal.S2000000, .i32⟩ : BufTy).Contents (Elt F)) (x3 : (⟨Cert.ReferenceIdeal.S2000000, .i32⟩ : BufTy).Contents (Elt F)) (x9 : (⟨Cert.ReferenceIdeal.S18x128, .f32⟩ : BufTy).Contents (Elt F)) (x10 : (⟨Cert.ReferenceIdeal.S128, .f32⟩ : BufTy).Contents (Elt F)) (x11 : (⟨Cert.ReferenceIdeal.S24x128, .f32⟩ : BufTy).Contents (Elt F)) :
    val_main_v68 (F := F) x0 x1 x2 x3 x9 x10 x11
      = meanAgg Cert.KernelIdeal.scatter_S20000x128_S2000000x1_S2000000x128_1_0_0_1 Cert.KernelIdeal.scatter_S20000_S2000000x1_S2000000_n_0_0_1
          Cert.KernelIdeal.Gen.bcast_S_S20000x128 Cert.KernelIdeal.Gen.bcast_S2000000_S2000000x1_0 Cert.KernelIdeal.Gen.bcast_S_S2000000 Cert.KernelIdeal.Gen.bcast_S_S20000 Cert.KernelIdeal.Gen.bcast_S20000_S20000x1_0 Cert.KernelIdeal.Gen.bcast_S20000x1_S20000x128_0_1
          (gatherWrapped Cert.KernelIdeal.gather_S100000x128_S2000000x1_S2000000x128_1_0_n_n_0_1_1128 Cert.KernelIdeal.Gen.bcast_S_S2000000 Cert.KernelIdeal.Gen.bcast_S2000000_S2000000x1_0 100000#32 (val_main_v49 (F := F) x0 x1 x2 x3 x9 x10 x11) x2) x3 := rfl

set_option maxHeartbeats 400000 in
/-- Layer 2: the mean of the layer-1 movie table over each user's message edges. -/
theorem aggU2 (x0 : (⟨Cert.ReferenceIdeal.S100000x24, .f32⟩ : BufTy).Contents (Elt F)) (x1 : (⟨Cert.ReferenceIdeal.S20000x18, .f32⟩ : BufTy).Contents (Elt F)) (x2 : (⟨Cert.ReferenceIdeal.S2000000, .i32⟩ : BufTy).Contents (Elt F)) (x3 : (⟨Cert.ReferenceIdeal.S2000000, .i32⟩ : BufTy).Contents (Elt F)) (x6 : (⟨Cert.ReferenceIdeal.S24x128, .f32⟩ : BufTy).Contents (Elt F)) (x7 : (⟨Cert.ReferenceIdeal.S128, .f32⟩ : BufTy).Contents (Elt F)) (x8 : (⟨Cert.ReferenceIdeal.S18x128, .f32⟩ : BufTy).Contents (Elt F)) :
    val_main_v93 (F := F) x0 x1 x2 x3 x6 x7 x8
      = meanAgg Cert.KernelIdeal.scatter_S100000x128_S2000000x1_S2000000x128_1_0_0_1 Cert.KernelIdeal.scatter_S100000_S2000000x1_S2000000_n_0_0_1
          Cert.KernelIdeal.Gen.bcast_S_S100000x128 Cert.KernelIdeal.Gen.bcast_S2000000_S2000000x1_0 Cert.KernelIdeal.Gen.bcast_S_S2000000 Cert.KernelIdeal.Gen.bcast_S_S100000 Cert.KernelIdeal.Gen.bcast_S100000_S100000x1_0 Cert.KernelIdeal.Gen.bcast_S100000x1_S100000x128_0_1
          (gatherWrapped Cert.KernelIdeal.gather_S20000x128_S2000000x1_S2000000x128_1_0_n_n_0_1_1128 Cert.KernelIdeal.Gen.bcast_S_S2000000 Cert.KernelIdeal.Gen.bcast_S2000000_S2000000x1_0 20000#32 (val_main_v24 (F := F) x0 x1 x2 x3 x6 x7 x8) x3) x2 := rfl

set_option maxHeartbeats 400000 in
/-- The label edges' feature rows: the layer-2 user and movie tables gathered at the edges' endpoints, side by side. -/
theorem feat (x0 : (⟨Cert.ReferenceIdeal.S100000x24, .f32⟩ : BufTy).Contents (Elt F)) (x1 : (⟨Cert.ReferenceIdeal.S20000x18, .f32⟩ : BufTy).Contents (Elt F)) (x2 : (⟨Cert.ReferenceIdeal.S2000000, .i32⟩ : BufTy).Contents (Elt F)) (x3 : (⟨Cert.ReferenceIdeal.S2000000, .i32⟩ : BufTy).Contents (Elt F)) (x4 : (⟨Cert.ReferenceIdeal.S1000000, .i32⟩ : BufTy).Contents (Elt F)) (x5 : (⟨Cert.ReferenceIdeal.S1000000, .i32⟩ : BufTy).Contents (Elt F)) (x6 : (⟨Cert.ReferenceIdeal.S24x128, .f32⟩ : BufTy).Contents (Elt F)) (x7 : (⟨Cert.ReferenceIdeal.S128, .f32⟩ : BufTy).Contents (Elt F)) (x8 : (⟨Cert.ReferenceIdeal.S18x128, .f32⟩ : BufTy).Contents (Elt F)) (x9 : (⟨Cert.ReferenceIdeal.S18x128, .f32⟩ : BufTy).Contents (Elt F)) (x10 : (⟨Cert.ReferenceIdeal.S128, .f32⟩ : BufTy).Contents (Elt F)) (x11 : (⟨Cert.ReferenceIdeal.S24x128, .f32⟩ : BufTy).Contents (Elt F)) (x12 : (⟨Cert.ReferenceIdeal.S128x128, .f32⟩ : BufTy).Contents (Elt F)) (x13 : (⟨Cert.ReferenceIdeal.S128, .f32⟩ : BufTy).Contents (Elt F)) (x14 : (⟨Cert.ReferenceIdeal.S128x128, .f32⟩ : BufTy).Contents (Elt F)) (x15 : (⟨Cert.ReferenceIdeal.S128x128, .f32⟩ : BufTy).Contents (Elt F)) (x16 : (⟨Cert.ReferenceIdeal.S128, .f32⟩ : BufTy).Contents (Elt F)) (x17 : (⟨Cert.ReferenceIdeal.S128x128, .f32⟩ : BufTy).Contents (Elt F)) :
    val_main_v114 (F := F) x0 x1 x2 x3 x4 x5 x6 x7 x8 x9 x10 x11 x12 x13 x14 x15 x16 x17
      = concatenate Cert.KernelIdeal.S1000000x256 1 [⟨Cert.KernelIdeal.S1000000x128, (gatherWrapped Cert.KernelIdeal.gather_S100000x128_S1000000x1_S1000000x128_1_0_n_n_0_1_1128 Cert.KernelIdeal.Gen.bcast_S_S1000000 Cert.KernelIdeal.Gen.bcast_S1000000_S1000000x1_0 100000#32 (val_main_v99 (F := F) x0 x1 x2 x3 x6 x7 x8 x9 x10 x11 x15 x16 x17) x4)⟩,
          ⟨Cert.KernelIdeal.S1000000x128, (gatherWrapped Cert.KernelIdeal.gather_S20000x128_S1000000x1_S1000000x128_1_0_n_n_0_1_1128 Cert.KernelIdeal.Gen.bcast_S_S1000000 Cert.KernelIdeal.Gen.bcast_S1000000_S1000000x1_0 20000#32 (val_main_v74 (F := F) x0 x1 x2 x3 x6 x7 x8 x9 x10 x11 x12 x13 x14) x5)⟩] Cert.KernelIdeal.Gen.concatenates_S1000000x128_S1000000x128_S1000000x256_d1 := rfl

set_option maxHeartbeats 400000 in
/-- The result: the head's column read as a vector. -/
theorem out (x0 : (⟨Cert.ReferenceIdeal.S100000x24, .f32⟩ : BufTy).Contents (Elt F)) (x1 : (⟨Cert.ReferenceIdeal.S20000x18, .f32⟩ : BufTy).Contents (Elt F)) (x2 : (⟨Cert.ReferenceIdeal.S2000000, .i32⟩ : BufTy).Contents (Elt F)) (x3 : (⟨Cert.ReferenceIdeal.S2000000, .i32⟩ : BufTy).Contents (Elt F)) (x4 : (⟨Cert.ReferenceIdeal.S1000000, .i32⟩ : BufTy).Contents (Elt F)) (x5 : (⟨Cert.ReferenceIdeal.S1000000, .i32⟩ : BufTy).Contents (Elt F)) (x6 : (⟨Cert.ReferenceIdeal.S24x128, .f32⟩ : BufTy).Contents (Elt F)) (x7 : (⟨Cert.ReferenceIdeal.S128, .f32⟩ : BufTy).Contents (Elt F)) (x8 : (⟨Cert.ReferenceIdeal.S18x128, .f32⟩ : BufTy).Contents (Elt F)) (x9 : (⟨Cert.ReferenceIdeal.S18x128, .f32⟩ : BufTy).Contents (Elt F)) (x10 : (⟨Cert.ReferenceIdeal.S128, .f32⟩ : BufTy).Contents (Elt F)) (x11 : (⟨Cert.ReferenceIdeal.S24x128, .f32⟩ : BufTy).Contents (Elt F)) (x12 : (⟨Cert.ReferenceIdeal.S128x128, .f32⟩ : BufTy).Contents (Elt F)) (x13 : (⟨Cert.ReferenceIdeal.S128, .f32⟩ : BufTy).Contents (Elt F)) (x14 : (⟨Cert.ReferenceIdeal.S128x128, .f32⟩ : BufTy).Contents (Elt F)) (x15 : (⟨Cert.ReferenceIdeal.S128x128, .f32⟩ : BufTy).Contents (Elt F)) (x16 : (⟨Cert.ReferenceIdeal.S128, .f32⟩ : BufTy).Contents (Elt F)) (x17 : (⟨Cert.ReferenceIdeal.S128x128, .f32⟩ : BufTy).Contents (Elt F)) (x18 : (⟨Cert.ReferenceIdeal.S256x64, .f32⟩ : BufTy).Contents (Elt F)) (x19 : (⟨Cert.ReferenceIdeal.S64, .f32⟩ : BufTy).Contents (Elt F)) (x20 : (⟨Cert.ReferenceIdeal.S64x16, .f32⟩ : BufTy).Contents (Elt F)) (x21 : (⟨Cert.ReferenceIdeal.S16, .f32⟩ : BufTy).Contents (Elt F)) (x22 : (⟨Cert.ReferenceIdeal.S16x1, .f32⟩ : BufTy).Contents (Elt F)) (x23 : (⟨Cert.ReferenceIdeal.S1, .f32⟩ : BufTy).Contents (Elt F)) :
    val_main_v137 (F := F) x0 x1 x2 x3 x4 x5 x6 x7 x8 x9 x10 x11 x12 x13 x14 x15 x16 x17 x18 x19 x20 x21 x22 x23
      = shapeCast Cert.KernelIdeal.S1000000 (val_main_v136 (F := F) x0 x1 x2 x3 x4 x5 x6 x7 x8 x9 x10 x11 x12 x13 x14 x15 x16 x17 x18 x19 x20 x21 x22 x23) Cert.KernelIdeal.Gen.shapeCasts_S1000000x1_S1000000 := rfl

end Cert.RefTerms

end
-- ==== Proof.Bridge.lean ====
/-
  The kernel's program computes the reference's stages, one after the other. At each boundary of the kernel's program the
  buffer that holds a stage's value is shown to hold the reference's function of the arguments: the neighbour means
  (where every index is in range the rows taken with a fill are the gathered rows), the four SAGE layers (each
  region's output table is the combine of the tables it was entered with, and so is the reference's stage), the
  label edges' features, and the rating head.
-/
import proofs.«401341_j58531814310253_1_alg».proof.Proof.KRun
import proofs.«401341_j58531814310253_1_alg».proof.Proof.Fold0
import proofs.«401341_j58531814310253_1_alg».proof.Proof.Fold1
import proofs.«401341_j58531814310253_1_alg».proof.Proof.Fold2
import proofs.«401341_j58531814310253_1_alg».proof.Proof.KeepArgs
import proofs.«401341_j58531814310253_1_alg».proof.Proof.Reg0
import proofs.«401341_j58531814310253_1_alg».proof.Proof.Reg1
import proofs.«401341_j58531814310253_1_alg».proof.Proof.Reg2
import proofs.«401341_j58531814310253_1_alg».proof.Proof.Reg3
import proofs.«401341_j58531814310253_1_alg».proof.Proof.Reg4
import proofs.«401341_j58531814310253_1_alg».proof.Proof.TakeEq
import proofs.«401341_j58531814310253_1_alg».proof.Proof.RefComb
import proofs.«401341_j58531814310253_1_alg».proof.Proof.RefTerms

set_option maxRecDepth 16384

noncomputable section

namespace Cert.Bridge

open Idealize.ShloMosaic Idealize.ShloMosaic.TcCoe Idealize.SL.Sem Idealize.ShloMosaic.StableHlo
open Cert.KernelIdeal Cert.KernelIdeal.Gen Cert.KernelIdeal.Keep Cert.HostTerms Cert.Spec
open Cert.ReferenceIdeal.Read (val_main_v18 val_main_v24 val_main_v43 val_main_v49 val_main_v68 val_main_v74 val_main_v93 val_main_v99 val_main_v114 val_main_v136 val_main_v137)

variable (m : (ℓ : Loc nD τ sig) → Buf (Elt Ideal) ℓ) (ρ : Dev nD → PrngReg) (c : Dev nD)

/-! ## The arguments at launch -/
abbrev A0 : (⟨Cert.ReferenceIdeal.S100000x24, .f32⟩ : BufTy).Contents (Elt Ideal) := m ((c : Thread nD τ).loc main_arg0)
abbrev A1 : (⟨Cert.ReferenceIdeal.S20000x18, .f32⟩ : BufTy).Contents (Elt Ideal) := m ((c : Thread nD τ).loc main_arg1)
abbrev A2 : (⟨Cert.ReferenceIdeal.S2000000, .i32⟩ : BufTy).Contents (Elt Ideal) := m ((c : Thread nD τ).loc main_arg2)
abbrev A3 : (⟨Cert.ReferenceIdeal.S2000000, .i32⟩ : BufTy).Contents (Elt Ideal) := m ((c : Thread nD τ).loc main_arg3)
abbrev A4 : (⟨Cert.ReferenceIdeal.S1000000, .i32⟩ : BufTy).Contents (Elt Ideal) := m ((c : Thread nD τ).loc main_arg4)
abbrev A5 : (⟨Cert.ReferenceIdeal.S1000000, .i32⟩ : BufTy).Contents (Elt Ideal) := m ((c : Thread nD τ).loc main_arg5)
abbrev A6 : (⟨Cert.ReferenceIdeal.S24x128, .f32⟩ : BufTy).Contents (Elt Ideal) := m ((c : Thread nD τ).loc main_arg6)
abbrev A7 : (⟨Cert.ReferenceIdeal.S128, .f32⟩ : BufTy).Contents (Elt Ideal) := m ((c : Thread nD τ).loc main_arg7)
abbrev A8 : (⟨Cert.ReferenceIdeal.S18x128, .f32⟩ : BufTy).Contents (Elt Ideal) := m ((c : Thread nD τ).loc main_arg8)
abbrev A9 : (⟨Cert.ReferenceIdeal.S18x128, .f32⟩ : BufTy).Contents (Elt Ideal) := m ((c : Thread nD τ).loc main_arg9)
abbrev A10 : (⟨Cert.ReferenceIdeal.S128, .f32⟩ : BufTy).Contents (Elt Ideal) := m ((c : Thread nD τ).loc main_arg10)
abbrev A11 : (⟨Cert.ReferenceIdeal.S24x128, .f32⟩ : BufTy).Contents (Elt Ideal) := m ((c : Thread nD τ).loc main_arg11)
abbrev A12 : (⟨Cert.ReferenceIdeal.S128x128, .f32⟩ : BufTy).Contents (Elt Ideal) := m ((c : Thread nD τ).loc main_arg12)
abbrev A13 : (⟨Cert.ReferenceIdeal.S128, .f32⟩ : BufTy).Contents (Elt Ideal) := m ((c : Thread nD τ).loc main_arg13)
abbrev A14 : (⟨Cert.ReferenceIdeal.S128x128, .f32⟩ : BufTy).Contents (Elt Ideal) := m ((c : Thread nD τ).loc main_arg14)
abbrev A15 : (⟨Cert.ReferenceIdeal.S128x128, .f32⟩ : BufTy).Contents (Elt Ideal) := m ((c : Thread nD τ).loc main_arg15)
abbrev A16 : (⟨Cert.ReferenceIdeal.S128, .f32⟩ : BufTy).Contents (Elt Ideal) := m ((c : Thread nD τ).loc main_arg16)
abbrev A17 : (⟨Cert.ReferenceIdeal.S128x128, .f32⟩ : BufTy).Contents (Elt Ideal) := m ((c : Thread nD τ).loc main_arg17)
abbrev A18 : (⟨Cert.ReferenceIdeal.S256x64, .f32⟩ : BufTy).Contents (Elt Ideal) := m ((c : Thread nD τ).loc main_arg18)
abbrev A19 : (⟨Cert.ReferenceIdeal.S64, .f32⟩ : BufTy).Contents (Elt Ideal) := m ((c : Thread nD τ).loc main_arg19)
abbrev A20 : (⟨Cert.ReferenceIdeal.S64x16, .f32⟩ : BufTy).Contents (Elt Ideal) := m ((c : Thread nD τ).loc main_arg20)
abbrev A21 : (⟨Cert.ReferenceIdeal.S16, .f32⟩ : BufTy).Contents (Elt Ideal) := m ((c : Thread nD τ).loc main_arg21)
abbrev A22 : (⟨Cert.ReferenceIdeal.S16x1, .f32⟩ : BufTy).Contents (Elt Ideal) := m ((c : Thread nD τ).loc main_arg22)
abbrev A23 : (⟨Cert.ReferenceIdeal.S1, .f32⟩ : BufTy).Contents (Elt Ideal) := m ((c : Thread nD τ).loc main_arg23)

/-- The four index arguments lie in their tables. -/
structure Ranges : Prop where
  r2 : InRange bcast_S_S2000000 99999#32 (A2 m c)
  r3 : InRange bcast_S_S2000000 19999#32 (A3 m c)
  r4 : InRange bcast_S_S1000000 99999#32 (A4 m c)
  r5 : InRange bcast_S_S1000000 19999#32 (A5 m c)

/-- A vector reshaped to a one-row table is its row layout. -/
theorem shapeCast_row {H : Nat} (b : (⟨1, ![H]⟩ : Shape).Idx → EReal) (h : (⟨1, ![H]⟩ : Shape).ShapeCasts ⟨2, ![1, H]⟩) :
    shapeCast ⟨2, ![1, H]⟩ b h = rowOf b := by
  funext j
  refine (shapeCast_addUnit_apply ![H] b h j).trans ?_
  unfold rowOf
  refine congrArg b (funext fun a => ?_)
  match a with
  | ⟨0, _⟩ => rfl

variable {m c}

/-! ## Layer 1 -/

/-- The mean of the user features over each movie's message edges. -/
theorem aggM1 (h : Ranges m c) : W4 m ρ c (Proc.devRef .tc main_v12) = val_main_v18 (A0 m c) (A2 m c) (A3 m c) := by
  rw [hop4 m ρ c main_v12 (by nw), hop3 m ρ c main_v12 (by nw), Fold0.W2_v12, Fold0.W1_v0, Fold0.W1_arg3,
    takeFill_eq_gatherWrapped _ _ _ _ _ _ _ _ _ _ _ _ _ _ _ h.r2]
  exact (RefTerms.aggM1 (A0 m c) (A2 m c) (A3 m c)).symm

/-- The first region leaves the movies' layer-1 table. -/
theorem m1 (h : Ranges m c) : W5 m ρ c (Proc.devRef .tc main_v27) = val_main_v24 (A0 m c) (A1 m c) (A2 m c) (A3 m c) (A6 m c) (A7 m c) (A8 m c) := by
  have e := Reg0.arr (V4 m ρ) c
  have hA : V4 m ρ c main_v12 = val_main_v18 (A0 m c) (A2 m c) (A3 m c) := aggM1 ρ h
  have hB : V4 m ρ c main_arg1 = A1 m c := at4 m ρ c arg1
  have hC : V4 m ρ c main_arg6 = A6 m c := at4 m ρ c arg6
  have hD : V4 m ρ c main_v26 = rowOf (A7 m c) := by
    refine (Fold0.W4_v26 m ρ c).trans ?_
    rw [at3 m ρ c arg7]
    exact shapeCast_row _ _
  have hE : V4 m ρ c main_arg8 = A8 m c := at4 m ρ c arg8
  rw [hA, hB, hC, hD, hE] at e
  exact ((W5_arr m ρ c 5).trans e).trans (Cert.ReferenceIdeal.RefComb.m1_eq (A0 m c) (A1 m c) (A2 m c) (A3 m c) (A6 m c) (A7 m c) (A8 m c)).symm

/-- The mean of the movie features over each user's message edges. -/
theorem aggU1 (h : Ranges m c) : W6 m ρ c (Proc.devRef .tc main_v25) = val_main_v43 (A1 m c) (A2 m c) (A3 m c) := by
  rw [hop6 m ρ c main_v25 (by nw), hop5 m ρ c main_v25 (by decide), Fold0.W4_v25, Fold0.W3_v13, Fold0.W2_arg1, Fold0.W2_arg3,
    Fold0.W3_arg2, takeFill_eq_gatherWrapped _ _ _ _ _ _ _ _ _ _ _ _ _ _ _ h.r3]
  exact (RefTerms.aggU1 (A1 m c) (A2 m c) (A3 m c)).symm

/-- The second region leaves the users' layer-1 table. -/
theorem u1 (h : Ranges m c) : W7 m ρ c (Proc.devRef .tc main_v29) = val_main_v49 (A0 m c) (A1 m c) (A2 m c) (A3 m c) (A9 m c) (A10 m c) (A11 m c) := by
  have e := Reg1.arr (V6 m ρ) c
  have hA : V6 m ρ c main_v25 = val_main_v43 (A1 m c) (A2 m c) (A3 m c) := aggU1 ρ h
  have hB : V6 m ρ c main_arg0 = A0 m c := at6 m ρ c arg0
  have hC : V6 m ρ c main_arg9 = A9 m c := at6 m ρ c arg9
  have hD : V6 m ρ c main_v28 = rowOf (A10 m c) := by
    refine (Fold0.W6_v28 m ρ c).trans ?_
    rw [at5 m ρ c arg10]
    exact shapeCast_row _ _
  have hE : V6 m ρ c main_arg11 = A11 m c := at6 m ρ c arg11
  rw [hA, hB, hC, hD, hE] at e
  exact ((W7_arr m ρ c 5).trans e).trans (Cert.ReferenceIdeal.RefComb.u1_eq (A0 m c) (A1 m c) (A2 m c) (A3 m c) (A9 m c) (A10 m c) (A11 m c)).symm

/-! ## Layer 2 -/

/-- The movies' layer-1 table, still in place further down the program. -/
theorem m1_at9 (h : Ranges m c) : W9 m ρ c (Proc.devRef .tc main_v27) = val_main_v24 (A0 m c) (A1 m c) (A2 m c) (A3 m c) (A6 m c) (A7 m c) (A8 m c) := by
  rw [hop9 m ρ c main_v27 (by nw), hop8 m ρ c main_v27 (by nw), hop7 m ρ c main_v27 (by decide), hop6 m ρ c main_v27 (by nw)]
  exact m1 ρ h
theorem m1_at11 (h : Ranges m c) : W11 m ρ c (Proc.devRef .tc main_v27) = val_main_v24 (A0 m c) (A1 m c) (A2 m c) (A3 m c) (A6 m c) (A7 m c) (A8 m c) := by
  rw [hop11 m ρ c main_v27 (by nw), hop10 m ρ c main_v27 (by nw)]
  exact m1_at9 ρ h
/-- The users' layer-1 table, still in place further down the program. -/
theorem u1_at13 (h : Ranges m c) : W13 m ρ c (Proc.devRef .tc main_v29) = val_main_v49 (A0 m c) (A1 m c) (A2 m c) (A3 m c) (A9 m c) (A10 m c) (A11 m c) := by
  rw [hop13 m ρ c main_v29 (by nw), hop12 m ρ c main_v29 (by decide), hop11 m ρ c main_v29 (by nw), hop10 m ρ c main_v29 (by nw),
    hop9 m ρ c main_v29 (by nw), hop8 m ρ c main_v29 (by nw)]
  exact u1 ρ h

/-- The mean of the users' layer-1 table over each movie's message edges. -/
theorem aggM2 (h : Ranges m c) : W11 m ρ c (Proc.devRef .tc main_v42) = val_main_v68 (A0 m c) (A1 m c) (A2 m c) (A3 m c) (A9 m c) (A10 m c) (A11 m c) := by
  rw [hop11 m ρ c main_v42 (by nw), hop10 m ρ c main_v42 (by nw), Fold1.W9_v42, Fold1.W8_v30, u1 ρ h, at7 m ρ c arg2, at8 m ρ c arg3,
    takeFill_eq_gatherWrapped _ _ _ _ _ _ _ _ _ _ _ _ _ _ _ h.r2]
  exact (RefTerms.aggM2 (A0 m c) (A1 m c) (A2 m c) (A3 m c) (A9 m c) (A10 m c) (A11 m c)).symm

/-- The third region leaves the movies' layer-2 table. -/
theorem m2 (h : Ranges m c) : W12 m ρ c (Proc.devRef .tc main_v57) = val_main_v74 (A0 m c) (A1 m c) (A2 m c) (A3 m c) (A6 m c) (A7 m c) (A8 m c) (A9 m c) (A10 m c) (A11 m c) (A12 m c) (A13 m c) (A14 m c) := by
  have e := Reg2.arr (V11 m ρ) c
  have hA : V11 m ρ c main_v42 = val_main_v68 (A0 m c) (A1 m c) (A2 m c) (A3 m c) (A9 m c) (A10 m c) (A11 m c) := aggM2 ρ h
  have hB : V11 m ρ c main_v27 = val_main_v24 (A0 m c) (A1 m c) (A2 m c) (A3 m c) (A6 m c) (A7 m c) (A8 m c) := m1_at11 ρ h
  have hC : V11 m ρ c main_arg12 = A12 m c := at11 m ρ c arg12
  have hD : V11 m ρ c main_v56 = rowOf (A13 m c) := by
    refine (Fold1.W11_v56 m ρ c).trans ?_
    rw [at10 m ρ c arg13]
    exact shapeCast_row _ _
  have hE : V11 m ρ c main_arg14 = A14 m c := at11 m ρ c arg14
  rw [hA, hB, hC, hD, hE] at e
  exact ((W12_arr m ρ c 5).trans e).trans (Cert.ReferenceIdeal.RefComb.m2_eq (A0 m c) (A1 m c) (A2 m c) (A3 m c) (A6 m c) (A7 m c) (A8 m c) (A9 m c) (A10 m c) (A11 m c) (A12 m c) (A13 m c) (A14 m c)).symm

/-- The mean of the movies' layer-1 table over each user's message edges. -/
theorem aggU2 (h : Ranges m c) : W13 m ρ c (Proc.devRef .tc main_v55) = val_main_v93 (A0 m c) (A1 m c) (A2 m c) (A3 m c) (A6 m c) (A7 m c) (A8 m c) := by
  rw [hop13 m ρ c main_v55 (by nw), hop12 m ρ c main_v55 (by decide), Fold1.W11_v55, Fold1.W10_v43, m1_at9 ρ h, at9 m ρ c arg3, at10 m ρ c arg2,
    takeFill_eq_gatherWrapped _ _ _ _ _ _ _ _ _ _ _ _ _ _ _ h.r3]
  exact (RefTerms.aggU2 (A0 m c) (A1 m c) (A2 m c) (A3 m c) (A6 m c) (A7 m c) (A8 m c)).symm

/-- The fourth region leaves the users' layer-2 table. -/
theorem u2 (h : Ranges m c) : W14 m ρ c (Proc.devRef .tc main_v59) = val_main_v99 (A0 m c) (A1 m c) (A2 m c) (A3 m c) (A6 m c) (A7 m c) (A8 m c) (A9 m c) (A10 m c) (A11 m c) (A15 m c) (A16 m c) (A17 m c) := by
  have e := Reg3.arr (V13 m ρ) c
  have hA : V13 m ρ c main_v55 = val_main_v93 (A0 m c) (A1 m c) (A2 m c) (A3 m c) (A6 m c) (A7 m c) (A8 m c) := aggU2 ρ h
  have hB : V13 m ρ c main_v29 = val_main_v49 (A0 m c) (A1 m c) (A2 m c) (A3 m c) (A9 m c) (A10 m c) (A11 m c) := u1_at13 ρ h
  have hC : V13 m ρ c main_arg15 = A15 m c := at13 m ρ c arg15
  have hD : V13 m ρ c main_v58 = rowOf (A16 m c) := by
    refine (Fold1.W13_v58 m ρ c).trans ?_
    rw [at12 m ρ c arg16]
    exact shapeCast_row _ _
  have hE : V13 m ρ c main_arg17 = A17 m c := at13 m ρ c arg17
  rw [hA, hB, hC, hD, hE] at e
  exact ((W14_arr m ρ c 5).trans e).trans (Cert.ReferenceIdeal.RefComb.u2_eq (A0 m c) (A1 m c) (A2 m c) (A3 m c) (A6 m c) (A7 m c) (A8 m c) (A9 m c) (A10 m c) (A11 m c) (A15 m c) (A16 m c) (A17 m c)).symm

/-! ## The rating head -/

/-- The movies' layer-2 table, still in place when the label edges' movie endpoints are gathered. -/
theorem m2_at15 (h : Ranges m c) : W15 m ρ c (Proc.devRef .tc main_v57) = val_main_v74 (A0 m c) (A1 m c) (A2 m c) (A3 m c) (A6 m c) (A7 m c) (A8 m c) (A9 m c) (A10 m c) (A11 m c) (A12 m c) (A13 m c) (A14 m c) := by
  rw [hop15 m ρ c main_v57 (by nw), hop14 m ρ c main_v57 (by decide), hop13 m ρ c main_v57 (by nw)]
  exact m2 ρ h

/-- The label edges' feature rows. -/
theorem feat (h : Ranges m c) : W17 m ρ c (Proc.devRef .tc main_v62) = val_main_v114 (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) := by
  rw [Fold2.W17_v62, hop16 m ρ c main_v60 (by nw), Fold2.W15_v60, Fold2.W16_v61, u2 ρ h, m2_at15 ρ h, at14 m ρ c arg4, at15 m ρ c arg5,
    takeFill_eq_gatherWrapped _ _ _ _ _ _ _ _ _ _ _ _ _ _ _ h.r4, takeFill_eq_gatherWrapped _ _ _ _ _ _ _ _ _ _ _ _ _ _ _ h.r5]
  exact (RefTerms.feat (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c)).symm

/-- The fifth region leaves the ratings as a column. -/
theorem col (h : Ranges m c) : W18 m ρ c (Proc.devRef .tc main_v66) = val_main_v136 (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) := by
  have e := Reg4.arr (V17 m ρ) c
  have hA : V17 m ρ c main_v62 = val_main_v114 (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) := feat ρ h
  have hB : V17 m ρ c main_arg18 = A18 m c := at17 m ρ c arg18
  have hC : V17 m ρ c main_v63 = rowOf (A19 m c) := by
    refine (Fold2.W17_v63 m ρ c).trans ?_
    rw [at16 m ρ c arg19]
    exact shapeCast_row _ _
  have hD : V17 m ρ c main_arg20 = A20 m c := at17 m ρ c arg20
  have hE : V17 m ρ c main_v64 = rowOf (A21 m c) := by
    refine (Fold2.W17_v64 m ρ c).trans ?_
    rw [at16 m ρ c arg21]
    exact shapeCast_row _ _
  have hF : V17 m ρ c main_arg22 = A22 m c := at17 m ρ c arg22
  have hG : V17 m ρ c main_v65 = rowOf (A23 m c) := by
    refine (Fold2.W17_v65 m ρ c).trans ?_
    rw [at16 m ρ c arg23]
    exact shapeCast_row _ _
  rw [hA, hB, hC, hD, hE, hF, hG] at e
  exact ((W18_arr m ρ c 7).trans e).trans (Cert.ReferenceIdeal.RefComb.out_eq (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c)).symm

/-- The program's result is the reference's result at the same arguments. -/
theorem out (h : Ranges m c) : W19 m ρ c (Proc.devRef .tc main_v67) = val_main_v137 (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) := by
  rw [Fold2.W19_v67, col ρ h]
  exact (RefTerms.out (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c)).symm

end Cert.Bridge

end
-- ==== Proof.lean ====
/-
  The kernel is a two-layer SAGE network on a user–movie graph with a three-layer rating head; its reference is the
  same network written with whole-table operations. Both compute, for every label edge, the logistic of the head's
  logit times five, from node tables obtained by two rounds of "mean of the neighbours' rows through one weight table,
  plus a bias, plus the node's own row through another".

  The two programs differ in three ways, none of which changes a value at the extended reals:
  * the kernel takes rows with a fill for positions outside the table, the reference gathers them; under the
    precondition every position lies in its table, where the two agree;
  * the kernel computes each layer, and the head, tile by tile over the rows, after narrowing the operands of its
    matrix products; a row of the result depends only on that row of the inputs, the narrowing is the identity, and a
    product into a zero accumulator is the plain sum, so the tiles are the tiles of the reference's whole table;
  * the kernel spells the logistic as one operation, the reference as one over one plus the exponential of the negated
    logit, which is the same function.
  The frames of the two kernel programs are the generated ones; the reference's frame is its generated run.
-/
import proofs.«401341_j58531814310253_1_alg».proof.Defs
import proofs.«401341_j58531814310253_1_alg».proof.Proof.Gen.Kernel
import proofs.«401341_j58531814310253_1_alg».proof.Proof.Gen.Kernel.Frame
import proofs.«401341_j58531814310253_1_alg».proof.Proof.Gen.KernelIdeal
import proofs.«401341_j58531814310253_1_alg».proof.Proof.Gen.KernelIdeal.Frame
import proofs.«401341_j58531814310253_1_alg».proof.Proof.Gen.ReferenceIdeal
import proofs.«401341_j58531814310253_1_alg».proof.Proof.Gen.ReferenceIdeal.Run
import proofs.«401341_j58531814310253_1_alg».proof.Proof.Gen.ReferenceIdeal.Read
import proofs.«401341_j58531814310253_1_alg».proof.Proof.Gen.Pre_finite_inputs
import proofs.«401341_j58531814310253_1_alg».proof.Proof.KRun
import proofs.«401341_j58531814310253_1_alg».proof.Proof.PreIdx
import proofs.«401341_j58531814310253_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Under the precondition the four index arguments lie in their tables. -/
theorem ranges (m : (ℓ : Loc Cert.KernelIdeal.nD Cert.KernelIdeal.τ Cert.KernelIdeal.sig) → Buf (Elt Ideal) ℓ)
    (hpre : Cert.Pre_KernelIdeal m) (c : Dev Cert.KernelIdeal.nD) : Cert.Bridge.Ranges m c := by
  obtain ⟨h2, h3, h4, h5⟩ := Cert.Pre_finite_inputs.Idx.ranges_of_pre (F := Ideal) _ _ _ _ _ _ _ _ _ _ _ _ _ _ _ _ _ _ _ _ _ _ _ _ (hpre c)
  exact ⟨h2, h3, h4, h5⟩

/-- From memories agreeing on the arguments the two programs end with the same ratings: the kernel's result buffer
    holds the reference's function of the arguments. -/
theorem algebraic : Cert.algebraic_KernelIdeal_ReferenceIdeal := by
  intro m ρ m' ρ' hpre hagree
  refine ⟨fun c => Cert.KernelIdeal.Gen.W19 m ρ c (Proc.devRef .tc Cert.KernelIdeal.main_v67), Cert.KernelIdeal.Gen.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20, e21, e22, e23⟩ := hagree c
  rw [Cert.ReferenceIdeal.Read.val_main_v137_eq, e0, e1, e2, e3, e4, e5, e6, e7, e8, e9, e10, e11, e12, e13, e14, e15, e16, e17, e18, e19, e20, e21, e22, e23]
  exact (Cert.Bridge.out ρ (ranges m hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
